-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩
abbrev S512x1 : Shape := ⟨2, ![512, 1]⟩
abbrev S2000x1 : Shape := ⟨2, ![2000, 1]⟩
abbrev S512x128 : Shape := ⟨2, ![512, 128]⟩
abbrev S2000x512 : Shape := ⟨2, ![2000, 512]⟩
abbrev S512 : Shape := ⟨1, ![512]⟩

abbrev nBuf : Space → Nat
  | .hbm => 117
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S100000, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S1700000x1, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1700000x1, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S1700000x1, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x128, .f32⟩
  | .hbm, ⟨105, _⟩ => ⟨S1700000x128, .f32⟩
  | .hbm, ⟨106, _⟩ => ⟨S_, .f32⟩
  | .hbm, ⟨107, _⟩ => ⟨S100000x128, .f32⟩
  | .hbm, ⟨108, _⟩ => ⟨S1700000x1, .i32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S100000x1, .i32⟩
  | .hbm, ⟨114, _⟩ => ⟨S1x1, .f32⟩
  | .hbm, ⟨115, _⟩ => ⟨S512x1, .f32⟩
  | .hbm, ⟨116, _⟩ => ⟨S512, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .i32⟩
  | .local _ .vmem, ⟨18, _⟩ => ⟨S2000x1, .i32⟩
  | .local _ .vmem, ⟨19, _⟩ => ⟨S128x1, .f32⟩
  | .local _ .vmem, ⟨20, _⟩ => ⟨S1x1, .f32⟩
  | .local _ .vmem, ⟨21, _⟩ => ⟨S512x1, .f32⟩
  | .local _ .vmem, ⟨22, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_9 : BitVec 32 := 0#32
  let v24 : BitVec 1 := Scalar.cmpi .ne v23 c0_i32_9
  v24

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  shapeCasts_S100000_S100000x1 : S100000.ShapeCasts S100000x1
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x512_S2000x128_S512x128_0_0_1_1_n_n_wf : DotDims.WF S2000x512 S2000x128 S512x128 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S512x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S1x1 : Shape := ⟨2, ![1, 1]⟩
abbrev S512 : Shape := ⟨1, ![512]⟩

abbrev nBuf : Space → Nat
  | .hbm => 213
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S100000x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S100000, .i32⟩
  | 78 => ⟨S1x1600000, .i32⟩
  | 79 => ⟨S1600000, .i32⟩
  | 80 => ⟨S1700000, .i32⟩
  | 81 => ⟨S1x1600000, .i32⟩
  | 82 => ⟨S1600000, .i32⟩
  | 83 => ⟨S1700000, .i32⟩
  | 84 => ⟨S_, .f32⟩
  | 85 => ⟨S100000, .f32⟩
  | 86 => ⟨S1700000, .f32⟩
  | 87 => ⟨S_, .f32⟩
  | 88 => ⟨S100000, .f32⟩
  | 89 => ⟨S1700000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S1700000x1, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S512x128, .f32⟩
  | 78 => ⟨S100000x1, .i32⟩
  | 79 => ⟨S512x128, .f32⟩
  | 80 => ⟨S512x1, .f32⟩
  | 81 => ⟨S1x1, .f32⟩
  | 82 => ⟨S512x1, .f32⟩
  | 83 => ⟨S512x1, .f32⟩
  | 84 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_17 : Ref sig .tc := ⟨.hbm, 119, rfl⟩
abbrev main_v86 : Ref sig .tc := ⟨.hbm, 120, rfl⟩
abbrev main_v87 : Ref sig .tc := ⟨.hbm, 121, rfl⟩
abbrev main_c_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call3_cst : Ref sig .tc := ⟨.hbm, 137, rfl⟩
abbrev main_call3_v0 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_cst_21 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_23 : Ref sig .tc := ⟨.hbm, 159, rfl⟩
abbrev main_v118 : Ref sig .tc := ⟨.hbm, 160, rfl⟩
abbrev main_v119 : Ref sig .tc := ⟨.hbm, 161, rfl⟩
abbrev main_c_24 : Ref sig .tc := ⟨.hbm, 162, rfl⟩
abbrev main_v120 : Ref sig .tc := ⟨.hbm, 163, rfl⟩
abbrev main_v121 : Ref sig .tc := ⟨.hbm, 164, rfl⟩
abbrev main_c_25 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_26 : Ref sig .tc := ⟨.hbm, 172, rfl⟩
abbrev main_v128 : Ref sig .tc := ⟨.hbm, 173, rfl⟩
abbrev main_v129 : Ref sig .tc := ⟨.hbm, 174, rfl⟩
abbrev main_c_27 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_28 : Ref sig .tc := ⟨.hbm, 183, rfl⟩
abbrev main_v137 : Ref sig .tc := ⟨.hbm, 184, rfl⟩
abbrev main_v138 : Ref sig .tc := ⟨.hbm, 185, rfl⟩
abbrev main_c_29 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_30 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_call5_cst : Ref sig .tc := ⟨.hbm, 201, rfl⟩
abbrev main_call5_v0 : Ref sig .tc := ⟨.hbm, 202, rfl⟩
abbrev main_v152 : Ref sig .tc := ⟨.hbm, 203, rfl⟩
abbrev main_cst_31 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.T0.lean ====
/-
  Region 0 of @main (a feature transform): at any contents `V` of the TensorCore's buffers when the region is
  entered, what each grid point's body leaves in its staging buffers, the body's triple, the pipeline's proof data and
  the body obligation. The body loads the point's 2000 rows of the input and the whole 128 × 128 weight, forms its one
  payload of the two (the rows — clamped below at zero in the second and third transforms, as they are in the first not —
  times the weight on the matrix unit into a zero accumulator) and stores the 2000 × 128 result over the whole output
  block; it reads nothing else and keeps nothing between points, so the region's invariant is the scoped rest and the
  generator register, untouched.
-/
import proofs.«423290_j63376537420022_1_alg».proof.Proof.Gen.KernelIdeal.Launch
import proofs.«423290_j63376537420022_1_alg».proof.Proof.Gen.KernelIdeal.Skeleton
import proofs.«423290_j63376537420022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window's staging buffer holds the point's rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point: fetched at the first, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rRows0 : Rect S2000x128 := Rect.unit (s := S2000x128) ![0, 0] S2000x128.size inb_S2000x128_S2000x128_0_0
abbrev rW0 : Rect S128x128 := Rect.unit (s := S128x128) ![0, 0] S128x128.size inb_S128x128_S128x128_0_0

/-- The output block after the body: the one whole-block store of the product of the loaded rows and the loaded weight. -/
def out0_2 (x0 : Vec F S2000x128 .f32) (x1 : Vec F S128x128 .f32) : Vec F S2000x128 .f32 :=
  View.canon [⟨rRows0, k0_pay1 (View.ld x0 rRows0) (View.ld x1 rW0)⟩]

/-- The one store covers the block. -/
theorem cover0_2 (p0 : Vec F S2000x128 .f32) (y : S2000x128.Idx) :
    ∃ pc ∈ ([⟨rRows0, p0⟩] : List (View.Piece (Elt F) S2000x128 .f32)), y ∈ pc.1.set :=
  View.cover_of_tiled [⟨rRows0, p0⟩] S2000x128.size (by rfl) y

set_option maxHeartbeats 1000000 in
/-- The body on whole staging memrefs: the inputs' kept, the output's at `out0_2` of the inputs'. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.T1.lean ====
/-
  Region 1 of @main (a feature transform): at any contents `V` of the TensorCore's buffers when the region is
  entered, what each grid point's body leaves in its staging buffers, the body's triple, the pipeline's proof data and
  the body obligation. The body loads the point's 2000 rows of the input and the whole 128 × 128 weight, forms its one
  payload of the two (the rows — clamped below at zero in the second and third transforms, as they are in the first not —
  times the weight on the matrix unit into a zero accumulator) and stores the 2000 × 128 result over the whole output
  block; it reads nothing else and keeps nothing between points, so the region's invariant is the scoped rest and the
  generator register, untouched.
-/
import proofs.«423290_j63376537420022_1_alg».proof.Proof.Gen.KernelIdeal.Launch
import proofs.«423290_j63376537420022_1_alg».proof.Proof.Gen.KernelIdeal.Skeleton
import proofs.«423290_j63376537420022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window's staging buffer holds the point's rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight at every point: fetched at the first, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rRows1 : Rect S2000x128 := Rect.unit (s := S2000x128) ![0, 0] S2000x128.size inb_S2000x128_S2000x128_0_0
abbrev rW1 : Rect S128x128 := Rect.unit (s := S128x128) ![0, 0] S128x128.size inb_S128x128_S128x128_0_0

/-- The output block after the body: the one whole-block store of the product of the loaded rows and the loaded weight. -/
def out1_2 (x0 : Vec F S2000x128 .f32) (x1 : Vec F S128x128 .f32) : Vec F S2000x128 .f32 :=
  View.canon [⟨rRows1, k1_pay1 (View.ld x0 rRows1) (View.ld x1 rW1)⟩]

/-- The one store covers the block. -/
theorem cover1_2 (p0 : Vec F S2000x128 .f32) (y : S2000x128.Idx) :
    ∃ pc ∈ ([⟨rRows1, p0⟩] : List (View.Piece (Elt F) S2000x128 .f32)), y ∈ pc.1.set :=
  View.cover_of_tiled [⟨rRows1, p0⟩] S2000x128.size (by rfl) y

set_option maxHeartbeats 1000000 in
/-- The body on whole staging memrefs: the inputs' kept, the output's at `out1_2` of the inputs'. -/
theorem sound_kernel1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__transform_kernel i arg1 harg1 arg2 harg2 arg3 harg3) K := by
  simp only [cc1__transform_kernel_eq_skeleton]; unfold cc1__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.T2.lean ====
/-
  Region 2 of @main (a feature transform): at any contents `V` of the TensorCore's buffers when the region is
  entered, what each grid point's body leaves in its staging buffers, the body's triple, the pipeline's proof data and
  the body obligation. The body loads the point's 2000 rows of the input and the whole 128 × 128 weight, forms its one
  payload of the two (the rows — clamped below at zero in the second and third transforms, as they are in the first not —
  times the weight on the matrix unit into a zero accumulator) and stores the 2000 × 128 result over the whole output
  block; it reads nothing else and keeps nothing between points, so the region's invariant is the scoped rest and the
  generator register, untouched.
-/
import proofs.«423290_j63376537420022_1_alg».proof.Proof.Gen.KernelIdeal.Launch
import proofs.«423290_j63376537420022_1_alg».proof.Proof.Gen.KernelIdeal.Skeleton
import proofs.«423290_j63376537420022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window's staging buffer holds the point's rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight at every point: fetched at the first, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rRows2 : Rect S2000x128 := Rect.unit (s := S2000x128) ![0, 0] S2000x128.size inb_S2000x128_S2000x128_0_0
abbrev rW2 : Rect S128x128 := Rect.unit (s := S128x128) ![0, 0] S128x128.size inb_S128x128_S128x128_0_0

/-- The output block after the body: the one whole-block store of the product of the loaded rows and the loaded weight. -/
def out2_2 (x0 : Vec F S2000x128 .f32) (x1 : Vec F S128x128 .f32) : Vec F S2000x128 .f32 :=
  View.canon [⟨rRows2, k2_pay1 (View.ld x0 rRows2) (View.ld x1 rW2)⟩]

/-- The one store covers the block. -/
theorem cover2_2 (p0 : Vec F S2000x128 .f32) (y : S2000x128.Idx) :
    ∃ pc ∈ ([⟨rRows2, p0⟩] : List (View.Piece (Elt F) S2000x128 .f32)), y ∈ pc.1.set :=
  View.cover_of_tiled [⟨rRows2, p0⟩] S2000x128.size (by rfl) y

set_option maxHeartbeats 1000000 in
/-- The body on whole staging memrefs: the inputs' kept, the output's at `out2_2` of the inputs'. -/
theorem sound_kernel2 (c : Dev nD) (E : Set ℕ) (i : grid2.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__transform_kernel i arg1 harg1 arg2 harg2 arg3 harg3) K := by
  simp only [cc2__transform_kernel_eq_skeleton]; unfold cc2__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.PoolDefs.lean ====
/-
  Region 3 of @main (the sum-pool and linear head): the proof data of its pipeline at any contents `V` of the
  TensorCore's buffers when the region is entered. The kernel keeps a 512 × 128 accumulator in a scratch buffer across
  its 50 grid points: the first point clears it; every point adds to it the product of the transposed one-hot mask of the
  point's 2000 graph labels with the point's 2000 rows clamped below at zero; the last point multiplies the accumulator
  by the 128 × 1 weight, adds the bias and stores the 512 × 1 result, the only store into the output block. So the
  accumulator after point `n` is a recursion on `n` over the skeleton's payloads, and the region's invariant before
  point `n + 1` holds the scratch at the accumulator after point `n`.
-/
import proofs.«423290_j63376537420022_1_alg».proof.Proof.Gen.KernelIdeal.Launch
import proofs.«423290_j63376537420022_1_alg».proof.Proof.Gen.KernelIdeal.Skeleton
import proofs.«423290_j63376537420022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator's scratch buffer, whole. -/
abbrev scM3 : Memref sig .tc .vmem S512x128 .f32 := Memref.whole cc3_scratch0

/-- THE ACCUMULATION: what the scratch holds after the body at point `n` — the first point's sum over the cleared
    accumulator, every later point's over what the point before left. -/
def accAt3 (c : Dev nD) : (n : ℕ) → n < cfg3.N → Vec F S512x128 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (accAt3 c n (Nat.lt_of_succ_lt hn))

theorem accAt3_zero (c : Dev nD) (hn : 0 < cfg3.N) :
    accAt3 V c 0 hn = k3_pay2 (iblk3 V c 0 ⟨0, hn⟩) (iblk3 V c 1 ⟨0, hn⟩) (k3_pay1 (F := F)) := rfl
theorem accAt3_succ (c : Dev nD) (n : ℕ) (hn : n + 1 < cfg3.N) :
    accAt3 V c (n + 1) hn = k3_pay2 (iblk3 V c 0 ⟨n + 1, hn⟩) (iblk3 V c 1 ⟨n + 1, hn⟩) (accAt3 V c n (Nat.lt_of_succ_lt hn)) := rfl

/-- What the head would store at point `t`: the accumulator after the point times the weight, plus the bias. Only the last
    point stores it; at the other points the output block is idle and nothing consults this value. -/
def out3_4 (c : Dev nD) (t : Fin cfg3.N) : Vec F S512x1 .f32 :=
  k3_pay3 (accAt3 V c t.val t.isLt) (iblk3 V c 2 t) (iblk3 V c 3 t)

/-- The core's scoped buffers that are neither a staging buffer of this region nor its scratch (the other regions'
    staging buffers), each at some contents: carried through the region unopened. -/
abbrev others3 (c : Dev nD) : sProp 𝕄 :=
  Pipeline.scopedRestBut (Ix := Unit) (Name := ℕ) (U := UR sig nD τ) (Lvl := ℕ) (Val := Elt F) spec3 c [cc3_scratch0]

/-- The region's invariant before position `n`: before the first point the class's (the scoped rest, the scratch at
    anything, and the generator register); afterwards the other scoped buffers, the scratch at the accumulator after the
    point before, and the generator register at some state. -/
def PhiS3 (c : Dev nD) : (n : ℕ) → n ≤ cfg3.N → sProp 𝕄
  | 0, _ => Pipeline.ΦA spec3 c
  | n + 1, hn => iprop(iprop(others3 (F := F) c ∗ owns (c : Thread nD τ) scM3 fullShare (accAt3 V c n hn)) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(others3 (F := F) c ∗ owns (c : Thread nD τ) scM3 fullShare (accAt3 V c n hn)) ∗ (∃ r, prngReg c r)) := rfl
theorem PhiS3_pos (c : Dev nD) (n : ℕ) (h : n ≤ cfg3.N) (hz : n ≠ 0) :
    PhiS3 V c n h = iprop(iprop(others3 (F := F) c ∗ owns (c : Thread nD τ) scM3 fullShare (accAt3 V c (n - 1) (by omega))) ∗ (∃ r, prngReg c r)) := by
  cases n with
  | zero => exact absurd rfl hz
  | succ n => rfl

/-- The proof data of the region's pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

end Cert.KernelIdeal.Hand

end
-- ==== Proof.Fold.lean ====
/-
  The contents of a TensorCore's unscoped buffers at every segment boundary of @main, as a fold from the launch memory:
  a stretch of host operations applies them in order; a kernel region leaves each of its arrays at what its pipeline's
  write-backs make of it and touches nothing else. Region `K`'s proof data are taken at the contents the fold has
  when the region is entered.
-/
import proofs.«423290_j63376537420022_1_alg».proof.Proof.T0
import proofs.«423290_j63376537420022_1_alg».proof.Proof.T1
import proofs.«423290_j63376537420022_1_alg».proof.Proof.T2
import proofs.«423290_j63376537420022_1_alg».proof.Proof.PoolDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the three host stretches before the first transform (the graph's rows, columns and normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b

/-- At region 0's exit: its arrays at what the pipeline leaves (the inputs as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb

/-- After the first aggregation (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (the inputs as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-- After the second aggregation (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves (the inputs as entered, the output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- After the third aggregation and the two reshapes (region 3's entry). -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the pipeline leaves (the inputs as entered, the output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-- After the closing reshape: the contents at the return. -/
abbrev W11 : Dev nD → Valuation τ sig (Elt F) := fun c => StableHlo.after hostOps4 (W10 m c)

end Cert.KernelIdeal.Hand

end
-- ==== Proof.PoolBody.lean ====
/-
  Region 3 of @main (the sum-pool and linear head): the body obligation of its pipeline, and the invariant at its two ends.
  The body's run is stated three times, once per control case of the point — the first (the accumulator is cleared, then
  gains the point's sum), the last (it gains the point's sum, then its head is stored over the output block) and the points
  between (it gains the point's sum) —, each with the accumulator's and the output's final contents as the skeleton's
  payloads of the plain loaded values: a load of the accumulator after a whole-block store into it reads that store's
  payload. The obligation at a point picks its case from the point's number, takes the accumulator from the invariant
  and returns it one step of the accumulation further.
-/
import proofs.«423290_j63376537420022_1_alg».proof.Proof.PoolDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer rectangle, however they are spelt. -/
theorem hz2 : (![0, 0] : Fin 2 → Nat) = fun _ => 0 := funext fun a => by fin_cases a <;> rfl

/-- The first conditional's condition (the point is the first), from the grid coordinates. -/
abbrev cond3_0 (i : grid3.Coords) : Prop := (Scalar.cmpi .ne (Scalar.extui (Scalar.cmpi .eq (BitVec.ofNat 32 (i 0).val) 0#32)) 0#32) = 1#1
/-- It holds at point 0 only. -/
theorem hcond3_0 : ∀ t : Fin cfg3.N, cond3_0 (grid3.coords t) ↔ t.val = 0 :=
  (by decide +kernel : ∀ t : Fin grid3.N, cond3_0 (grid3.coords t) ↔ t.val = 0)
/-- The second conditional's condition (the point is the last), from the grid coordinates. -/
abbrev cond3_1 (i : grid3.Coords) : Prop := k3_cond2 i = 1#1
/-- It holds at point 49 only. -/
theorem hcond3_1 : ∀ t : Fin cfg3.N, cond3_1 (grid3.coords t) ↔ t.val = 49 :=
  (by decide +kernel : ∀ t : Fin grid3.N, cond3_1 (grid3.coords t) ↔ t.val = 49)

/-- What a buffer reads after a list of stores whose LAST is a store of the whole block: that store's payload. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-! ## The body's run, case by case -/

set_option maxHeartbeats 1000000 in
/-- The body at the first point, on whole staging memrefs: the accumulator, at anything, is cleared and then holds the
    point's sum over the cleared accumulator; the rows and the labels are kept; nothing else is touched. -/
theorem sound_kernel3_A (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x128 .f32) (harg6 : arg6.IsWhole)
    (hc0 : cond3_0 i) (hc1 : ¬cond3_1 i)
    (x0 : Vec F S2000x128 .f32) (x1 : Vec F S2000x1 .i32) (K : PUnit → sProp 𝕄) :
    iprop(owns (c : Thread nD τ) arg1 fullShare x0 ∗ owns (c : Thread nD τ) arg2 fullShare x1 ∗ (∃ d, owns (c : Thread nD τ) arg6 fullShare d)
        ∗ (iprop(owns (c : Thread nD τ) arg1 fullShare x0 ∗ owns (c : Thread nD τ) arg2 fullShare x1
            ∗ owns (c : Thread nD τ) arg6 fullShare (k3_pay2 x0 x1 (k3_pay1 (F := F)))) -∗ K ⟨⟩))
      ⊢ wp frame (wpE (defs₀ (F := F)) Variants.none c none) E (cc3__pool_head_kernel i arg1 harg1 arg2 harg2 arg3 harg3 arg4 harg4 arg5 harg5 arg6 harg6) K := by
  simp only [cc3__pool_head_kernel_eq_skeleton]; unfold cc3__pool_head_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_cons_whole _ _ hz2, View.readCov_unit_zero (S := S512x128) _ hz2]
  simp only [View.readAt_eq_ld, View.ld_unit_zero (S := S2000x128) hz2, View.ld_unit_zero (S := S2000x1) hz2]

set_option maxHeartbeats 1000000 in
/-- The body at a point neither first nor last: the accumulator, at what the point before left, gains the point's sum. -/
theorem sound_kernel3_B (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x128 .f32) (harg6 : arg6.IsWhole)
    (hc0 : ¬cond3_0 i) (hc1 : ¬cond3_1 i)
    (x0 : Vec F S2000x128 .f32) (x1 : Vec F S2000x1 .i32) (xs : Vec F S512x128 .f32) (K : PUnit → sProp 𝕄) :
    iprop(owns (c : Thread nD τ) arg1 fullShare x0 ∗ owns (c : Thread nD τ) arg2 fullShare x1 ∗ owns (c : Thread nD τ) arg6 fullShare xs
        ∗ (iprop(owns (c : Thread nD τ) arg1 fullShare x0 ∗ owns (c : Thread nD τ) arg2 fullShare x1
            ∗ owns (c : Thread nD τ) arg6 fullShare (k3_pay2 x0 x1 xs)) -∗ K ⟨⟩))
      ⊢ wp frame (wpE (defs₀ (F := F)) Variants.none c none) E (cc3__pool_head_kernel i arg1 harg1 arg2 harg2 arg3 harg3 arg4 harg4 arg5 harg5 arg6 harg6) K := by
  simp only [cc3__pool_head_kernel_eq_skeleton]; unfold cc3__pool_head_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_cons_whole _ _ hz2]
  simp only [View.readAt_eq_ld, View.ld_unit_zero (S := S2000x128) hz2, View.ld_unit_zero (S := S2000x1) hz2, View.ld_unit_zero (S := S512x128) hz2]

set_option maxHeartbeats 1000000 in
/-- The body at the last point: the accumulator gains the point's sum, and the output block, at anything, is stored whole
    with the head of the accumulator just stored, the weight and the bias. -/
theorem sound_kernel3_C (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x128 .f32) (harg6 : arg6.IsWhole)
    (hc0 : ¬cond3_0 i) (hc1 : cond3_1 i)
    (x0 : Vec F S2000x128 .f32) (x1 : Vec F S2000x1 .i32) (x2 : Vec F S128x1 .f32) (x3 : Vec F S1x1 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k3_pay3 (k3_pay2 x0 x1 xs) x2 x3)
            ∗ owns (c : Thread nD τ) arg6 fullShare (k3_pay2 x0 x1 xs)) -∗ K ⟨⟩))
      ⊢ wp frame (wpE (defs₀ (F := F)) Variants.none c none) E (cc3__pool_head_kernel i arg1 harg1 arg2 harg2 arg3 harg3 arg4 harg4 arg5 harg5 arg6 harg6) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    rw [read_writes_cons_whole _ _ hz2, View.readCov_unit_zero (S := S512x128) _ hz2]
    simp only [View.readAt_eq_ld, View.ld_unit_zero (S := S2000x128) hz2, View.ld_unit_zero (S := S2000x1) hz2, View.ld_unit_zero (S := S512x128) hz2,
      View.ld_unit_zero (S := S128x1) hz2, View.ld_unit_zero (S := S1x1) hz2]
  iexists _; isplitr
  swap; · iexact H6
  ipureintro
  sl_unfold_words
  rw [read_writes_cons_whole _ _ hz2]
  simp only [View.readAt_eq_ld, View.ld_unit_zero (S := S2000x128) hz2, View.ld_unit_zero (S := S2000x1) hz2, View.ld_unit_zero (S := S512x128) hz2]

/-! ## Where the windows are idle, and the schedule of the output -/

/-- The four inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the output block is idle: the body stores nothing into it, -/
theorem idleAt3_4 : ∀ t : Fin cfg3.N, t.val ≠ 49 → cfg3.idle 4 (grid3.coords t) = true := by decide +kernel
/-- and the pipeline does not write it back; -/
theorem noFlush3_4 : ∀ t : Fin cfg3.N, t.val ≠ 49 → (cfg3.win 4).flush t = false := by decide +kernel
/-- at the last point it is live. -/
theorem liveAt3_4 : ∀ t : Fin cfg3.N, t.val = 49 → cfg3.idle 4 (grid3.coords t) = false := by decide +kernel

/-! ## The class's invariant with the accumulator named -/

/-- The two sides of a separating conjunction, exchanged. -/
theorem sep_swap {M : Type} [URA M] (P Q : sProp M) : iprop(P ∗ Q) = iprop(Q ∗ P) := by
  have h₁ : iprop(P ∗ Q) ⊢ iprop(Q ∗ P) := by
    iintro ⟨HP, HQ⟩
    isplitl [HQ]; · iexact HQ
    iexact HP
  have h₂ : iprop(Q ∗ P) ⊢ iprop(P ∗ Q) := by
    iintro ⟨HQ, HP⟩
    isplitl [HP]; · iexact HP
    iexact HQ
  exact BI.equiv_iff.mp ⟨h₁, h₂⟩

/-- What the launch hands the region: the other regions' staging buffers and the accumulator's buffer, each at anything,
    and the generator register. -/
theorem PhiA3_eq (c : Dev nD) :
    (Pipeline.ΦA spec3 c : sProp 𝕄)
      = iprop(iprop(others3 (F := F) c ∗ (∃ d, owns (c : Thread nD τ) scM3 fullShare d)) ∗ (∃ r, prngReg c r)) := by
  unfold Pipeline.ΦA
  rw [Pipeline.scopedRest_split_of_list spec3 c [cc3_scratch0] (by decide) (by decide), bigSepL_singleton]
  simp only [scM3, owns_whole]
  exact congrArg (fun X : sProp 𝕄 => iprop(X ∗ (∃ r, prngReg c r))) (sep_swap _ _)

/-! ## The inputs' staging buffers -/

/-- Each input's current staging buffer holds its block at every point, fetched there or not: unfetched, its block index
    has not moved since the fetch. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-- So the body must hand each back at its block: the inputs are live at every point. -/
theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (iblk3 V c 3 t) := by
  unfold Dat.leavesExact; rw [liveAt3_3 t, after3_3]

/-! ## The accumulation, one step -/

/-- At the first point the accumulator ends at the point's sum over the cleared accumulator. -/
theorem accAt3_first (c : Dev nD) (t : Fin cfg3.N) (hz : t.val = 0) :
    accAt3 V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- At a later point it ends at the point's sum over what the point before left. -/
theorem accAt3_step (c : Dev nD) (t : Fin cfg3.N) (hz : t.val ≠ 0) :
    accAt3 V c t.val t.isLt
      = k3_pay2 (iblk3 V c 0 t) (iblk3 V c 1 t) (accAt3 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' memrefs hold their blocks; the point is the first, the last, or neither. At the
    first the invariant hands the body the accumulator at anything, later at what the point before left; the body's run
    leaves it at this point's accumulation, which is the invariant after the point. Away from the last point the output
    block is idle and goes back untouched; at the last it is stored whole with the head of the final accumulator. The other
    regions' staging buffers, the generator register and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  have hN : t.val < 50 := lt_of_lt_of_eq t.isLt (show cfg3.N = 50 from N_3)
  by_cases h49 : t.val = 49
  · have hz : t.val ≠ 0 := by omega
    rw [show (dat3 V c).leavesExact 4 t = owns (c : Thread nD τ) (st3_4 t) fullShare (out3_4 V c t) from by
      unfold Dat.leavesExact; rw [liveAt3_4 t h49, after3_4]]
    unfold out3_4
    rw [PhiS3_castSucc V c t, PhiS3_pos V c _ _ hz, accAt3_step V c t hz]
    iintro ⟨⟨⟨HO, HS⟩, Hg⟩, Ho, ⟨%d0, H0⟩, ⟨%d1, H1⟩, ⟨%d2, H2⟩, ⟨%d3, H3⟩, ⟨%d4, H4⟩⟩
    iapply (sound_kernel3_C c Set.univ (grid3.coords t) _ _ _ _ _ _ _ _ _ _ _ _ (fun h => hz ((hcond3_0 t).mp h)) ((hcond3_1 t).mpr h49)
      (iblk3 V c 0 t) (iblk3 V c 1 t) (iblk3 V c 2 t) (iblk3 V c 3 t) (accAt3 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HO HS Hg]
    · isplitl [HO HS]
      · isplitl [HO]; · iexact HO
        iexact HS
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idleAt3_4 t h49) (noFlush3_4 t h49)]
    by_cases hz : t.val = 0
    · rw [PhiS3_castSucc V c t, PhiS3_zero V c _ _ hz, PhiA3_eq, accAt3_first V c t hz]
      iintro ⟨⟨⟨HO, HS⟩, Hg⟩, Ho, ⟨%d0, H0⟩, ⟨%d1, H1⟩, ⟨%d2, H2⟩, ⟨%d3, H3⟩, ⟨%d4, H4⟩⟩
      iapply (sound_kernel3_A c Set.univ (grid3.coords t) _ _ _ _ _ _ _ _ _ _ _ _ ((hcond3_0 t).mpr hz) (fun h => h49 ((hcond3_1 t).mp h))
        (iblk3 V c 0 t) (iblk3 V c 1 t) _)
      isplitl [H0]; · iexact H0
      isplitl [H1]; · iexact H1
      isplitl [HS]; · iexact HS
      iintro ⟨H0, H1, HS⟩
      isplitl [HO HS Hg]
      · isplitl [HO HS]
        · isplitl [HO]; · iexact HO
          iexact HS
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz, accAt3_step V c t hz]
      iintro ⟨⟨⟨HO, HS⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ (fun h => hz ((hcond3_0 t).mp h)) (fun h => h49 ((hcond3_1 t).mp h))
        (iblk3 V c 0 t) (iblk3 V c 1 t) (accAt3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HO HS Hg]
      · isplitl [HO HS]
        · isplitl [HO]; · iexact HO
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's back: the accumulator's contents are forgotten. -/
theorem hout3 (c : Dev nD) : (dat3 V c).Φ (Fin.last cfg3.N) ⊢ Pipeline.ΦA spec3 c := by
  have hN : cfg3.N = 50 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨HO, HS⟩, Hg⟩
  isplitl [HO HS]
  · isplitl [HO]; · iexact HO
    iexists _; iexact HS
  iexact Hg

end Cert.KernelIdeal.Hand

end
-- ==== Proof.RunAll.lean ====
/-
  The run of @main as its eleven segments — three stretches of host operations, then each of the four kernel regions
  followed by a stretch — from the launch to the return: every weakly fair execution terminates, nothing faulting, and
  the final memory holds every unscoped buffer at the fold of the segments over the launch memory. Each region is entered
  from every unscoped buffer held at the fold's contents there and left at the next; its arrays are split out of those
  buffers at entry and put back at exit; nothing is owed and no kernel has a semaphore of its own.
-/
import proofs.«423290_j63376537420022_1_alg».proof.Proof.Fold
import proofs.«423290_j63376537420022_1_alg».proof.Proof.PoolBody
import proofs.«423290_j63376537420022_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's exit contents read at the TensorCore's references. -/
abbrev E4 : (c : Dev nD) → (b : Ref sig .tc) → Buf (Elt F) ((c : Thread nD τ).loc b) := fun c b => W4 m c b
/-- At region 0's exit each of its arrays holds what the pipeline leaves, -/
theorem hF0 (c : Dev nD) (w : Fin cfg0.W) : (dat0 (V3 m) c).arrAt w cfg0.N = E4 m c (Pipeline.arrRef spec0 w) :=
  (W4_arr m c w).symm
/-- and every other buffer what it held at entry. -/
theorem hrest0 (c : Dev nD) : ∀ b, b ∉ Finset.univ.image (Pipeline.arrRef spec0) → E4 m c b = V3 m c b :=
  fun b hb => W4_of_ne m c b fun w e => hb (Finset.mem_image.mpr ⟨w, Finset.mem_univ _, e⟩)

/-- Region 1's exit contents read at the TensorCore's references. -/
abbrev E6 : (c : Dev nD) → (b : Ref sig .tc) → Buf (Elt F) ((c : Thread nD τ).loc b) := fun c b => W6 m c b
/-- At region 1's exit each of its arrays holds what the pipeline leaves, -/
theorem hF1 (c : Dev nD) (w : Fin cfg1.W) : (dat1 (V5 m) c).arrAt w cfg1.N = E6 m c (Pipeline.arrRef spec1 w) :=
  (W6_arr m c w).symm
/-- and every other buffer what it held at entry. -/
theorem hrest1 (c : Dev nD) : ∀ b, b ∉ Finset.univ.image (Pipeline.arrRef spec1) → E6 m c b = V5 m c b :=
  fun b hb => W6_of_ne m c b fun w e => hb (Finset.mem_image.mpr ⟨w, Finset.mem_univ _, e⟩)

/-- Region 2's exit contents read at the TensorCore's references. -/
abbrev E8 : (c : Dev nD) → (b : Ref sig .tc) → Buf (Elt F) ((c : Thread nD τ).loc b) := fun c b => W8 m c b
/-- At region 2's exit each of its arrays holds what the pipeline leaves, -/
theorem hF2 (c : Dev nD) (w : Fin cfg2.W) : (dat2 (V7 m) c).arrAt w cfg2.N = E8 m c (Pipeline.arrRef spec2 w) :=
  (W8_arr m c w).symm
/-- and every other buffer what it held at entry. -/
theorem hrest2 (c : Dev nD) : ∀ b, b ∉ Finset.univ.image (Pipeline.arrRef spec2) → E8 m c b = V7 m c b :=
  fun b hb => W8_of_ne m c b fun w e => hb (Finset.mem_image.mpr ⟨w, Finset.mem_univ _, e⟩)

/-- Region 3's exit contents read at the TensorCore's references. -/
abbrev E10 : (c : Dev nD) → (b : Ref sig .tc) → Buf (Elt F) ((c : Thread nD τ).loc b) := fun c b => W10 m c b
/-- At region 3's exit each of its arrays holds what the pipeline leaves, -/
theorem hF3 (c : Dev nD) (w : Fin cfg3.W) : (dat3 (V9 m) c).arrAt w cfg3.N = E10 m c (Pipeline.arrRef spec3 w) :=
  (W10_arr m c w).symm
/-- and every other buffer what it held at entry. -/
theorem hrest3 (c : Dev nD) : ∀ b, b ∉ Finset.univ.image (Pipeline.arrRef spec3) → E10 m c b = V9 m c b :=
  fun b hb => W10_of_ne m c b fun w e => hb (Finset.mem_image.mpr ⟨w, Finset.mem_univ _, e⟩)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c

/-- An unscoped TensorCore reference is among those the run's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the core
    owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the fold's last contents, the generator
    register at some state. -/
abbrev Tₙ (c : Dev nD) : sProp 𝕄 := iprop(StableHlo.held (c : Thread nD τ) (Pipeline.ucRefs τ sig) (W11 m c) ∗ ∃ r, prngReg c r)

set_option backward.isDefEq.respectTransparency.types false in
/-- REGION 0 (the first feature transform) over the thread state: entered from every unscoped buffer at `W3`, left at `W4`.
    Its arrays are split out of the unscoped buffers at entry and put back at the exit contents; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the second feature transform) over the thread state: entered from every unscoped buffer at `W5`, left at `W6`.
    Its arrays are split out of the unscoped buffers at entry and put back at the exit contents; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the third feature transform) over the thread state: entered from every unscoped buffer at `W7`, left at `W8`.
    Its arrays are split out of the unscoped buffers at entry and put back at the exit contents; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the sum-pool and linear head) over the thread state: entered from every unscoped buffer at `W9`, left at `W10`.
    Its arrays are split out of the unscoped buffers at entry and put back at the exit contents; the generator register
    goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V9 m) c)
    unfold Pipeline.ΦA
    iintro ⟨Hp, -, Hr⟩
    isplitl [Hr]; · iexact Hr
    iexact Hp
  hout c := by
    rw [Pipeline.ownSems0_none]
    refine BIBase.Entails.trans (hout3 (V9 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (E10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's eleven segments in order: a host segment per stretch from its boundary's contents, a region per kernel. -/
abbrev runSegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

/-- @main is the run of the segments: both are the chain of the same eleven fragments. -/
theorem main_run (c : Dev nD) : main (F := F) c = Pipeline.Seg.run (runSegs m) := by
  rewrite [main_chain c, Pipeline.Seg.run_eq_chain,
    show (runSegs m).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4 ] from rfl]
  rfl

set_option backward.isDefEq.respectTransparency.types false in
/-- THE RUN: from any memory with zero counters every weakly fair execution of @main terminates, nothing faulting, and
    the final memory holds every unscoped buffer at the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-! No segment writes an argument: a host stretch writes only its own results, a region only its output window's array; an
    argument a region reads through an input window is held there as entered. So the fold at an argument walks back to
    the launch memory. -/

/-- No segment writes the first argument: the fold there walks back to the launch memory. (One such lemma per argument.) -/
theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_writes_sub hostOps4 _ hostOps4_writes (by decide)
    _ = W9 m c (Proc.devRef .tc main_arg0) := W10_of_ne m c main_arg0 (by decide)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (V3 m) c).arrAt_in 0 rfl _).trans (A_eq0 (V3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_writes_sub hostOps4 _ hostOps4_writes (by decide)
    _ = W9 m c (Proc.devRef .tc main_arg1) := W10_of_ne m c main_arg1 (by decide)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W11_main_arg2 (c : Dev nD) : W11 m c (Proc.devRef .tc main_arg2) = m ((c : Thread nD τ).loc main_arg2) :=
  calc W11 m c (Proc.devRef .tc main_arg2)
    _ = W10 m c (Proc.devRef .tc main_arg2) := StableHlo.after_of_writes_sub hostOps4 _ hostOps4_writes (by decide)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W11_main_arg3 (c : Dev nD) : W11 m c (Proc.devRef .tc main_arg3) = m ((c : Thread nD τ).loc main_arg3) :=
  calc W11 m c (Proc.devRef .tc main_arg3)
    _ = W10 m c (Proc.devRef .tc main_arg3) := StableHlo.after_of_writes_sub hostOps4 _ hostOps4_writes (by decide)
    _ = W9 m c (Proc.devRef .tc main_arg3) := W10_of_ne m c main_arg3 (by decide)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W11_main_arg4 (c : Dev nD) : W11 m c (Proc.devRef .tc main_arg4) = m ((c : Thread nD τ).loc main_arg4) :=
  calc W11 m c (Proc.devRef .tc main_arg4)
    _ = W10 m c (Proc.devRef .tc main_arg4) := StableHlo.after_of_writes_sub hostOps4 _ hostOps4_writes (by decide)
    _ = W9 m c (Proc.devRef .tc main_arg4) := W10_of_ne m c main_arg4 (by decide)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := (W4_arr m c 1).trans (((dat0 (V3 m) c).arrAt_in 1 rfl _).trans (A_eq0 (V3 m) c 1))
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W11_main_arg5 (c : Dev nD) : W11 m c (Proc.devRef .tc main_arg5) = m ((c : Thread nD τ).loc main_arg5) :=
  calc W11 m c (Proc.devRef .tc main_arg5)
    _ = W10 m c (Proc.devRef .tc main_arg5) := StableHlo.after_of_writes_sub hostOps4 _ hostOps4_writes (by decide)
    _ = W9 m c (Proc.devRef .tc main_arg5) := W10_of_ne m c main_arg5 (by decide)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W11_main_arg6 (c : Dev nD) : W11 m c (Proc.devRef .tc main_arg6) = m ((c : Thread nD τ).loc main_arg6) :=
  calc W11 m c (Proc.devRef .tc main_arg6)
    _ = W10 m c (Proc.devRef .tc main_arg6) := StableHlo.after_of_writes_sub hostOps4 _ hostOps4_writes (by decide)
    _ = W9 m c (Proc.devRef .tc main_arg6) := W10_of_ne m c main_arg6 (by decide)
    _ = W8 m c (Proc.devRef .tc main_arg6) := StableHlo.after_of_writes_sub hostOps3 _ hostOps3_writes (by decide)
    _ = W7 m c (Proc.devRef .tc main_arg6) := W8_of_ne m c main_arg6 (by decide)
    _ = W6 m c (Proc.devRef .tc main_arg6) := StableHlo.after_of_writes_sub hostOps2 _ hostOps2_writes (by decide)
    _ = W5 m c (Proc.devRef .tc main_arg6) := (W6_arr m c 1).trans (((dat1 (V5 m) c).arrAt_in 1 rfl _).trans (A_eq1 (V5 m) c 1))
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl
theorem W11_main_arg7 (c : Dev nD) : W11 m c (Proc.devRef .tc main_arg7) = m ((c : Thread nD τ).loc main_arg7) :=
  calc W11 m c (Proc.devRef .tc main_arg7)
    _ = W10 m c (Proc.devRef .tc main_arg7) := StableHlo.after_of_writes_sub hostOps4 _ hostOps4_writes (by decide)
    _ = W9 m c (Proc.devRef .tc main_arg7) := W10_of_ne m c main_arg7 (by decide)
    _ = W8 m c (Proc.devRef .tc main_arg7) := StableHlo.after_of_writes_sub hostOps3 _ hostOps3_writes (by decide)
    _ = W7 m c (Proc.devRef .tc main_arg7) := W8_of_ne m c main_arg7 (by decide)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl
theorem W11_main_arg8 (c : Dev nD) : W11 m c (Proc.devRef .tc main_arg8) = m ((c : Thread nD τ).loc main_arg8) :=
  calc W11 m c (Proc.devRef .tc main_arg8)
    _ = W10 m c (Proc.devRef .tc main_arg8) := StableHlo.after_of_writes_sub hostOps4 _ hostOps4_writes (by decide)
    _ = W9 m c (Proc.devRef .tc main_arg8) := W10_of_ne m c main_arg8 (by decide)
    _ = W8 m c (Proc.devRef .tc main_arg8) := StableHlo.after_of_writes_sub hostOps3 _ hostOps3_writes (by decide)
    _ = W7 m c (Proc.devRef .tc main_arg8) := (W8_arr m c 1).trans (((dat2 (V7 m) c).arrAt_in 1 rfl _).trans (A_eq2 (V7 m) c 1))
    _ = W6 m c (Proc.devRef .tc main_arg8) := StableHlo.after_of_writes_sub hostOps2 _ hostOps2_writes (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl
theorem W11_main_arg9 (c : Dev nD) : W11 m c (Proc.devRef .tc main_arg9) = m ((c : Thread nD τ).loc main_arg9) :=
  calc W11 m c (Proc.devRef .tc main_arg9)
    _ = W10 m c (Proc.devRef .tc main_arg9) := StableHlo.after_of_writes_sub hostOps4 _ hostOps4_writes (by decide)
    _ = W9 m c (Proc.devRef .tc main_arg9) := W10_of_ne m c main_arg9 (by decide)
    _ = W8 m c (Proc.devRef .tc main_arg9) := StableHlo.after_of_writes_sub hostOps3 _ hostOps3_writes (by decide)
    _ = W7 m c (Proc.devRef .tc main_arg9) := W8_of_ne m c main_arg9 (by decide)
    _ = W6 m c (Proc.devRef .tc main_arg9) := StableHlo.after_of_writes_sub hostOps2 _ hostOps2_writes (by decide)
    _ = W5 m c (Proc.devRef .tc main_arg9) := W6_of_ne m c main_arg9 (by decide)
    _ = W4 m c (Proc.devRef .tc main_arg9) := StableHlo.after_of_writes_sub hostOps1 _ hostOps1_writes (by decide)
    _ = W3 m c (Proc.devRef .tc main_arg9) := W4_of_ne m c main_arg9 (by decide)
    _ = W2 m c (Proc.devRef .tc main_arg9) := StableHlo.after_of_writes_sub hostOps0_2 _ hostOps0_2_writes (by decide)
    _ = W1 m c (Proc.devRef .tc main_arg9) := StableHlo.after_of_writes_sub hostOps0_1 _ hostOps0_1_writes (by decide)
    _ = W0 m c (Proc.devRef .tc main_arg9) := StableHlo.after_of_writes_sub hostOps0 _ hostOps0_writes (by decide)
    _ = m ((c : Thread nD τ).loc main_arg9) := rfl
theorem W11_main_arg10 (c : Dev nD) : W11 m c (Proc.devRef .tc main_arg10) = m ((c : Thread nD τ).loc main_arg10) :=
  calc W11 m c (Proc.devRef .tc main_arg10)
    _ = W10 m c (Proc.devRef .tc main_arg10) := StableHlo.after_of_writes_sub hostOps4 _ hostOps4_writes (by decide)
    _ = W9 m c (Proc.devRef .tc main_arg10) := (W10_arr m c 2).trans (((dat3 (V9 m) c).arrAt_in 2 rfl _).trans (A_eq3 (V9 m) c 2))
    _ = W8 m c (Proc.devRef .tc main_arg10) := StableHlo.after_of_writes_sub hostOps3 _ hostOps3_writes (by decide)
    _ = W7 m c (Proc.devRef .tc main_arg10) := W8_of_ne m c main_arg10 (by decide)
    _ = W6 m c (Proc.devRef .tc main_arg10) := StableHlo.after_of_writes_sub hostOps2 _ hostOps2_writes (by decide)
    _ = W5 m c (Proc.devRef .tc main_arg10) := W6_of_ne m c main_arg10 (by decide)
    _ = W4 m c (Proc.devRef .tc main_arg10) := StableHlo.after_of_writes_sub hostOps1 _ hostOps1_writes (by decide)
    _ = W3 m c (Proc.devRef .tc main_arg10) := W4_of_ne m c main_arg10 (by decide)
    _ = W2 m c (Proc.devRef .tc main_arg10) := StableHlo.after_of_writes_sub hostOps0_2 _ hostOps0_2_writes (by decide)
    _ = W1 m c (Proc.devRef .tc main_arg10) := StableHlo.after_of_writes_sub hostOps0_1 _ hostOps0_1_writes (by decide)
    _ = W0 m c (Proc.devRef .tc main_arg10) := StableHlo.after_of_writes_sub hostOps0 _ hostOps0_writes (by decide)
    _ = m ((c : Thread nD τ).loc main_arg10) := rfl
theorem W11_main_arg11 (c : Dev nD) : W11 m c (Proc.devRef .tc main_arg11) = m ((c : Thread nD τ).loc main_arg11) :=
  calc W11 m c (Proc.devRef .tc main_arg11)
    _ = W10 m c (Proc.devRef .tc main_arg11) := StableHlo.after_of_writes_sub hostOps4 _ hostOps4_writes (by decide)
    _ = W9 m c (Proc.devRef .tc main_arg11) := W10_of_ne m c main_arg11 (by decide)
    _ = W8 m c (Proc.devRef .tc main_arg11) := StableHlo.after_of_writes_sub hostOps3 _ hostOps3_writes (by decide)
    _ = W7 m c (Proc.devRef .tc main_arg11) := W8_of_ne m c main_arg11 (by decide)
    _ = W6 m c (Proc.devRef .tc main_arg11) := StableHlo.after_of_writes_sub hostOps2 _ hostOps2_writes (by decide)
    _ = W5 m c (Proc.devRef .tc main_arg11) := W6_of_ne m c main_arg11 (by decide)
    _ = W4 m c (Proc.devRef .tc main_arg11) := StableHlo.after_of_writes_sub hostOps1 _ hostOps1_writes (by decide)
    _ = W3 m c (Proc.devRef .tc main_arg11) := W4_of_ne m c main_arg11 (by decide)
    _ = W2 m c (Proc.devRef .tc main_arg11) := StableHlo.after_of_writes_sub hostOps0_2 _ hostOps0_2_writes (by decide)
    _ = W1 m c (Proc.devRef .tc main_arg11) := StableHlo.after_of_writes_sub hostOps0_1 _ hostOps0_1_writes (by decide)
    _ = W0 m c (Proc.devRef .tc main_arg11) := StableHlo.after_of_writes_sub hostOps0 _ hostOps0_writes (by decide)
    _ = m ((c : Thread nD τ).loc main_arg11) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
   ⟨(h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c),
    (h c _ (mem_uc main_arg9 (by decide))).trans (W11_main_arg9 m c),
    (h c _ (mem_uc main_arg10 (by decide))).trans (W11_main_arg10 m c),
    (h c _ (mem_uc main_arg11 (by decide))).trans (W11_main_arg11 m c)⟩) (run_all m ρ)

end Cert.KernelIdeal.Hand

end
-- ==== Proof.Bits.T0.lean ====
/-
  Region 0 of @main (a feature transform): at any contents `V` of the TensorCore's buffers when the region is
  entered, what each grid point's body leaves in its staging buffers, the body's triple, the pipeline's proof data and
  the body obligation. The body loads the point's 2000 rows of the input and the whole 128 × 128 weight, forms its one
  payload of the two (the rows — clamped below at zero in the second and third transforms, as they are in the first not —
  times the weight on the matrix unit into a zero accumulator) and stores the 2000 × 128 result over the whole output
  block; it reads nothing else and keeps nothing between points, so the region's invariant is the scoped rest and the
  generator register, untouched.
-/
import proofs.«423290_j63376537420022_1_alg».proof.Proof.Gen.Kernel.Launch
import proofs.«423290_j63376537420022_1_alg».proof.Proof.Gen.Kernel.Skeleton
import proofs.«423290_j63376537420022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window's staging buffer holds the point's rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point: fetched at the first, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rRows0 : Rect S2000x128 := Rect.unit (s := S2000x128) ![0, 0] S2000x128.size inb_S2000x128_S2000x128_0_0
abbrev rW0 : Rect S128x128 := Rect.unit (s := S128x128) ![0, 0] S128x128.size inb_S128x128_S128x128_0_0

/-- The output block after the body: the one whole-block store of the product of the loaded rows and the loaded weight. -/
def out0_2 (x0 : Vec F S2000x128 .f32) (x1 : Vec F S128x128 .f32) : Vec F S2000x128 .f32 :=
  View.canon [⟨rRows0, k0_pay1 (View.ld x0 rRows0) (View.ld x1 rW0)⟩]

/-- The one store covers the block. -/
theorem cover0_2 (p0 : Vec F S2000x128 .f32) (y : S2000x128.Idx) :
    ∃ pc ∈ ([⟨rRows0, p0⟩] : List (View.Piece (Elt F) S2000x128 .f32)), y ∈ pc.1.set :=
  View.cover_of_tiled [⟨rRows0, p0⟩] S2000x128.size (by rfl) y

set_option maxHeartbeats 1000000 in
/-- The body on whole staging memrefs: the inputs' kept, the output's at `out0_2` of the inputs'. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.T1.lean ====
/-
  Region 1 of @main (a feature transform): at any contents `V` of the TensorCore's buffers when the region is
  entered, what each grid point's body leaves in its staging buffers, the body's triple, the pipeline's proof data and
  the body obligation. The body loads the point's 2000 rows of the input and the whole 128 × 128 weight, forms its one
  payload of the two (the rows — clamped below at zero in the second and third transforms, as they are in the first not —
  times the weight on the matrix unit into a zero accumulator) and stores the 2000 × 128 result over the whole output
  block; it reads nothing else and keeps nothing between points, so the region's invariant is the scoped rest and the
  generator register, untouched.
-/
import proofs.«423290_j63376537420022_1_alg».proof.Proof.Gen.Kernel.Launch
import proofs.«423290_j63376537420022_1_alg».proof.Proof.Gen.Kernel.Skeleton
import proofs.«423290_j63376537420022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window's staging buffer holds the point's rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight at every point: fetched at the first, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rRows1 : Rect S2000x128 := Rect.unit (s := S2000x128) ![0, 0] S2000x128.size inb_S2000x128_S2000x128_0_0
abbrev rW1 : Rect S128x128 := Rect.unit (s := S128x128) ![0, 0] S128x128.size inb_S128x128_S128x128_0_0

/-- The output block after the body: the one whole-block store of the product of the loaded rows and the loaded weight. -/
def out1_2 (x0 : Vec F S2000x128 .f32) (x1 : Vec F S128x128 .f32) : Vec F S2000x128 .f32 :=
  View.canon [⟨rRows1, k1_pay1 (View.ld x0 rRows1) (View.ld x1 rW1)⟩]

/-- The one store covers the block. -/
theorem cover1_2 (p0 : Vec F S2000x128 .f32) (y : S2000x128.Idx) :
    ∃ pc ∈ ([⟨rRows1, p0⟩] : List (View.Piece (Elt F) S2000x128 .f32)), y ∈ pc.1.set :=
  View.cover_of_tiled [⟨rRows1, p0⟩] S2000x128.size (by rfl) y

set_option maxHeartbeats 1000000 in
/-- The body on whole staging memrefs: the inputs' kept, the output's at `out1_2` of the inputs'. -/
theorem sound_kernel1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__transform_kernel i arg1 harg1 arg2 harg2 arg3 harg3) K := by
  simp only [cc1__transform_kernel_eq_skeleton]; unfold cc1__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.T2.lean ====
/-
  Region 2 of @main (a feature transform): at any contents `V` of the TensorCore's buffers when the region is
  entered, what each grid point's body leaves in its staging buffers, the body's triple, the pipeline's proof data and
  the body obligation. The body loads the point's 2000 rows of the input and the whole 128 × 128 weight, forms its one
  payload of the two (the rows — clamped below at zero in the second and third transforms, as they are in the first not —
  times the weight on the matrix unit into a zero accumulator) and stores the 2000 × 128 result over the whole output
  block; it reads nothing else and keeps nothing between points, so the region's invariant is the scoped rest and the
  generator register, untouched.
-/
import proofs.«423290_j63376537420022_1_alg».proof.Proof.Gen.Kernel.Launch
import proofs.«423290_j63376537420022_1_alg».proof.Proof.Gen.Kernel.Skeleton
import proofs.«423290_j63376537420022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows window's staging buffer holds the point's rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight at every point: fetched at the first, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rRows2 : Rect S2000x128 := Rect.unit (s := S2000x128) ![0, 0] S2000x128.size inb_S2000x128_S2000x128_0_0
abbrev rW2 : Rect S128x128 := Rect.unit (s := S128x128) ![0, 0] S128x128.size inb_S128x128_S128x128_0_0

/-- The output block after the body: the one whole-block store of the product of the loaded rows and the loaded weight. -/
def out2_2 (x0 : Vec F S2000x128 .f32) (x1 : Vec F S128x128 .f32) : Vec F S2000x128 .f32 :=
  View.canon [⟨rRows2, k2_pay1 (View.ld x0 rRows2) (View.ld x1 rW2)⟩]

/-- The one store covers the block. -/
theorem cover2_2 (p0 : Vec F S2000x128 .f32) (y : S2000x128.Idx) :
    ∃ pc ∈ ([⟨rRows2, p0⟩] : List (View.Piece (Elt F) S2000x128 .f32)), y ∈ pc.1.set :=
  View.cover_of_tiled [⟨rRows2, p0⟩] S2000x128.size (by rfl) y

set_option maxHeartbeats 1000000 in
/-- The body on whole staging memrefs: the inputs' kept, the output's at `out2_2` of the inputs'. -/
theorem sound_kernel2 (c : Dev nD) (E : Set ℕ) (i : grid2.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__transform_kernel i arg1 harg1 arg2 harg2 arg3 harg3) K := by
  simp only [cc2__transform_kernel_eq_skeleton]; unfold cc2__transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.PoolDefs.lean ====
/-
  Region 3 of @main (the sum-pool and linear head): the proof data of its pipeline at any contents `V` of the
  TensorCore's buffers when the region is entered. The kernel keeps a 512 × 128 accumulator in a scratch buffer across
  its 50 grid points: the first point clears it; every point adds to it the product of the transposed one-hot mask of the
  point's 2000 graph labels with the point's 2000 rows clamped below at zero; the last point multiplies the accumulator
  by the 128 × 1 weight, adds the bias and stores the 512 × 1 result, the only store into the output block. So the
  accumulator after point `n` is a recursion on `n` over the skeleton's payloads, and the region's invariant before
  point `n + 1` holds the scratch at the accumulator after point `n`.
-/
import proofs.«423290_j63376537420022_1_alg».proof.Proof.Gen.Kernel.Launch
import proofs.«423290_j63376537420022_1_alg».proof.Proof.Gen.Kernel.Skeleton
import proofs.«423290_j63376537420022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator's scratch buffer, whole. -/
abbrev scM3 : Memref sig .tc .vmem S512x128 .f32 := Memref.whole cc3_scratch0

/-- THE ACCUMULATION: what the scratch holds after the body at point `n` — the first point's sum over the cleared
    accumulator, every later point's over what the point before left. -/
def accAt3 (c : Dev nD) : (n : ℕ) → n < cfg3.N → Vec F S512x128 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (accAt3 c n (Nat.lt_of_succ_lt hn))

theorem accAt3_zero (c : Dev nD) (hn : 0 < cfg3.N) :
    accAt3 V c 0 hn = k3_pay2 (iblk3 V c 0 ⟨0, hn⟩) (iblk3 V c 1 ⟨0, hn⟩) (k3_pay1 (F := F)) := rfl
theorem accAt3_succ (c : Dev nD) (n : ℕ) (hn : n + 1 < cfg3.N) :
    accAt3 V c (n + 1) hn = k3_pay2 (iblk3 V c 0 ⟨n + 1, hn⟩) (iblk3 V c 1 ⟨n + 1, hn⟩) (accAt3 V c n (Nat.lt_of_succ_lt hn)) := rfl

/-- What the head would store at point `t`: the accumulator after the point times the weight, plus the bias. Only the last
    point stores it; at the other points the output block is idle and nothing consults this value. -/
def out3_4 (c : Dev nD) (t : Fin cfg3.N) : Vec F S512x1 .f32 :=
  k3_pay3 (accAt3 V c t.val t.isLt) (iblk3 V c 2 t) (iblk3 V c 3 t)

/-- The core's scoped buffers that are neither a staging buffer of this region nor its scratch (the other regions'
    staging buffers), each at some contents: carried through the region unopened. -/
abbrev others3 (c : Dev nD) : sProp 𝕄 :=
  Pipeline.scopedRestBut (Ix := Unit) (Name := ℕ) (U := UR sig nD τ) (Lvl := ℕ) (Val := Elt F) spec3 c [cc3_scratch0]

/-- The region's invariant before position `n`: before the first point the class's (the scoped rest, the scratch at
    anything, and the generator register); afterwards the other scoped buffers, the scratch at the accumulator after the
    point before, and the generator register at some state. -/
def PhiS3 (c : Dev nD) : (n : ℕ) → n ≤ cfg3.N → sProp 𝕄
  | 0, _ => Pipeline.ΦA spec3 c
  | n + 1, hn => iprop(iprop(others3 (F := F) c ∗ owns (c : Thread nD τ) scM3 fullShare (accAt3 V c n hn)) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(others3 (F := F) c ∗ owns (c : Thread nD τ) scM3 fullShare (accAt3 V c n hn)) ∗ (∃ r, prngReg c r)) := rfl
theorem PhiS3_pos (c : Dev nD) (n : ℕ) (h : n ≤ cfg3.N) (hz : n ≠ 0) :
    PhiS3 V c n h = iprop(iprop(others3 (F := F) c ∗ owns (c : Thread nD τ) scM3 fullShare (accAt3 V c (n - 1) (by omega))) ∗ (∃ r, prngReg c r)) := by
  cases n with
  | zero => exact absurd rfl hz
  | succ n => rfl

/-- The proof data of the region's pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

end Cert.Kernel.Hand

end
-- ==== Proof.Bits.Fold.lean ====
/-
  The contents of a TensorCore's unscoped buffers at every segment boundary of @main, as a fold from the launch memory:
  a stretch of host operations applies them in order; a kernel region leaves each of its arrays at what its pipeline's
  write-backs make of it and touches nothing else. Region `K`'s proof data are taken at the contents the fold has
  when the region is entered.
-/
import proofs.«423290_j63376537420022_1_alg».proof.Proof.Bits.T0
import proofs.«423290_j63376537420022_1_alg».proof.Proof.Bits.T1
import proofs.«423290_j63376537420022_1_alg».proof.Proof.Bits.T2
import proofs.«423290_j63376537420022_1_alg».proof.Proof.Bits.PoolDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the three host stretches before the first transform (the graph's rows, columns and normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b

/-- At region 0's exit: its arrays at what the pipeline leaves (the inputs as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb

/-- After the first aggregation (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (the inputs as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-- After the second aggregation (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves (the inputs as entered, the output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- After the third aggregation and the two reshapes (region 3's entry). -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b

/-- At region 3's exit: its arrays at what the pipeline leaves (the inputs as entered, the output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-- After the closing reshape: the contents at the return. -/
abbrev W11 : Dev nD → Valuation τ sig (Elt F) := fun c => StableHlo.after hostOps4 (W10 m c)

end Cert.Kernel.Hand

end
-- ==== Proof.Bits.PoolBody.lean ====
/-
  Region 3 of @main (the sum-pool and linear head): the body obligation of its pipeline, and the invariant at its two ends.
  The body's run is stated three times, once per control case of the point — the first (the accumulator is cleared, then
  gains the point's sum), the last (it gains the point's sum, then its head is stored over the output block) and the points
  between (it gains the point's sum) —, each with the accumulator's and the output's final contents as the skeleton's
  payloads of the plain loaded values: a load of the accumulator after a whole-block store into it reads that store's
  payload. The obligation at a point picks its case from the point's number, takes the accumulator from the invariant
  and returns it one step of the accumulation further.
-/
import proofs.«423290_j63376537420022_1_alg».proof.Proof.Bits.PoolDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer rectangle, however they are spelt. -/
theorem hz2 : (![0, 0] : Fin 2 → Nat) = fun _ => 0 := funext fun a => by fin_cases a <;> rfl

/-- The first conditional's condition (the point is the first), from the grid coordinates. -/
abbrev cond3_0 (i : grid3.Coords) : Prop := (Scalar.cmpi .ne (Scalar.extui (Scalar.cmpi .eq (BitVec.ofNat 32 (i 0).val) 0#32)) 0#32) = 1#1
/-- It holds at point 0 only. -/
theorem hcond3_0 : ∀ t : Fin cfg3.N, cond3_0 (grid3.coords t) ↔ t.val = 0 :=
  (by decide +kernel : ∀ t : Fin grid3.N, cond3_0 (grid3.coords t) ↔ t.val = 0)
/-- The second conditional's condition (the point is the last), from the grid coordinates. -/
abbrev cond3_1 (i : grid3.Coords) : Prop := k3_cond2 i = 1#1
/-- It holds at point 49 only. -/
theorem hcond3_1 : ∀ t : Fin cfg3.N, cond3_1 (grid3.coords t) ↔ t.val = 49 :=
  (by decide +kernel : ∀ t : Fin grid3.N, cond3_1 (grid3.coords t) ↔ t.val = 49)

/-- What a buffer reads after a list of stores whose LAST is a store of the whole block: that store's payload. -/
theorem read_writes_cons_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-! ## The body's run, case by case -/

set_option maxHeartbeats 1000000 in
/-- The body at the first point, on whole staging memrefs: the accumulator, at anything, is cleared and then holds the
    point's sum over the cleared accumulator; the rows and the labels are kept; nothing else is touched. -/
theorem sound_kernel3_A (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x128 .f32) (harg6 : arg6.IsWhole)
    (hc0 : cond3_0 i) (hc1 : ¬cond3_1 i)
    (x0 : Vec F S2000x128 .f32) (x1 : Vec F S2000x1 .i32) (K : PUnit → sProp 𝕄) :
    iprop(owns (c : Thread nD τ) arg1 fullShare x0 ∗ owns (c : Thread nD τ) arg2 fullShare x1 ∗ (∃ d, owns (c : Thread nD τ) arg6 fullShare d)
        ∗ (iprop(owns (c : Thread nD τ) arg1 fullShare x0 ∗ owns (c : Thread nD τ) arg2 fullShare x1
            ∗ owns (c : Thread nD τ) arg6 fullShare (k3_pay2 x0 x1 (k3_pay1 (F := F)))) -∗ K ⟨⟩))
      ⊢ wp frame (wpE (defs₀ (F := F)) Variants.none c none) E (cc3__pool_head_kernel i arg1 harg1 arg2 harg2 arg3 harg3 arg4 harg4 arg5 harg5 arg6 harg6) K := by
  simp only [cc3__pool_head_kernel_eq_skeleton]; unfold cc3__pool_head_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_cons_whole _ _ hz2, View.readCov_unit_zero (S := S512x128) _ hz2]
  simp only [View.readAt_eq_ld, View.ld_unit_zero (S := S2000x128) hz2, View.ld_unit_zero (S := S2000x1) hz2]

set_option maxHeartbeats 1000000 in
/-- The body at a point neither first nor last: the accumulator, at what the point before left, gains the point's sum. -/
theorem sound_kernel3_B (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x128 .f32) (harg6 : arg6.IsWhole)
    (hc0 : ¬cond3_0 i) (hc1 : ¬cond3_1 i)
    (x0 : Vec F S2000x128 .f32) (x1 : Vec F S2000x1 .i32) (xs : Vec F S512x128 .f32) (K : PUnit → sProp 𝕄) :
    iprop(owns (c : Thread nD τ) arg1 fullShare x0 ∗ owns (c : Thread nD τ) arg2 fullShare x1 ∗ owns (c : Thread nD τ) arg6 fullShare xs
        ∗ (iprop(owns (c : Thread nD τ) arg1 fullShare x0 ∗ owns (c : Thread nD τ) arg2 fullShare x1
            ∗ owns (c : Thread nD τ) arg6 fullShare (k3_pay2 x0 x1 xs)) -∗ K ⟨⟩))
      ⊢ wp frame (wpE (defs₀ (F := F)) Variants.none c none) E (cc3__pool_head_kernel i arg1 harg1 arg2 harg2 arg3 harg3 arg4 harg4 arg5 harg5 arg6 harg6) K := by
  simp only [cc3__pool_head_kernel_eq_skeleton]; unfold cc3__pool_head_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [read_writes_cons_whole _ _ hz2]
  simp only [View.readAt_eq_ld, View.ld_unit_zero (S := S2000x128) hz2, View.ld_unit_zero (S := S2000x1) hz2, View.ld_unit_zero (S := S512x128) hz2]

set_option maxHeartbeats 1000000 in
/-- The body at the last point: the accumulator gains the point's sum, and the output block, at anything, is stored whole
    with the head of the accumulator just stored, the weight and the bias. -/
theorem sound_kernel3_C (c : Dev nD) (E : Set ℕ) (i : grid3.Coords)
    (arg1 : Memref sig .tc .vmem S2000x128 .f32) (harg1 : arg1.IsWhole) (arg2 : Memref sig .tc .vmem S2000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x128 .f32) (harg6 : arg6.IsWhole)
    (hc0 : ¬cond3_0 i) (hc1 : cond3_1 i)
    (x0 : Vec F S2000x128 .f32) (x1 : Vec F S2000x1 .i32) (x2 : Vec F S128x1 .f32) (x3 : Vec F S1x1 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k3_pay3 (k3_pay2 x0 x1 xs) x2 x3)
            ∗ owns (c : Thread nD τ) arg6 fullShare (k3_pay2 x0 x1 xs)) -∗ K ⟨⟩))
      ⊢ wp frame (wpE (defs₀ (F := F)) Variants.none c none) E (cc3__pool_head_kernel i arg1 harg1 arg2 harg2 arg3 harg3 arg4 harg4 arg5 harg5 arg6 harg6) K := by
  simp only [cc3__pool_head_kernel_eq_skeleton]; unfold cc3__pool_head_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    rw [read_writes_cons_whole _ _ hz2, View.readCov_unit_zero (S := S512x128) _ hz2]
    simp only [View.readAt_eq_ld, View.ld_unit_zero (S := S2000x128) hz2, View.ld_unit_zero (S := S2000x1) hz2, View.ld_unit_zero (S := S512x128) hz2,
      View.ld_unit_zero (S := S128x1) hz2, View.ld_unit_zero (S := S1x1) hz2]
  iexists _; isplitr
  swap; · iexact H6
  ipureintro
  sl_unfold_words
  rw [read_writes_cons_whole _ _ hz2]
  simp only [View.readAt_eq_ld, View.ld_unit_zero (S := S2000x128) hz2, View.ld_unit_zero (S := S2000x1) hz2, View.ld_unit_zero (S := S512x128) hz2]

/-! ## Where the windows are idle, and the schedule of the output -/

/-- The four inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the output block is idle: the body stores nothing into it, -/
theorem idleAt3_4 : ∀ t : Fin cfg3.N, t.val ≠ 49 → cfg3.idle 4 (grid3.coords t) = true := by decide +kernel
/-- and the pipeline does not write it back; -/
theorem noFlush3_4 : ∀ t : Fin cfg3.N, t.val ≠ 49 → (cfg3.win 4).flush t = false := by decide +kernel
/-- at the last point it is live. -/
theorem liveAt3_4 : ∀ t : Fin cfg3.N, t.val = 49 → cfg3.idle 4 (grid3.coords t) = false := by decide +kernel

/-! ## The class's invariant with the accumulator named -/

/-- The two sides of a separating conjunction, exchanged. -/
theorem sep_swap {M : Type} [URA M] (P Q : sProp M) : iprop(P ∗ Q) = iprop(Q ∗ P) := by
  have h₁ : iprop(P ∗ Q) ⊢ iprop(Q ∗ P) := by
    iintro ⟨HP, HQ⟩
    isplitl [HQ]; · iexact HQ
    iexact HP
  have h₂ : iprop(Q ∗ P) ⊢ iprop(P ∗ Q) := by
    iintro ⟨HQ, HP⟩
    isplitl [HP]; · iexact HP
    iexact HQ
  exact BI.equiv_iff.mp ⟨h₁, h₂⟩

/-- What the launch hands the region: the other regions' staging buffers and the accumulator's buffer, each at anything,
    and the generator register. -/
theorem PhiA3_eq (c : Dev nD) :
    (Pipeline.ΦA spec3 c : sProp 𝕄)
      = iprop(iprop(others3 (F := F) c ∗ (∃ d, owns (c : Thread nD τ) scM3 fullShare d)) ∗ (∃ r, prngReg c r)) := by
  unfold Pipeline.ΦA
  rw [Pipeline.scopedRest_split_of_list spec3 c [cc3_scratch0] (by decide) (by decide), bigSepL_singleton]
  simp only [scM3, owns_whole]
  exact congrArg (fun X : sProp 𝕄 => iprop(X ∗ (∃ r, prngReg c r))) (sep_swap _ _)

/-! ## The inputs' staging buffers -/

/-- Each input's current staging buffer holds its block at every point, fetched there or not: unfetched, its block index
    has not moved since the fetch. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-- So the body must hand each back at its block: the inputs are live at every point. -/
theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (iblk3 V c 3 t) := by
  unfold Dat.leavesExact; rw [liveAt3_3 t, after3_3]

/-! ## The accumulation, one step -/

/-- At the first point the accumulator ends at the point's sum over the cleared accumulator. -/
theorem accAt3_first (c : Dev nD) (t : Fin cfg3.N) (hz : t.val = 0) :
    accAt3 V c t.val t.isLt = k3_pay2 (iblk3 V c 0 t) (iblk3 V c 1 t) (k3_pay1 (F := F)) := by
  obtain ⟨n, hn⟩ := t
  cases n with
  | zero => rfl
  | succ n => exact absurd hz (Nat.succ_ne_zero n)

/-- At a later point it ends at the point's sum over what the point before left. -/
theorem accAt3_step (c : Dev nD) (t : Fin cfg3.N) (hz : t.val ≠ 0) :
    accAt3 V c t.val t.isLt
      = k3_pay2 (iblk3 V c 0 t) (iblk3 V c 1 t) (accAt3 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' memrefs hold their blocks; the point is the first, the last, or neither. At the
    first the invariant hands the body the accumulator at anything, later at what the point before left; the body's run
    leaves it at this point's accumulation, which is the invariant after the point. Away from the last point the output
    block is idle and goes back untouched; at the last it is stored whole with the head of the final accumulator. The other
    regions' staging buffers, the generator register and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  have hN : t.val < 50 := lt_of_lt_of_eq t.isLt (show cfg3.N = 50 from N_3)
  by_cases h49 : t.val = 49
  · have hz : t.val ≠ 0 := by omega
    rw [show (dat3 V c).leavesExact 4 t = owns (c : Thread nD τ) (st3_4 t) fullShare (out3_4 V c t) from by
      unfold Dat.leavesExact; rw [liveAt3_4 t h49, after3_4]]
    unfold out3_4
    rw [PhiS3_castSucc V c t, PhiS3_pos V c _ _ hz, accAt3_step V c t hz]
    iintro ⟨⟨⟨HO, HS⟩, Hg⟩, Ho, ⟨%d0, H0⟩, ⟨%d1, H1⟩, ⟨%d2, H2⟩, ⟨%d3, H3⟩, ⟨%d4, H4⟩⟩
    iapply (sound_kernel3_C c Set.univ (grid3.coords t) _ _ _ _ _ _ _ _ _ _ _ _ (fun h => hz ((hcond3_0 t).mp h)) ((hcond3_1 t).mpr h49)
      (iblk3 V c 0 t) (iblk3 V c 1 t) (iblk3 V c 2 t) (iblk3 V c 3 t) (accAt3 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HO HS Hg]
    · isplitl [HO HS]
      · isplitl [HO]; · iexact HO
        iexact HS
      iexact Hg
    isplitl [Ho]; · iexact Ho
    isplitl [H0]; · iexact H0
    isplitl [H1]; · iexact H1
    isplitl [H2]; · iexact H2
    isplitl [H3]; · iexact H3
    iexact H4
  · rw [Dat.leavesExact_idle (dat3 V c) 4 t (idleAt3_4 t h49) (noFlush3_4 t h49)]
    by_cases hz : t.val = 0
    · rw [PhiS3_castSucc V c t, PhiS3_zero V c _ _ hz, PhiA3_eq, accAt3_first V c t hz]
      iintro ⟨⟨⟨HO, HS⟩, Hg⟩, Ho, ⟨%d0, H0⟩, ⟨%d1, H1⟩, ⟨%d2, H2⟩, ⟨%d3, H3⟩, ⟨%d4, H4⟩⟩
      iapply (sound_kernel3_A c Set.univ (grid3.coords t) _ _ _ _ _ _ _ _ _ _ _ _ ((hcond3_0 t).mpr hz) (fun h => h49 ((hcond3_1 t).mp h))
        (iblk3 V c 0 t) (iblk3 V c 1 t) _)
      isplitl [H0]; · iexact H0
      isplitl [H1]; · iexact H1
      isplitl [HS]; · iexact HS
      iintro ⟨H0, H1, HS⟩
      isplitl [HO HS Hg]
      · isplitl [HO HS]
        · isplitl [HO]; · iexact HO
          iexact HS
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz, accAt3_step V c t hz]
      iintro ⟨⟨⟨HO, HS⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ (fun h => hz ((hcond3_0 t).mp h)) (fun h => h49 ((hcond3_1 t).mp h))
        (iblk3 V c 0 t) (iblk3 V c 1 t) (accAt3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HO HS Hg]
      · isplitl [HO HS]
        · isplitl [HO]; · iexact HO
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's back: the accumulator's contents are forgotten. -/
theorem hout3 (c : Dev nD) : (dat3 V c).Φ (Fin.last cfg3.N) ⊢ Pipeline.ΦA spec3 c := by
  have hN : cfg3.N = 50 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨HO, HS⟩, Hg⟩
  isplitl [HO HS]
  · isplitl [HO]; · iexact HO
    iexists _; iexact HS
  iexact Hg

end Cert.Kernel.Hand

end
-- ==== Proof.Bits.RunAll.lean ====
/-
  The run of @main as its eleven segments — three stretches of host operations, then each of the four kernel regions
  followed by a stretch — from the launch to the return: every weakly fair execution terminates, nothing faulting, and
  the final memory holds every unscoped buffer at the fold of the segments over the launch memory. Each region is entered
  from every unscoped buffer held at the fold's contents there and left at the next; its arrays are split out of those
  buffers at entry and put back at exit; nothing is owed and no kernel has a semaphore of its own.
-/
import proofs.«423290_j63376537420022_1_alg».proof.Proof.Bits.Fold
import proofs.«423290_j63376537420022_1_alg».proof.Proof.Bits.PoolBody
import proofs.«423290_j63376537420022_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's exit contents read at the TensorCore's references. -/
abbrev E4 : (c : Dev nD) → (b : Ref sig .tc) → Buf (Elt F) ((c : Thread nD τ).loc b) := fun c b => W4 m c b
/-- At region 0's exit each of its arrays holds what the pipeline leaves, -/
theorem hF0 (c : Dev nD) (w : Fin cfg0.W) : (dat0 (V3 m) c).arrAt w cfg0.N = E4 m c (Pipeline.arrRef spec0 w) :=
  (W4_arr m c w).symm
/-- and every other buffer what it held at entry. -/
theorem hrest0 (c : Dev nD) : ∀ b, b ∉ Finset.univ.image (Pipeline.arrRef spec0) → E4 m c b = V3 m c b :=
  fun b hb => W4_of_ne m c b fun w e => hb (Finset.mem_image.mpr ⟨w, Finset.mem_univ _, e⟩)

/-- Region 1's exit contents read at the TensorCore's references. -/
abbrev E6 : (c : Dev nD) → (b : Ref sig .tc) → Buf (Elt F) ((c : Thread nD τ).loc b) := fun c b => W6 m c b
/-- At region 1's exit each of its arrays holds what the pipeline leaves, -/
theorem hF1 (c : Dev nD) (w : Fin cfg1.W) : (dat1 (V5 m) c).arrAt w cfg1.N = E6 m c (Pipeline.arrRef spec1 w) :=
  (W6_arr m c w).symm
/-- and every other buffer what it held at entry. -/
theorem hrest1 (c : Dev nD) : ∀ b, b ∉ Finset.univ.image (Pipeline.arrRef spec1) → E6 m c b = V5 m c b :=
  fun b hb => W6_of_ne m c b fun w e => hb (Finset.mem_image.mpr ⟨w, Finset.mem_univ _, e⟩)

/-- Region 2's exit contents read at the TensorCore's references. -/
abbrev E8 : (c : Dev nD) → (b : Ref sig .tc) → Buf (Elt F) ((c : Thread nD τ).loc b) := fun c b => W8 m c b
/-- At region 2's exit each of its arrays holds what the pipeline leaves, -/
theorem hF2 (c : Dev nD) (w : Fin cfg2.W) : (dat2 (V7 m) c).arrAt w cfg2.N = E8 m c (Pipeline.arrRef spec2 w) :=
  (W8_arr m c w).symm
/-- and every other buffer what it held at entry. -/
theorem hrest2 (c : Dev nD) : ∀ b, b ∉ Finset.univ.image (Pipeline.arrRef spec2) → E8 m c b = V7 m c b :=
  fun b hb => W8_of_ne m c b fun w e => hb (Finset.mem_image.mpr ⟨w, Finset.mem_univ _, e⟩)

/-- Region 3's exit contents read at the TensorCore's references. -/
abbrev E10 : (c : Dev nD) → (b : Ref sig .tc) → Buf (Elt F) ((c : Thread nD τ).loc b) := fun c b => W10 m c b
/-- At region 3's exit each of its arrays holds what the pipeline leaves, -/
theorem hF3 (c : Dev nD) (w : Fin cfg3.W) : (dat3 (V9 m) c).arrAt w cfg3.N = E10 m c (Pipeline.arrRef spec3 w) :=
  (W10_arr m c w).symm
/-- and every other buffer what it held at entry. -/
theorem hrest3 (c : Dev nD) : ∀ b, b ∉ Finset.univ.image (Pipeline.arrRef spec3) → E10 m c b = V9 m c b :=
  fun b hb => W10_of_ne m c b fun w e => hb (Finset.mem_image.mpr ⟨w, Finset.mem_univ _, e⟩)

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c

/-- An unscoped TensorCore reference is among those the run's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the core
    owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the fold's last contents, the generator
    register at some state. -/
abbrev Tₙ (c : Dev nD) : sProp 𝕄 := iprop(StableHlo.held (c : Thread nD τ) (Pipeline.ucRefs τ sig) (W11 m c) ∗ ∃ r, prngReg c r)

set_option backward.isDefEq.respectTransparency.types false in
/-- REGION 0 (the first feature transform) over the thread state: entered from every unscoped buffer at `W3`, left at `W4`.
    Its arrays are split out of the unscoped buffers at entry and put back at the exit contents; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the second feature transform) over the thread state: entered from every unscoped buffer at `W5`, left at `W6`.
    Its arrays are split out of the unscoped buffers at entry and put back at the exit contents; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the third feature transform) over the thread state: entered from every unscoped buffer at `W7`, left at `W8`.
    Its arrays are split out of the unscoped buffers at entry and put back at the exit contents; the generator register
    goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (the sum-pool and linear head) over the thread state: entered from every unscoped buffer at `W9`, left at `W10`.
    Its arrays are split out of the unscoped buffers at entry and put back at the exit contents; the generator register
    goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V9 m) c)
    unfold Pipeline.ΦA
    iintro ⟨Hp, -, Hr⟩
    isplitl [Hr]; · iexact Hr
    iexact Hp
  hout c := by
    rw [Pipeline.ownSems0_none]
    refine BIBase.Entails.trans (hout3 (V9 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (E10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's eleven segments in order: a host segment per stretch from its boundary's contents, a region per kernel. -/
abbrev runSegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

/-- @main is the run of the segments: both are the chain of the same eleven fragments. -/
theorem main_run (c : Dev nD) : main (F := F) c = Pipeline.Seg.run (runSegs m) := by
  rewrite [main_chain c, Pipeline.Seg.run_eq_chain,
    show (runSegs m).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4 ] from rfl]
  rfl

set_option backward.isDefEq.respectTransparency.types false in
/-- THE RUN: from any memory with zero counters every weakly fair execution of @main terminates, nothing faulting, and
    the final memory holds every unscoped buffer at the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-! No segment writes an argument: a host stretch writes only its own results, a region only its output window's array; an
    argument a region reads through an input window is held there as entered. So the fold at an argument walks back to
    the launch memory. -/

/-- No segment writes the first argument: the fold there walks back to the launch memory. (One such lemma per argument.) -/
theorem W11_main_arg0 (c : Dev nD) : W11 m c (Proc.devRef .tc main_arg0) = m ((c : Thread nD τ).loc main_arg0) :=
  calc W11 m c (Proc.devRef .tc main_arg0)
    _ = W10 m c (Proc.devRef .tc main_arg0) := StableHlo.after_of_writes_sub hostOps4 _ hostOps4_writes (by decide)
    _ = W9 m c (Proc.devRef .tc main_arg0) := W10_of_ne m c main_arg0 (by decide)
    _ = W8 m c (Proc.devRef .tc main_arg0) := StableHlo.after_of_writes_sub hostOps3 _ hostOps3_writes (by decide)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1 _ hostOps1_writes (by decide)
    _ = W3 m c (Proc.devRef .tc main_arg0) := (W4_arr m c 0).trans (((dat0 (V3 m) c).arrAt_in 0 rfl _).trans (A_eq0 (V3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl
theorem W11_main_arg1 (c : Dev nD) : W11 m c (Proc.devRef .tc main_arg1) = m ((c : Thread nD τ).loc main_arg1) :=
  calc W11 m c (Proc.devRef .tc main_arg1)
    _ = W10 m c (Proc.devRef .tc main_arg1) := StableHlo.after_of_writes_sub hostOps4 _ hostOps4_writes (by decide)
    _ = W9 m c (Proc.devRef .tc main_arg1) := W10_of_ne m c main_arg1 (by decide)
    _ = W8 m c (Proc.devRef .tc main_arg1) := StableHlo.after_of_writes_sub hostOps3 _ hostOps3_writes (by decide)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl
theorem W11_main_arg2 (c : Dev nD) : W11 m c (Proc.devRef .tc main_arg2) = m ((c : Thread nD τ).loc main_arg2) :=
  calc W11 m c (Proc.devRef .tc main_arg2)
    _ = W10 m c (Proc.devRef .tc main_arg2) := StableHlo.after_of_writes_sub hostOps4 _ hostOps4_writes (by decide)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl
theorem W11_main_arg3 (c : Dev nD) : W11 m c (Proc.devRef .tc main_arg3) = m ((c : Thread nD τ).loc main_arg3) :=
  calc W11 m c (Proc.devRef .tc main_arg3)
    _ = W10 m c (Proc.devRef .tc main_arg3) := StableHlo.after_of_writes_sub hostOps4 _ hostOps4_writes (by decide)
    _ = W9 m c (Proc.devRef .tc main_arg3) := W10_of_ne m c main_arg3 (by decide)
    _ = W8 m c (Proc.devRef .tc main_arg3) := StableHlo.after_of_writes_sub hostOps3 _ hostOps3_writes (by decide)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1 _ hostOps1_writes (by decide)
    _ = W3 m c (Proc.devRef .tc main_arg3) := W4_of_ne m c main_arg3 (by decide)
    _ = W2 m c (Proc.devRef .tc main_arg3) := StableHlo.after_of_writes_sub hostOps0_2 _ hostOps0_2_writes (by decide)
    _ = W1 m c (Proc.devRef .tc main_arg3) := StableHlo.after_of_writes_sub hostOps0_1 _ hostOps0_1_writes (by decide)
    _ = W0 m c (Proc.devRef .tc main_arg3) := StableHlo.after_of_writes_sub hostOps0 _ hostOps0_writes (by decide)
    _ = m ((c : Thread nD τ).loc main_arg3) := rfl
theorem W11_main_arg4 (c : Dev nD) : W11 m c (Proc.devRef .tc main_arg4) = m ((c : Thread nD τ).loc main_arg4) :=
  calc W11 m c (Proc.devRef .tc main_arg4)
    _ = W10 m c (Proc.devRef .tc main_arg4) := StableHlo.after_of_writes_sub hostOps4 _ hostOps4_writes (by decide)
    _ = W9 m c (Proc.devRef .tc main_arg4) := W10_of_ne m c main_arg4 (by decide)
    _ = W8 m c (Proc.devRef .tc main_arg4) := StableHlo.after_of_writes_sub hostOps3 _ hostOps3_writes (by decide)
    _ = W7 m c (Proc.devRef .tc main_arg4) := W8_of_ne m c main_arg4 (by decide)
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1 _ hostOps1_writes (by decide)
    _ = W3 m c (Proc.devRef .tc main_arg4) := (W4_arr m c 1).trans (((dat0 (V3 m) c).arrAt_in 1 rfl _).trans (A_eq0 (V3 m) c 1))
    _ = W2 m c (Proc.devRef .tc main_arg4) := StableHlo.after_of_writes_sub hostOps0_2 _ hostOps0_2_writes (by decide)
    _ = W1 m c (Proc.devRef .tc main_arg4) := StableHlo.after_of_writes_sub hostOps0_1 _ hostOps0_1_writes (by decide)
    _ = W0 m c (Proc.devRef .tc main_arg4) := StableHlo.after_of_writes_sub hostOps0 _ hostOps0_writes (by decide)
    _ = m ((c : Thread nD τ).loc main_arg4) := rfl
theorem W11_main_arg5 (c : Dev nD) : W11 m c (Proc.devRef .tc main_arg5) = m ((c : Thread nD τ).loc main_arg5) :=
  calc W11 m c (Proc.devRef .tc main_arg5)
    _ = W10 m c (Proc.devRef .tc main_arg5) := StableHlo.after_of_writes_sub hostOps4 _ hostOps4_writes (by decide)
    _ = W9 m c (Proc.devRef .tc main_arg5) := W10_of_ne m c main_arg5 (by decide)
    _ = W8 m c (Proc.devRef .tc main_arg5) := StableHlo.after_of_writes_sub hostOps3 _ hostOps3_writes (by decide)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1 _ hostOps1_writes (by decide)
    _ = W3 m c (Proc.devRef .tc main_arg5) := W4_of_ne m c main_arg5 (by decide)
    _ = W2 m c (Proc.devRef .tc main_arg5) := StableHlo.after_of_writes_sub hostOps0_2 _ hostOps0_2_writes (by decide)
    _ = W1 m c (Proc.devRef .tc main_arg5) := StableHlo.after_of_writes_sub hostOps0_1 _ hostOps0_1_writes (by decide)
    _ = W0 m c (Proc.devRef .tc main_arg5) := StableHlo.after_of_writes_sub hostOps0 _ hostOps0_writes (by decide)
    _ = m ((c : Thread nD τ).loc main_arg5) := rfl
theorem W11_main_arg6 (c : Dev nD) : W11 m c (Proc.devRef .tc main_arg6) = m ((c : Thread nD τ).loc main_arg6) :=
  calc W11 m c (Proc.devRef .tc main_arg6)
    _ = W10 m c (Proc.devRef .tc main_arg6) := StableHlo.after_of_writes_sub hostOps4 _ hostOps4_writes (by decide)
    _ = W9 m c (Proc.devRef .tc main_arg6) := W10_of_ne m c main_arg6 (by decide)
    _ = W8 m c (Proc.devRef .tc main_arg6) := StableHlo.after_of_writes_sub hostOps3 _ hostOps3_writes (by decide)
    _ = W7 m c (Proc.devRef .tc main_arg6) := W8_of_ne m c main_arg6 (by decide)
    _ = W6 m c (Proc.devRef .tc main_arg6) := StableHlo.after_of_writes_sub hostOps2 _ hostOps2_writes (by decide)
    _ = W5 m c (Proc.devRef .tc main_arg6) := (W6_arr m c 1).trans (((dat1 (V5 m) c).arrAt_in 1 rfl _).trans (A_eq1 (V5 m) c 1))
    _ = W4 m c (Proc.devRef .tc main_arg6) := StableHlo.after_of_writes_sub hostOps1 _ hostOps1_writes (by decide)
    _ = W3 m c (Proc.devRef .tc main_arg6) := W4_of_ne m c main_arg6 (by decide)
    _ = W2 m c (Proc.devRef .tc main_arg6) := StableHlo.after_of_writes_sub hostOps0_2 _ hostOps0_2_writes (by decide)
    _ = W1 m c (Proc.devRef .tc main_arg6) := StableHlo.after_of_writes_sub hostOps0_1 _ hostOps0_1_writes (by decide)
    _ = W0 m c (Proc.devRef .tc main_arg6) := StableHlo.after_of_writes_sub hostOps0 _ hostOps0_writes (by decide)
    _ = m ((c : Thread nD τ).loc main_arg6) := rfl
theorem W11_main_arg7 (c : Dev nD) : W11 m c (Proc.devRef .tc main_arg7) = m ((c : Thread nD τ).loc main_arg7) :=
  calc W11 m c (Proc.devRef .tc main_arg7)
    _ = W10 m c (Proc.devRef .tc main_arg7) := StableHlo.after_of_writes_sub hostOps4 _ hostOps4_writes (by decide)
    _ = W9 m c (Proc.devRef .tc main_arg7) := W10_of_ne m c main_arg7 (by decide)
    _ = W8 m c (Proc.devRef .tc main_arg7) := StableHlo.after_of_writes_sub hostOps3 _ hostOps3_writes (by decide)
    _ = W7 m c (Proc.devRef .tc main_arg7) := W8_of_ne m c main_arg7 (by decide)
    _ = W6 m c (Proc.devRef .tc main_arg7) := StableHlo.after_of_writes_sub hostOps2 _ hostOps2_writes (by decide)
    _ = W5 m c (Proc.devRef .tc main_arg7) := W6_of_ne m c main_arg7 (by decide)
    _ = W4 m c (Proc.devRef .tc main_arg7) := StableHlo.after_of_writes_sub hostOps1 _ hostOps1_writes (by decide)
    _ = W3 m c (Proc.devRef .tc main_arg7) := W4_of_ne m c main_arg7 (by decide)
    _ = W2 m c (Proc.devRef .tc main_arg7) := StableHlo.after_of_writes_sub hostOps0_2 _ hostOps0_2_writes (by decide)
    _ = W1 m c (Proc.devRef .tc main_arg7) := StableHlo.after_of_writes_sub hostOps0_1 _ hostOps0_1_writes (by decide)
    _ = W0 m c (Proc.devRef .tc main_arg7) := StableHlo.after_of_writes_sub hostOps0 _ hostOps0_writes (by decide)
    _ = m ((c : Thread nD τ).loc main_arg7) := rfl
theorem W11_main_arg8 (c : Dev nD) : W11 m c (Proc.devRef .tc main_arg8) = m ((c : Thread nD τ).loc main_arg8) :=
  calc W11 m c (Proc.devRef .tc main_arg8)
    _ = W10 m c (Proc.devRef .tc main_arg8) := StableHlo.after_of_writes_sub hostOps4 _ hostOps4_writes (by decide)
    _ = W9 m c (Proc.devRef .tc main_arg8) := W10_of_ne m c main_arg8 (by decide)
    _ = W8 m c (Proc.devRef .tc main_arg8) := StableHlo.after_of_writes_sub hostOps3 _ hostOps3_writes (by decide)
    _ = W7 m c (Proc.devRef .tc main_arg8) := (W8_arr m c 1).trans (((dat2 (V7 m) c).arrAt_in 1 rfl _).trans (A_eq2 (V7 m) c 1))
    _ = W6 m c (Proc.devRef .tc main_arg8) := StableHlo.after_of_writes_sub hostOps2 _ hostOps2_writes (by decide)
    _ = W5 m c (Proc.devRef .tc main_arg8) := W6_of_ne m c main_arg8 (by decide)
    _ = W4 m c (Proc.devRef .tc main_arg8) := StableHlo.after_of_writes_sub hostOps1 _ hostOps1_writes (by decide)
    _ = W3 m c (Proc.devRef .tc main_arg8) := W4_of_ne m c main_arg8 (by decide)
    _ = W2 m c (Proc.devRef .tc main_arg8) := StableHlo.after_of_writes_sub hostOps0_2 _ hostOps0_2_writes (by decide)
    _ = W1 m c (Proc.devRef .tc main_arg8) := StableHlo.after_of_writes_sub hostOps0_1 _ hostOps0_1_writes (by decide)
    _ = W0 m c (Proc.devRef .tc main_arg8) := StableHlo.after_of_writes_sub hostOps0 _ hostOps0_writes (by decide)
    _ = m ((c : Thread nD τ).loc main_arg8) := rfl
theorem W11_main_arg9 (c : Dev nD) : W11 m c (Proc.devRef .tc main_arg9) = m ((c : Thread nD τ).loc main_arg9) :=
  calc W11 m c (Proc.devRef .tc main_arg9)
    _ = W10 m c (Proc.devRef .tc main_arg9) := StableHlo.after_of_writes_sub hostOps4 _ hostOps4_writes (by decide)
    _ = W9 m c (Proc.devRef .tc main_arg9) := W10_of_ne m c main_arg9 (by decide)
    _ = W8 m c (Proc.devRef .tc main_arg9) := StableHlo.after_of_writes_sub hostOps3 _ hostOps3_writes (by decide)
    _ = W7 m c (Proc.devRef .tc main_arg9) := W8_of_ne m c main_arg9 (by decide)
    _ = W6 m c (Proc.devRef .tc main_arg9) := StableHlo.after_of_writes_sub hostOps2 _ hostOps2_writes (by decide)
    _ = W5 m c (Proc.devRef .tc main_arg9) := W6_of_ne m c main_arg9 (by decide)
    _ = W4 m c (Proc.devRef .tc main_arg9) := StableHlo.after_of_writes_sub hostOps1 _ hostOps1_writes (by decide)
    _ = W3 m c (Proc.devRef .tc main_arg9) := W4_of_ne m c main_arg9 (by decide)
    _ = W2 m c (Proc.devRef .tc main_arg9) := StableHlo.after_of_writes_sub hostOps0_2 _ hostOps0_2_writes (by decide)
    _ = W1 m c (Proc.devRef .tc main_arg9) := StableHlo.after_of_writes_sub hostOps0_1 _ hostOps0_1_writes (by decide)
    _ = W0 m c (Proc.devRef .tc main_arg9) := StableHlo.after_of_writes_sub hostOps0 _ hostOps0_writes (by decide)
    _ = m ((c : Thread nD τ).loc main_arg9) := rfl
theorem W11_main_arg10 (c : Dev nD) : W11 m c (Proc.devRef .tc main_arg10) = m ((c : Thread nD τ).loc main_arg10) :=
  calc W11 m c (Proc.devRef .tc main_arg10)
    _ = W10 m c (Proc.devRef .tc main_arg10) := StableHlo.after_of_writes_sub hostOps4 _ hostOps4_writes (by decide)
    _ = W9 m c (Proc.devRef .tc main_arg10) := (W10_arr m c 2).trans (((dat3 (V9 m) c).arrAt_in 2 rfl _).trans (A_eq3 (V9 m) c 2))
    _ = W8 m c (Proc.devRef .tc main_arg10) := StableHlo.after_of_writes_sub hostOps3 _ hostOps3_writes (by decide)
    _ = W7 m c (Proc.devRef .tc main_arg10) := W8_of_ne m c main_arg10 (by decide)
    _ = W6 m c (Proc.devRef .tc main_arg10) := StableHlo.after_of_writes_sub hostOps2 _ hostOps2_writes (by decide)
    _ = W5 m c (Proc.devRef .tc main_arg10) := W6_of_ne m c main_arg10 (by decide)
    _ = W4 m c (Proc.devRef .tc main_arg10) := StableHlo.after_of_writes_sub hostOps1 _ hostOps1_writes (by decide)
    _ = W3 m c (Proc.devRef .tc main_arg10) := W4_of_ne m c main_arg10 (by decide)
    _ = W2 m c (Proc.devRef .tc main_arg10) := StableHlo.after_of_writes_sub hostOps0_2 _ hostOps0_2_writes (by decide)
    _ = W1 m c (Proc.devRef .tc main_arg10) := StableHlo.after_of_writes_sub hostOps0_1 _ hostOps0_1_writes (by decide)
    _ = W0 m c (Proc.devRef .tc main_arg10) := StableHlo.after_of_writes_sub hostOps0 _ hostOps0_writes (by decide)
    _ = m ((c : Thread nD τ).loc main_arg10) := rfl
theorem W11_main_arg11 (c : Dev nD) : W11 m c (Proc.devRef .tc main_arg11) = m ((c : Thread nD τ).loc main_arg11) :=
  calc W11 m c (Proc.devRef .tc main_arg11)
    _ = W10 m c (Proc.devRef .tc main_arg11) := StableHlo.after_of_writes_sub hostOps4 _ hostOps4_writes (by decide)
    _ = W9 m c (Proc.devRef .tc main_arg11) := W10_of_ne m c main_arg11 (by decide)
    _ = W8 m c (Proc.devRef .tc main_arg11) := StableHlo.after_of_writes_sub hostOps3 _ hostOps3_writes (by decide)
    _ = W7 m c (Proc.devRef .tc main_arg11) := W8_of_ne m c main_arg11 (by decide)
    _ = W6 m c (Proc.devRef .tc main_arg11) := StableHlo.after_of_writes_sub hostOps2 _ hostOps2_writes (by decide)
    _ = W5 m c (Proc.devRef .tc main_arg11) := W6_of_ne m c main_arg11 (by decide)
    _ = W4 m c (Proc.devRef .tc main_arg11) := StableHlo.after_of_writes_sub hostOps1 _ hostOps1_writes (by decide)
    _ = W3 m c (Proc.devRef .tc main_arg11) := W4_of_ne m c main_arg11 (by decide)
    _ = W2 m c (Proc.devRef .tc main_arg11) := StableHlo.after_of_writes_sub hostOps0_2 _ hostOps0_2_writes (by decide)
    _ = W1 m c (Proc.devRef .tc main_arg11) := StableHlo.after_of_writes_sub hostOps0_1 _ hostOps0_1_writes (by decide)
    _ = W0 m c (Proc.devRef .tc main_arg11) := StableHlo.after_of_writes_sub hostOps0 _ hostOps0_writes (by decide)
    _ = m ((c : Thread nD τ).loc main_arg11) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
   ⟨(h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c),
    (h c _ (mem_uc main_arg9 (by decide))).trans (W11_main_arg9 m c),
    (h c _ (mem_uc main_arg10 (by decide))).trans (W11_main_arg10 m c),
    (h c _ (mem_uc main_arg11 (by decide))).trans (W11_main_arg11 m c)⟩) (run_all m ρ)

end Cert.Kernel.Hand

end
-- ==== Proof.Spec.lean ====
/-
  The mathematics both programs compute, index by index over the extended reals: a dense layer (rows times a
  128 × 128 weight, the rows clamped below at zero or not), the per-graph sum pool of the clamped rows (row `n` goes to
  graph `b` exactly when its 32-bit label, read as a signed integer, is `b`; a label outside `0 … 511` goes nowhere), and
  the linear head (pooled row times a 128 × 1 weight, plus a bias).
-/
import proofs.«423290_j63376537420022_1_alg».proof.KernelIdeal
import Idealize.ShloMosaic.Lib.ValueIdx
import Idealize.ShloMosaic.PureOps.Ideal

noncomputable section

open scoped BigOperators

namespace Cert.Spec

open Idealize.ShloMosaic Idealize.ShloMosaic.ValueIdx Cert.KernelIdeal

/-- A dense layer: entry `(n, f)` is the sum over `k` of `x (n, k) · w (k, f)`. -/
def mm (x : S100000x128.Idx → EReal) (w : S128x128.Idx → EReal) : S100000x128.Idx → EReal :=
  fun i => ∑ k : Fin 128, x (ix2 (i 0) k) * w (ix2 k (i 1))

/-- The same with the rows clamped below at zero first. -/
def mmRelu (x : S100000x128.Idx → EReal) (w : S128x128.Idx → EReal) : S100000x128.Idx → EReal :=
  fun i => ∑ k : Fin 128, max (x (ix2 (i 0) k)) 0 * w (ix2 k (i 1))

/-- The sum pool: entry `(b, f)` is the sum, over the rows `n` whose label is `b`, of `max (x (n, f)) 0`. -/
def pooled (x : S100000x128.Idx → EReal) (bv : S100000.Idx → BitVec 32) : S512x128.Idx → EReal :=
  fun j => ∑ n : Fin 100000, if (bv (ix1 n)).toInt = ((j 0).val : ℤ) then max (x (ix2 n (j 1))) 0 else 0

/-- The linear head: entry `b` is the sum over `k` of `p (b, k) · w (k, 0)`, plus the bias. -/
def head (p : S512x128.Idx → EReal) (w : S128x1.Idx → EReal) (b : EReal) : S512.Idx → EReal :=
  fun j => (∑ k : Fin 128, p (ix2 (j 0) k) * w (ix2 k (0 : Fin 1))) + b

end Cert.Spec

end
-- ==== Proof.HostChain.lean ====
/-
  The host operations the two programs share, named once, and the whole network in their terms. The graph's source
  and target index arrays are the two rows of the edge array, each followed by the node numbers (the self loops); the
  weights are the edge weights followed by ones; a node's degree is the scatter-add of the weights by target; its
  inverse square root where positive, zero elsewhere; an edge's normalisation is the product of its two ends' inverse
  square roots and its weight; an aggregation scatter-adds, by target, the normalisation times the gathered source rows of
  a transformed feature array, and adds the bias. An index array's negative entries are wrapped by the node count first
  (the indexing convention of the source). The network is three dense layers (the second and third on clamped rows), each
  aggregated, then the sum pool by graph label and the linear head.
-/
import proofs.«423290_j63376537420022_1_alg».proof.Proof.Gen.KernelIdeal
import proofs.«423290_j63376537420022_1_alg».proof.Proof.Spec
import Idealize.ShloMosaic.Lib.ValueIdx
import Idealize.ShloMosaic.PureOps.Ideal

noncomputable section

namespace Cert.HostChain

open Cert.KernelIdeal Cert.KernelIdeal.Gen
open Idealize.ShloMosaic Idealize.ShloMosaic.ValueIdx

/-- An index array with negative entries wrapped by the node count. -/
def wrapIdx (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- The sources: row 0 of the edge array, then the node numbers. -/
def rowOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The targets: row 1 of the edge array, then the node numbers. -/
def colOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- The weights: the edge weights, then a one per self loop. -/
def wtsOf (ew : FVec Ideal S1600000 .f32) : FVec Ideal S1700000 .f32 :=
  concatenate S1700000 0 [⟨S1600000, ew⟩,
    ⟨S100000, broadcastInDim S100000 ![] bcast_S_S100000 (constant (F := Ideal) S_ .f32 0x3F800000#32)⟩] concatenates_S1600000_S100000_S1700000_d0

/-- The degrees: the weights scatter-added by target. -/
def degOf (col : IVec S1700000 32) (wts : FVec Ideal S1700000 .f32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 col) wts

/-- The inverse square roots of the positive degrees, zero elsewhere. -/
def dinvOf (deg : FVec Ideal S100000 .f32) : FVec Ideal S100000 .f32 :=
  select (cmpf .ogt deg (broadcastInDim S100000 ![] bcast_S_S100000 (constant (F := Ideal) S_ .f32 0x00000000#32)))
    (Host.rsqrt (F := Ideal) deg) (broadcastInDim S100000 ![] bcast_S_S100000 (constant (F := Ideal) S_ .f32 0x00000000#32))

/-- The normalisation of every edge and self loop. -/
def normOf (row col : IVec S1700000 32) (wts : FVec Ideal S1700000 .f32) (dinv : FVec Ideal S100000 .f32) : FVec Ideal S1700000 .f32 :=
  mulf (mulf (Host.gather gather_S100000_S1700000x1_S1700000_n_0_n_n_0_1_1 dinv (broadcastInDim S1700000x1 ![0] bcast_S1700000_S1700000x1_0 (wrapIdx row))) wts)
    (Host.gather gather_S100000_S1700000x1_S1700000_n_0_n_n_0_1_1 dinv (broadcastInDim S1700000x1 ![0] bcast_S1700000_S1700000x1_0 (wrapIdx col)))

/-- One aggregation: scatter-add, by target, of the normalisation times the gathered source rows of `xw`, plus the bias. -/
def aggOf (row col : IVec S1700000 32) (norm : FVec Ideal S1700000 .f32) (xw : FVec Ideal S100000x128 .f32) (b : FVec Ideal S128 .f32) :
    FVec Ideal S100000x128 .f32 :=
  addf (Host.scatterAdd (F := Ideal) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 col)
      (mulf (broadcastInDim S1700000x128 ![0, 1] bcast_S1700000x1_S1700000x128_0_1 (broadcastInDim S1700000x1 ![0] bcast_S1700000_S1700000x1_0 norm))
        (Host.gather gather_S100000x128_S1700000x1_S1700000x128_1_0_n_n_0_1_1128 xw (broadcastInDim S1700000x1 ![0] bcast_S1700000_S1700000x1_0 (wrapIdx row)))))
    (broadcastInDim S100000x128 ![0, 1] bcast_S1x128_S100000x128_0_1 (broadcastInDim S1x128 ![1] bcast_S128_S1x128_1 b))

/-- The normalisation from the graph's arrays. -/
def normG (ei : IVec S2x1600000 32) (ew : FVec Ideal S1600000 .f32) : FVec Ideal S1700000 .f32 :=
  normOf (rowOf ei) (colOf ei) (wtsOf ew) (dinvOf (degOf (colOf ei) (wtsOf ew)))

/-- One graph-convolution layer's aggregation of a transformed feature array. -/
def layer (ei : IVec S2x1600000 32) (ew : FVec Ideal S1600000 .f32) (xw : FVec Ideal S100000x128 .f32) (b : FVec Ideal S128 .f32) :
    FVec Ideal S100000x128 .f32 :=
  aggOf (rowOf ei) (colOf ei) (normG ei ew) xw b

/-- THE NETWORK: what both programs return, as one function of the twelve arguments. -/
def net (X : FVec Ideal S100000x128 .f32) (ei : IVec S2x1600000 32) (ew : FVec Ideal S1600000 .f32) (bv : IVec S100000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (lw : FVec Ideal S128x1 .f32) (lb : FVec Ideal S1 .f32) : FVec Ideal S512 .f32 :=
  Cert.Spec.head (Cert.Spec.pooled
      (layer ei ew (Cert.Spec.mmRelu (layer ei ew (Cert.Spec.mmRelu (layer ei ew (Cert.Spec.mm X W1) b1) W2) b2) W3) b3) bv)
    lw (lb (ix1 (0 : Fin 1)))

end Cert.HostChain

end
-- ==== Proof.HostFold.lean ====
/-
  What the kernel program's buffers hold at the regions' boundaries, over the extended reals, in the terms of the
  shared host operations: after the opening stretches the sources, targets and normalisation of the graph; after each
  aggregation's stretch the layer's aggregation of what the transform before it left; before the last region the labels
  as a column and the bias as a 1 × 1 array; at the return the head's 512 × 1 result as a 512-vector. No stretch and no
  region writes an argument, nor the sources, targets or normalisation once they are made.
-/
import proofs.«423290_j63376537420022_1_alg».proof.Proof.Fold
import proofs.«423290_j63376537420022_1_alg».proof.Proof.HostChain
import proofs.«423290_j63376537420022_1_alg».proof.Proof.Gen.KernelIdeal.Regions
import Idealize.ShloMosaic.Lib.StableHlo.Run
import Idealize.ShloMosaic.PureOps.Ideal

set_option maxRecDepth 16384
set_option Elab.async false

noncomputable section

namespace Cert.HostFold

open Cert.KernelIdeal Cert.KernelIdeal.Gen Cert.KernelIdeal.Hand Cert.HostChain
open Idealize.ShloMosaic Idealize.ShloMosaic.TcCoe Idealize.SL.Sem Idealize.ShloMosaic.StableHlo

variable (m : (ℓ : Loc nD τ sig) → Buf (Elt Ideal) ℓ) (c : Dev nD)

/-! ## Each stretch's results over any contents it starts from -/

/-- The opening stretch leaves the sources. -/
theorem after0_v3 (V : Valuation τ sig (Elt Ideal)) :
    StableHlo.after hostOps0 V (Proc.devRef .tc main_v3) = rowOf (V (Proc.devRef .tc main_arg1)) := by
  generalize hy : rowOf (V (Proc.devRef .tc main_arg1)) = y
  after_results
  subst hy
  rfl

/-- The opening stretch leaves the targets. -/
theorem after0_v6 (V : Valuation τ sig (Elt Ideal)) :
    StableHlo.after hostOps0 V (Proc.devRef .tc main_v6) = colOf (V (Proc.devRef .tc main_arg1)) := by
  generalize hy : colOf (V (Proc.devRef .tc main_arg1)) = y
  after_results
  subst hy
  rfl

/-- The opening stretch leaves the weights. -/
theorem after0_v8 (V : Valuation τ sig (Elt Ideal)) :
    StableHlo.after hostOps0 V (Proc.devRef .tc main_v8) = wtsOf (V (Proc.devRef .tc main_arg2)) := by
  generalize hy : wtsOf (V (Proc.devRef .tc main_arg2)) = y
  after_results
  subst hy
  rfl

/-- The opening stretch leaves the test of the degrees against zero. -/
theorem after0_v13 (V : Valuation τ sig (Elt Ideal)) :
    StableHlo.after hostOps0 V (Proc.devRef .tc main_v13) = cmpf .ogt (degOf (colOf (V (Proc.devRef .tc main_arg1))) (wtsOf (V (Proc.devRef .tc main_arg2)))) (broadcastInDim S100000 ![] bcast_S_S100000 (constant (F := Ideal) S_ .f32 0x00000000#32)) := by
  generalize hy : cmpf .ogt (degOf (colOf (V (Proc.devRef .tc main_arg1))) (wtsOf (V (Proc.devRef .tc main_arg2)))) (broadcastInDim S100000 ![] bcast_S_S100000 (constant (F := Ideal) S_ .f32 0x00000000#32)) = y
  after_results
  subst hy
  rfl

/-- The opening stretch leaves the inverse square roots of the degrees. -/
theorem after0_v14 (V : Valuation τ sig (Elt Ideal)) :
    StableHlo.after hostOps0 V (Proc.devRef .tc main_v14) = Host.rsqrt (F := Ideal) (degOf (colOf (V (Proc.devRef .tc main_arg1))) (wtsOf (V (Proc.devRef .tc main_arg2)))) := by
  generalize hy : Host.rsqrt (F := Ideal) (degOf (colOf (V (Proc.devRef .tc main_arg1))) (wtsOf (V (Proc.devRef .tc main_arg2)))) = y
  after_results
  subst hy
  rfl

/-- The opening stretch leaves a zero array. -/
theorem after0_v15 (V : Valuation τ sig (Elt Ideal)) :
    StableHlo.after hostOps0 V (Proc.devRef .tc main_v15) = (broadcastInDim S100000 ![] bcast_S_S100000 (constant (F := Ideal) S_ .f32 0x00000000#32)) := by
  generalize hy : (broadcastInDim S100000 ![] bcast_S_S100000 (constant (F := Ideal) S_ .f32 0x00000000#32)) = y
  after_results
  subst hy
  rfl

/-- The second stretch selects between the inverse square roots and zero. -/
theorem after01_v16 (V : Valuation τ sig (Elt Ideal)) :
    StableHlo.after hostOps0_1 V (Proc.devRef .tc main_v16) = select (V (Proc.devRef .tc main_v13)) (V (Proc.devRef .tc main_v14)) (V (Proc.devRef .tc main_v15)) := by
  generalize hy : select (V (Proc.devRef .tc main_v13)) (V (Proc.devRef .tc main_v14)) (V (Proc.devRef .tc main_v15)) = y
  after_results
  subst hy
  rfl

/-- The third stretch leaves the normalisation. -/
theorem after02_v32 (V : Valuation τ sig (Elt Ideal)) :
    StableHlo.after hostOps0_2 V (Proc.devRef .tc main_v32) = normOf (V (Proc.devRef .tc main_v3)) (V (Proc.devRef .tc main_v6)) (V (Proc.devRef .tc main_v8)) (V (Proc.devRef .tc main_v16)) := by
  generalize hy : normOf (V (Proc.devRef .tc main_v3)) (V (Proc.devRef .tc main_v6)) (V (Proc.devRef .tc main_v8)) (V (Proc.devRef .tc main_v16)) = y
  after_results_simp
  subst hy
  unfold normOf wrapIdx
  rfl

/-- The first aggregation's stretch leaves the aggregation of the transformed rows it is given. -/
theorem after1_v49 (V : Valuation τ sig (Elt Ideal)) :
    StableHlo.after hostOps1 V (Proc.devRef .tc main_v49) = aggOf (V (Proc.devRef .tc main_v3)) (V (Proc.devRef .tc main_v6)) (V (Proc.devRef .tc main_v32)) (V (Proc.devRef .tc main_v33)) (V (Proc.devRef .tc main_arg5)) := by
  generalize hy : aggOf (V (Proc.devRef .tc main_v3)) (V (Proc.devRef .tc main_v6)) (V (Proc.devRef .tc main_v32)) (V (Proc.devRef .tc main_v33)) (V (Proc.devRef .tc main_arg5)) = y
  after_results_simp
  subst hy
  unfold aggOf wrapIdx
  rfl

/-- The second aggregation's stretch likewise. -/
theorem after2_v66 (V : Valuation τ sig (Elt Ideal)) :
    StableHlo.after hostOps2 V (Proc.devRef .tc main_v66) = aggOf (V (Proc.devRef .tc main_v3)) (V (Proc.devRef .tc main_v6)) (V (Proc.devRef .tc main_v32)) (V (Proc.devRef .tc main_v50)) (V (Proc.devRef .tc main_arg7)) := by
  generalize hy : aggOf (V (Proc.devRef .tc main_v3)) (V (Proc.devRef .tc main_v6)) (V (Proc.devRef .tc main_v32)) (V (Proc.devRef .tc main_v50)) (V (Proc.devRef .tc main_arg7)) = y
  after_results_simp
  subst hy
  unfold aggOf wrapIdx
  rfl

/-- The third aggregation's stretch likewise. -/
theorem after3_v83 (V : Valuation τ sig (Elt Ideal)) :
    StableHlo.after hostOps3 V (Proc.devRef .tc main_v83) = aggOf (V (Proc.devRef .tc main_v3)) (V (Proc.devRef .tc main_v6)) (V (Proc.devRef .tc main_v32)) (V (Proc.devRef .tc main_v67)) (V (Proc.devRef .tc main_arg9)) := by
  generalize hy : aggOf (V (Proc.devRef .tc main_v3)) (V (Proc.devRef .tc main_v6)) (V (Proc.devRef .tc main_v32)) (V (Proc.devRef .tc main_v67)) (V (Proc.devRef .tc main_arg9)) = y
  after_results_simp
  subst hy
  unfold aggOf wrapIdx
  rfl

/-- The third aggregation's stretch leaves the labels as a column. -/
theorem after3_v84 (V : Valuation τ sig (Elt Ideal)) :
    StableHlo.after hostOps3 V (Proc.devRef .tc main_v84) = shapeCast S100000x1 (V (Proc.devRef .tc main_arg3)) shapeCasts_S100000_S100000x1 := by
  generalize hy : shapeCast S100000x1 (V (Proc.devRef .tc main_arg3)) shapeCasts_S100000_S100000x1 = y
  after_results
  subst hy
  rfl

/-- The third aggregation's stretch leaves the bias as a 1 × 1 array. -/
theorem after3_v85 (V : Valuation τ sig (Elt Ideal)) :
    StableHlo.after hostOps3 V (Proc.devRef .tc main_v85) = shapeCast S1x1 (V (Proc.devRef .tc main_arg11)) shapeCasts_S1_S1x1 := by
  generalize hy : shapeCast S1x1 (V (Proc.devRef .tc main_arg11)) shapeCasts_S1_S1x1 = y
  after_results
  subst hy
  rfl

/-- The closing stretch leaves the head's column as a vector. -/
theorem after4_v87 (V : Valuation τ sig (Elt Ideal)) :
    StableHlo.after hostOps4 V (Proc.devRef .tc main_v87) = shapeCast S512 (V (Proc.devRef .tc main_v86)) shapeCasts_S512x1_S512 := by
  generalize hy : shapeCast S512 (V (Proc.devRef .tc main_v86)) shapeCasts_S512x1_S512 = y
  after_results
  subst hy
  rfl

/-! ## The graph's arrays after the opening stretches, kept to the end -/

theorem W1_row : W1 m c (Proc.devRef .tc main_v3) = rowOf (m ((c : Thread nD τ).loc main_arg1)) := by
  exact after0_v3 (W0 m c)
theorem W2_row : W2 m c (Proc.devRef .tc main_v3) = rowOf (m ((c : Thread nD τ).loc main_arg1)) := by
  exact (StableHlo.after_of_writes_sub hostOps0_1 _ hostOps0_1_writes (by decide)).trans (W1_row m c)
theorem W3_row : W3 m c (Proc.devRef .tc main_v3) = rowOf (m ((c : Thread nD τ).loc main_arg1)) := by
  exact (StableHlo.after_of_writes_sub hostOps0_2 _ hostOps0_2_writes (by decide)).trans (W2_row m c)
theorem W1_col : W1 m c (Proc.devRef .tc main_v6) = colOf (m ((c : Thread nD τ).loc main_arg1)) := by
  exact after0_v6 (W0 m c)
theorem W2_col : W2 m c (Proc.devRef .tc main_v6) = colOf (m ((c : Thread nD τ).loc main_arg1)) := by
  exact (StableHlo.after_of_writes_sub hostOps0_1 _ hostOps0_1_writes (by decide)).trans (W1_col m c)
theorem W3_col : W3 m c (Proc.devRef .tc main_v6) = colOf (m ((c : Thread nD τ).loc main_arg1)) := by
  exact (StableHlo.after_of_writes_sub hostOps0_2 _ hostOps0_2_writes (by decide)).trans (W2_col m c)
theorem W1_wts : W1 m c (Proc.devRef .tc main_v8) = wtsOf (m ((c : Thread nD τ).loc main_arg2)) := by
  exact after0_v8 (W0 m c)
theorem W2_wts : W2 m c (Proc.devRef .tc main_v8) = wtsOf (m ((c : Thread nD τ).loc main_arg2)) := by
  exact (StableHlo.after_of_writes_sub hostOps0_1 _ hostOps0_1_writes (by decide)).trans (W1_wts m c)
theorem W1_pos : W1 m c (Proc.devRef .tc main_v13) = cmpf .ogt (degOf (colOf (m ((c : Thread nD τ).loc main_arg1))) (wtsOf (m ((c : Thread nD τ).loc main_arg2)))) (broadcastInDim S100000 ![] bcast_S_S100000 (constant (F := Ideal) S_ .f32 0x00000000#32)) := by
  exact after0_v13 (W0 m c)
theorem W1_rsqrt : W1 m c (Proc.devRef .tc main_v14) = Host.rsqrt (F := Ideal) (degOf (colOf (m ((c : Thread nD τ).loc main_arg1))) (wtsOf (m ((c : Thread nD τ).loc main_arg2)))) := by
  exact after0_v14 (W0 m c)
theorem W1_zeros : W1 m c (Proc.devRef .tc main_v15) = (broadcastInDim S100000 ![] bcast_S_S100000 (constant (F := Ideal) S_ .f32 0x00000000#32)) := by
  exact after0_v15 (W0 m c)
theorem W2_dinv : W2 m c (Proc.devRef .tc main_v16) = dinvOf (degOf (colOf (m ((c : Thread nD τ).loc main_arg1))) (wtsOf (m ((c : Thread nD τ).loc main_arg2)))) := by
  have h := after01_v16 (W1 m c)
  rw [W1_pos m c, W1_rsqrt m c, W1_zeros m c] at h
  exact h
theorem W3_norm : W3 m c (Proc.devRef .tc main_v32) = normG (m ((c : Thread nD τ).loc main_arg1)) (m ((c : Thread nD τ).loc main_arg2)) := by
  have h := after02_v32 (W2 m c)
  rw [W2_row m c, W2_col m c, W2_wts m c, W2_dinv m c] at h
  exact h
theorem W4_row : W4 m c (Proc.devRef .tc main_v3) = rowOf (m ((c : Thread nD τ).loc main_arg1)) := by
  exact (W4_of_ne m c main_v3 (by decide)).trans (W3_row m c)
theorem W5_row : W5 m c (Proc.devRef .tc main_v3) = rowOf (m ((c : Thread nD τ).loc main_arg1)) := by
  exact (StableHlo.after_of_writes_sub hostOps1 _ hostOps1_writes (by decide)).trans (W4_row m c)
theorem W6_row : W6 m c (Proc.devRef .tc main_v3) = rowOf (m ((c : Thread nD τ).loc main_arg1)) := by
  exact (W6_of_ne m c main_v3 (by decide)).trans (W5_row m c)
theorem W7_row : W7 m c (Proc.devRef .tc main_v3) = rowOf (m ((c : Thread nD τ).loc main_arg1)) := by
  exact (StableHlo.after_of_writes_sub hostOps2 _ hostOps2_writes (by decide)).trans (W6_row m c)
theorem W8_row : W8 m c (Proc.devRef .tc main_v3) = rowOf (m ((c : Thread nD τ).loc main_arg1)) := by
  exact (W8_of_ne m c main_v3 (by decide)).trans (W7_row m c)
theorem W4_col : W4 m c (Proc.devRef .tc main_v6) = colOf (m ((c : Thread nD τ).loc main_arg1)) := by
  exact (W4_of_ne m c main_v6 (by decide)).trans (W3_col m c)
theorem W5_col : W5 m c (Proc.devRef .tc main_v6) = colOf (m ((c : Thread nD τ).loc main_arg1)) := by
  exact (StableHlo.after_of_writes_sub hostOps1 _ hostOps1_writes (by decide)).trans (W4_col m c)
theorem W6_col : W6 m c (Proc.devRef .tc main_v6) = colOf (m ((c : Thread nD τ).loc main_arg1)) := by
  exact (W6_of_ne m c main_v6 (by decide)).trans (W5_col m c)
theorem W7_col : W7 m c (Proc.devRef .tc main_v6) = colOf (m ((c : Thread nD τ).loc main_arg1)) := by
  exact (StableHlo.after_of_writes_sub hostOps2 _ hostOps2_writes (by decide)).trans (W6_col m c)
theorem W8_col : W8 m c (Proc.devRef .tc main_v6) = colOf (m ((c : Thread nD τ).loc main_arg1)) := by
  exact (W8_of_ne m c main_v6 (by decide)).trans (W7_col m c)
theorem W4_norm : W4 m c (Proc.devRef .tc main_v32) = normG (m ((c : Thread nD τ).loc main_arg1)) (m ((c : Thread nD τ).loc main_arg2)) := by
  exact (W4_of_ne m c main_v32 (by decide)).trans (W3_norm m c)
theorem W5_norm : W5 m c (Proc.devRef .tc main_v32) = normG (m ((c : Thread nD τ).loc main_arg1)) (m ((c : Thread nD τ).loc main_arg2)) := by
  exact (StableHlo.after_of_writes_sub hostOps1 _ hostOps1_writes (by decide)).trans (W4_norm m c)
theorem W6_norm : W6 m c (Proc.devRef .tc main_v32) = normG (m ((c : Thread nD τ).loc main_arg1)) (m ((c : Thread nD τ).loc main_arg2)) := by
  exact (W6_of_ne m c main_v32 (by decide)).trans (W5_norm m c)
theorem W7_norm : W7 m c (Proc.devRef .tc main_v32) = normG (m ((c : Thread nD τ).loc main_arg1)) (m ((c : Thread nD τ).loc main_arg2)) := by
  exact (StableHlo.after_of_writes_sub hostOps2 _ hostOps2_writes (by decide)).trans (W6_norm m c)
theorem W8_norm : W8 m c (Proc.devRef .tc main_v32) = normG (m ((c : Thread nD τ).loc main_arg1)) (m ((c : Thread nD τ).loc main_arg2)) := by
  exact (W8_of_ne m c main_v32 (by decide)).trans (W7_norm m c)

/-! ## The arguments the regions and the aggregations read, as launched -/

theorem W0_arg0 : W0 m c (Proc.devRef .tc main_arg0) = m ((c : Thread nD τ).loc main_arg0) := rfl
theorem W1_arg0 : W1 m c (Proc.devRef .tc main_arg0) = m ((c : Thread nD τ).loc main_arg0) := by
  exact (StableHlo.after_of_writes_sub hostOps0 _ hostOps0_writes (by decide)).trans (W0_arg0 m c)
theorem W2_arg0 : W2 m c (Proc.devRef .tc main_arg0) = m ((c : Thread nD τ).loc main_arg0) := by
  exact (StableHlo.after_of_writes_sub hostOps0_1 _ hostOps0_1_writes (by decide)).trans (W1_arg0 m c)
theorem W3_arg0 : W3 m c (Proc.devRef .tc main_arg0) = m ((c : Thread nD τ).loc main_arg0) := by
  exact (StableHlo.after_of_writes_sub hostOps0_2 _ hostOps0_2_writes (by decide)).trans (W2_arg0 m c)
theorem W0_arg4 : W0 m c (Proc.devRef .tc main_arg4) = m ((c : Thread nD τ).loc main_arg4) := rfl
theorem W1_arg4 : W1 m c (Proc.devRef .tc main_arg4) = m ((c : Thread nD τ).loc main_arg4) := by
  exact (StableHlo.after_of_writes_sub hostOps0 _ hostOps0_writes (by decide)).trans (W0_arg4 m c)
theorem W2_arg4 : W2 m c (Proc.devRef .tc main_arg4) = m ((c : Thread nD τ).loc main_arg4) := by
  exact (StableHlo.after_of_writes_sub hostOps0_1 _ hostOps0_1_writes (by decide)).trans (W1_arg4 m c)
theorem W3_arg4 : W3 m c (Proc.devRef .tc main_arg4) = m ((c : Thread nD τ).loc main_arg4) := by
  exact (StableHlo.after_of_writes_sub hostOps0_2 _ hostOps0_2_writes (by decide)).trans (W2_arg4 m c)
theorem W0_arg5 : W0 m c (Proc.devRef .tc main_arg5) = m ((c : Thread nD τ).loc main_arg5) := rfl
theorem W1_arg5 : W1 m c (Proc.devRef .tc main_arg5) = m ((c : Thread nD τ).loc main_arg5) := by
  exact (StableHlo.after_of_writes_sub hostOps0 _ hostOps0_writes (by decide)).trans (W0_arg5 m c)
theorem W2_arg5 : W2 m c (Proc.devRef .tc main_arg5) = m ((c : Thread nD τ).loc main_arg5) := by
  exact (StableHlo.after_of_writes_sub hostOps0_1 _ hostOps0_1_writes (by decide)).trans (W1_arg5 m c)
theorem W3_arg5 : W3 m c (Proc.devRef .tc main_arg5) = m ((c : Thread nD τ).loc main_arg5) := by
  exact (StableHlo.after_of_writes_sub hostOps0_2 _ hostOps0_2_writes (by decide)).trans (W2_arg5 m c)
theorem W4_arg5 : W4 m c (Proc.devRef .tc main_arg5) = m ((c : Thread nD τ).loc main_arg5) := by
  exact (W4_of_ne m c main_arg5 (by decide)).trans (W3_arg5 m c)
theorem W0_arg6 : W0 m c (Proc.devRef .tc main_arg6) = m ((c : Thread nD τ).loc main_arg6) := rfl
theorem W1_arg6 : W1 m c (Proc.devRef .tc main_arg6) = m ((c : Thread nD τ).loc main_arg6) := by
  exact (StableHlo.after_of_writes_sub hostOps0 _ hostOps0_writes (by decide)).trans (W0_arg6 m c)
theorem W2_arg6 : W2 m c (Proc.devRef .tc main_arg6) = m ((c : Thread nD τ).loc main_arg6) := by
  exact (StableHlo.after_of_writes_sub hostOps0_1 _ hostOps0_1_writes (by decide)).trans (W1_arg6 m c)
theorem W3_arg6 : W3 m c (Proc.devRef .tc main_arg6) = m ((c : Thread nD τ).loc main_arg6) := by
  exact (StableHlo.after_of_writes_sub hostOps0_2 _ hostOps0_2_writes (by decide)).trans (W2_arg6 m c)
theorem W4_arg6 : W4 m c (Proc.devRef .tc main_arg6) = m ((c : Thread nD τ).loc main_arg6) := by
  exact (W4_of_ne m c main_arg6 (by decide)).trans (W3_arg6 m c)
theorem W5_arg6 : W5 m c (Proc.devRef .tc main_arg6) = m ((c : Thread nD τ).loc main_arg6) := by
  exact (StableHlo.after_of_writes_sub hostOps1 _ hostOps1_writes (by decide)).trans (W4_arg6 m c)
theorem W0_arg7 : W0 m c (Proc.devRef .tc main_arg7) = m ((c : Thread nD τ).loc main_arg7) := rfl
theorem W1_arg7 : W1 m c (Proc.devRef .tc main_arg7) = m ((c : Thread nD τ).loc main_arg7) := by
  exact (StableHlo.after_of_writes_sub hostOps0 _ hostOps0_writes (by decide)).trans (W0_arg7 m c)
theorem W2_arg7 : W2 m c (Proc.devRef .tc main_arg7) = m ((c : Thread nD τ).loc main_arg7) := by
  exact (StableHlo.after_of_writes_sub hostOps0_1 _ hostOps0_1_writes (by decide)).trans (W1_arg7 m c)
theorem W3_arg7 : W3 m c (Proc.devRef .tc main_arg7) = m ((c : Thread nD τ).loc main_arg7) := by
  exact (StableHlo.after_of_writes_sub hostOps0_2 _ hostOps0_2_writes (by decide)).trans (W2_arg7 m c)
theorem W4_arg7 : W4 m c (Proc.devRef .tc main_arg7) = m ((c : Thread nD τ).loc main_arg7) := by
  exact (W4_of_ne m c main_arg7 (by decide)).trans (W3_arg7 m c)
theorem W5_arg7 : W5 m c (Proc.devRef .tc main_arg7) = m ((c : Thread nD τ).loc main_arg7) := by
  exact (StableHlo.after_of_writes_sub hostOps1 _ hostOps1_writes (by decide)).trans (W4_arg7 m c)
theorem W6_arg7 : W6 m c (Proc.devRef .tc main_arg7) = m ((c : Thread nD τ).loc main_arg7) := by
  exact (W6_of_ne m c main_arg7 (by decide)).trans (W5_arg7 m c)
theorem W0_arg8 : W0 m c (Proc.devRef .tc main_arg8) = m ((c : Thread nD τ).loc main_arg8) := rfl
theorem W1_arg8 : W1 m c (Proc.devRef .tc main_arg8) = m ((c : Thread nD τ).loc main_arg8) := by
  exact (StableHlo.after_of_writes_sub hostOps0 _ hostOps0_writes (by decide)).trans (W0_arg8 m c)
theorem W2_arg8 : W2 m c (Proc.devRef .tc main_arg8) = m ((c : Thread nD τ).loc main_arg8) := by
  exact (StableHlo.after_of_writes_sub hostOps0_1 _ hostOps0_1_writes (by decide)).trans (W1_arg8 m c)
theorem W3_arg8 : W3 m c (Proc.devRef .tc main_arg8) = m ((c : Thread nD τ).loc main_arg8) := by
  exact (StableHlo.after_of_writes_sub hostOps0_2 _ hostOps0_2_writes (by decide)).trans (W2_arg8 m c)
theorem W4_arg8 : W4 m c (Proc.devRef .tc main_arg8) = m ((c : Thread nD τ).loc main_arg8) := by
  exact (W4_of_ne m c main_arg8 (by decide)).trans (W3_arg8 m c)
theorem W5_arg8 : W5 m c (Proc.devRef .tc main_arg8) = m ((c : Thread nD τ).loc main_arg8) := by
  exact (StableHlo.after_of_writes_sub hostOps1 _ hostOps1_writes (by decide)).trans (W4_arg8 m c)
theorem W6_arg8 : W6 m c (Proc.devRef .tc main_arg8) = m ((c : Thread nD τ).loc main_arg8) := by
  exact (W6_of_ne m c main_arg8 (by decide)).trans (W5_arg8 m c)
theorem W7_arg8 : W7 m c (Proc.devRef .tc main_arg8) = m ((c : Thread nD τ).loc main_arg8) := by
  exact (StableHlo.after_of_writes_sub hostOps2 _ hostOps2_writes (by decide)).trans (W6_arg8 m c)
theorem W0_arg9 : W0 m c (Proc.devRef .tc main_arg9) = m ((c : Thread nD τ).loc main_arg9) := rfl
theorem W1_arg9 : W1 m c (Proc.devRef .tc main_arg9) = m ((c : Thread nD τ).loc main_arg9) := by
  exact (StableHlo.after_of_writes_sub hostOps0 _ hostOps0_writes (by decide)).trans (W0_arg9 m c)
theorem W2_arg9 : W2 m c (Proc.devRef .tc main_arg9) = m ((c : Thread nD τ).loc main_arg9) := by
  exact (StableHlo.after_of_writes_sub hostOps0_1 _ hostOps0_1_writes (by decide)).trans (W1_arg9 m c)
theorem W3_arg9 : W3 m c (Proc.devRef .tc main_arg9) = m ((c : Thread nD τ).loc main_arg9) := by
  exact (StableHlo.after_of_writes_sub hostOps0_2 _ hostOps0_2_writes (by decide)).trans (W2_arg9 m c)
theorem W4_arg9 : W4 m c (Proc.devRef .tc main_arg9) = m ((c : Thread nD τ).loc main_arg9) := by
  exact (W4_of_ne m c main_arg9 (by decide)).trans (W3_arg9 m c)
theorem W5_arg9 : W5 m c (Proc.devRef .tc main_arg9) = m ((c : Thread nD τ).loc main_arg9) := by
  exact (StableHlo.after_of_writes_sub hostOps1 _ hostOps1_writes (by decide)).trans (W4_arg9 m c)
theorem W6_arg9 : W6 m c (Proc.devRef .tc main_arg9) = m ((c : Thread nD τ).loc main_arg9) := by
  exact (W6_of_ne m c main_arg9 (by decide)).trans (W5_arg9 m c)
theorem W7_arg9 : W7 m c (Proc.devRef .tc main_arg9) = m ((c : Thread nD τ).loc main_arg9) := by
  exact (StableHlo.after_of_writes_sub hostOps2 _ hostOps2_writes (by decide)).trans (W6_arg9 m c)
theorem W8_arg9 : W8 m c (Proc.devRef .tc main_arg9) = m ((c : Thread nD τ).loc main_arg9) := by
  exact (W8_of_ne m c main_arg9 (by decide)).trans (W7_arg9 m c)
theorem W0_arg10 : W0 m c (Proc.devRef .tc main_arg10) = m ((c : Thread nD τ).loc main_arg10) := rfl
theorem W1_arg10 : W1 m c (Proc.devRef .tc main_arg10) = m ((c : Thread nD τ).loc main_arg10) := by
  exact (StableHlo.after_of_writes_sub hostOps0 _ hostOps0_writes (by decide)).trans (W0_arg10 m c)
theorem W2_arg10 : W2 m c (Proc.devRef .tc main_arg10) = m ((c : Thread nD τ).loc main_arg10) := by
  exact (StableHlo.after_of_writes_sub hostOps0_1 _ hostOps0_1_writes (by decide)).trans (W1_arg10 m c)
theorem W3_arg10 : W3 m c (Proc.devRef .tc main_arg10) = m ((c : Thread nD τ).loc main_arg10) := by
  exact (StableHlo.after_of_writes_sub hostOps0_2 _ hostOps0_2_writes (by decide)).trans (W2_arg10 m c)
theorem W4_arg10 : W4 m c (Proc.devRef .tc main_arg10) = m ((c : Thread nD τ).loc main_arg10) := by
  exact (W4_of_ne m c main_arg10 (by decide)).trans (W3_arg10 m c)
theorem W5_arg10 : W5 m c (Proc.devRef .tc main_arg10) = m ((c : Thread nD τ).loc main_arg10) := by
  exact (StableHlo.after_of_writes_sub hostOps1 _ hostOps1_writes (by decide)).trans (W4_arg10 m c)
theorem W6_arg10 : W6 m c (Proc.devRef .tc main_arg10) = m ((c : Thread nD τ).loc main_arg10) := by
  exact (W6_of_ne m c main_arg10 (by decide)).trans (W5_arg10 m c)
theorem W7_arg10 : W7 m c (Proc.devRef .tc main_arg10) = m ((c : Thread nD τ).loc main_arg10) := by
  exact (StableHlo.after_of_writes_sub hostOps2 _ hostOps2_writes (by decide)).trans (W6_arg10 m c)
theorem W8_arg10 : W8 m c (Proc.devRef .tc main_arg10) = m ((c : Thread nD τ).loc main_arg10) := by
  exact (W8_of_ne m c main_arg10 (by decide)).trans (W7_arg10 m c)
theorem W9_arg10 : W9 m c (Proc.devRef .tc main_arg10) = m ((c : Thread nD τ).loc main_arg10) := by
  exact (StableHlo.after_of_writes_sub hostOps3 _ hostOps3_writes (by decide)).trans (W8_arg10 m c)
theorem W0_arg3 : W0 m c (Proc.devRef .tc main_arg3) = m ((c : Thread nD τ).loc main_arg3) := rfl
theorem W1_arg3 : W1 m c (Proc.devRef .tc main_arg3) = m ((c : Thread nD τ).loc main_arg3) := by
  exact (StableHlo.after_of_writes_sub hostOps0 _ hostOps0_writes (by decide)).trans (W0_arg3 m c)
theorem W2_arg3 : W2 m c (Proc.devRef .tc main_arg3) = m ((c : Thread nD τ).loc main_arg3) := by
  exact (StableHlo.after_of_writes_sub hostOps0_1 _ hostOps0_1_writes (by decide)).trans (W1_arg3 m c)
theorem W3_arg3 : W3 m c (Proc.devRef .tc main_arg3) = m ((c : Thread nD τ).loc main_arg3) := by
  exact (StableHlo.after_of_writes_sub hostOps0_2 _ hostOps0_2_writes (by decide)).trans (W2_arg3 m c)
theorem W4_arg3 : W4 m c (Proc.devRef .tc main_arg3) = m ((c : Thread nD τ).loc main_arg3) := by
  exact (W4_of_ne m c main_arg3 (by decide)).trans (W3_arg3 m c)
theorem W5_arg3 : W5 m c (Proc.devRef .tc main_arg3) = m ((c : Thread nD τ).loc main_arg3) := by
  exact (StableHlo.after_of_writes_sub hostOps1 _ hostOps1_writes (by decide)).trans (W4_arg3 m c)
theorem W6_arg3 : W6 m c (Proc.devRef .tc main_arg3) = m ((c : Thread nD τ).loc main_arg3) := by
  exact (W6_of_ne m c main_arg3 (by decide)).trans (W5_arg3 m c)
theorem W7_arg3 : W7 m c (Proc.devRef .tc main_arg3) = m ((c : Thread nD τ).loc main_arg3) := by
  exact (StableHlo.after_of_writes_sub hostOps2 _ hostOps2_writes (by decide)).trans (W6_arg3 m c)
theorem W8_arg3 : W8 m c (Proc.devRef .tc main_arg3) = m ((c : Thread nD τ).loc main_arg3) := by
  exact (W8_of_ne m c main_arg3 (by decide)).trans (W7_arg3 m c)
theorem W0_arg11 : W0 m c (Proc.devRef .tc main_arg11) = m ((c : Thread nD τ).loc main_arg11) := rfl
theorem W1_arg11 : W1 m c (Proc.devRef .tc main_arg11) = m ((c : Thread nD τ).loc main_arg11) := by
  exact (StableHlo.after_of_writes_sub hostOps0 _ hostOps0_writes (by decide)).trans (W0_arg11 m c)
theorem W2_arg11 : W2 m c (Proc.devRef .tc main_arg11) = m ((c : Thread nD τ).loc main_arg11) := by
  exact (StableHlo.after_of_writes_sub hostOps0_1 _ hostOps0_1_writes (by decide)).trans (W1_arg11 m c)
theorem W3_arg11 : W3 m c (Proc.devRef .tc main_arg11) = m ((c : Thread nD τ).loc main_arg11) := by
  exact (StableHlo.after_of_writes_sub hostOps0_2 _ hostOps0_2_writes (by decide)).trans (W2_arg11 m c)
theorem W4_arg11 : W4 m c (Proc.devRef .tc main_arg11) = m ((c : Thread nD τ).loc main_arg11) := by
  exact (W4_of_ne m c main_arg11 (by decide)).trans (W3_arg11 m c)
theorem W5_arg11 : W5 m c (Proc.devRef .tc main_arg11) = m ((c : Thread nD τ).loc main_arg11) := by
  exact (StableHlo.after_of_writes_sub hostOps1 _ hostOps1_writes (by decide)).trans (W4_arg11 m c)
theorem W6_arg11 : W6 m c (Proc.devRef .tc main_arg11) = m ((c : Thread nD τ).loc main_arg11) := by
  exact (W6_of_ne m c main_arg11 (by decide)).trans (W5_arg11 m c)
theorem W7_arg11 : W7 m c (Proc.devRef .tc main_arg11) = m ((c : Thread nD τ).loc main_arg11) := by
  exact (StableHlo.after_of_writes_sub hostOps2 _ hostOps2_writes (by decide)).trans (W6_arg11 m c)
theorem W8_arg11 : W8 m c (Proc.devRef .tc main_arg11) = m ((c : Thread nD τ).loc main_arg11) := by
  exact (W8_of_ne m c main_arg11 (by decide)).trans (W7_arg11 m c)

/-! ## The aggregations -/

theorem W5_v49 : W5 m c (Proc.devRef .tc main_v49)
    = layer (m ((c : Thread nD τ).loc main_arg1)) (m ((c : Thread nD τ).loc main_arg2)) (W4 m c (Proc.devRef .tc main_v33)) (m ((c : Thread nD τ).loc main_arg5)) := by
  have h := after1_v49 (W4 m c)
  rw [W4_row m c, W4_col m c, W4_norm m c, W4_arg5 m c] at h
  exact h
theorem W7_v66 : W7 m c (Proc.devRef .tc main_v66)
    = layer (m ((c : Thread nD τ).loc main_arg1)) (m ((c : Thread nD τ).loc main_arg2)) (W6 m c (Proc.devRef .tc main_v50)) (m ((c : Thread nD τ).loc main_arg7)) := by
  have h := after2_v66 (W6 m c)
  rw [W6_row m c, W6_col m c, W6_norm m c, W6_arg7 m c] at h
  exact h
theorem W9_v83 : W9 m c (Proc.devRef .tc main_v83)
    = layer (m ((c : Thread nD τ).loc main_arg1)) (m ((c : Thread nD τ).loc main_arg2)) (W8 m c (Proc.devRef .tc main_v67)) (m ((c : Thread nD τ).loc main_arg9)) := by
  have h := after3_v83 (W8 m c)
  rw [W8_row m c, W8_col m c, W8_norm m c, W8_arg9 m c] at h
  exact h

/-! ## The two reshapes before the last region, and the one after it -/

theorem W9_v84 : W9 m c (Proc.devRef .tc main_v84) = shapeCast S100000x1 (m ((c : Thread nD τ).loc main_arg3)) shapeCasts_S100000_S100000x1 := by
  have h := after3_v84 (W8 m c)
  rw [W8_arg3 m c] at h
  exact h
theorem W9_v85 : W9 m c (Proc.devRef .tc main_v85) = shapeCast S1x1 (m ((c : Thread nD τ).loc main_arg11)) shapeCasts_S1_S1x1 := by
  have h := after3_v85 (W8 m c)
  rw [W8_arg11 m c] at h
  exact h
theorem W11_v87 : W11 m c (Proc.devRef .tc main_v87) = shapeCast S512 (W10 m c (Proc.devRef .tc main_v86)) shapeCasts_S512x1_S512 := by
  exact after4_v87 (W10 m c)

end Cert.HostFold

end
-- ==== Proof.TValue.lean ====
/-
  What the three feature transforms leave in their output arrays, over the extended reals: point `t` writes back rows
  `2000 t … 2000 t + 1999` of the product of the input's rows (clamped below at zero in the second and third transforms)
  with the whole weight; the 50 blocks tile the 100000 rows; so the array ends as the dense layer of the input array
  and the weight, index by index. A change of float format is the identity and the matrix unit's product into a zero
  accumulator is the plain sum of products.
-/
import proofs.«423290_j63376537420022_1_alg».proof.Proof.T0
import proofs.«423290_j63376537420022_1_alg».proof.Proof.T1
import proofs.«423290_j63376537420022_1_alg».proof.Proof.T2
import proofs.«423290_j63376537420022_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The matrix unit's product at an index -/

/-- The left operand is read at the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the contraction position's column; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contraction position's row … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000 × 128 block and a 128 × 128 block into a zero accumulator, at entry `(p, q)`: the sum over
    `k` of `a (p, k) · b (k, q)`. -/
theorem matmul_zero_at {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first transform's payload at entry `(p, q)`: the rows times the weight. -/
theorem pay0_at (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  rw [matmul_zero_at]
  rfl

/-- The second transform's payload at entry `(p, q)`: the rows clamped below at zero, times the weight. -/
theorem pay1_at (x0 : Vec Ideal S2000x128 .f32) (x1 : Vec Ideal S128x128 .f32) (p : Fin 2000) (q : Fin 128) :
    k1_pay1 (F := Ideal) x0 x1 (ix2 p q) = ∑ k : Fin 128, max (x0 (ix2 p k)) 0 * x1 (ix2 k q) := by
  unfold k1_pay1
  rw [matmul_zero_at]
  refine Finset.sum_congr rfl fun k _ => ?_
  rw [truncf_apply, truncf_apply, maximumf_apply, shapeCast_self, broadcast_apply]
  show max (x0 (ix2 p k)) (Ideal.ofBits .f32 0x00000000#32) * _ = _
  rw [Ideal.ofBits_zero_f32]

/-- The third transform's payload: the same. -/
theorem pay2_at (x0 : Vec Ideal S2000x128 .f32) (x1 : Vec Ideal S128x128 .f32) (p : Fin 2000) (q : Fin 128) :
    k2_pay1 (F := Ideal) x0 x1 (ix2 p q) = ∑ k : Fin 128, max (x0 (ix2 p k)) 0 * x1 (ix2 k q) := by
  unfold k2_pay1
  rw [matmul_zero_at]
  refine Finset.sum_congr rfl fun k _ => ?_
  rw [truncf_apply, truncf_apply, maximumf_apply, shapeCast_self, broadcast_apply]
  show max (x0 (ix2 p k)) (Ideal.ofBits .f32 0x00000000#32) * _ = _
  rw [Ideal.ofBits_zero_f32]

variable (V : (c : Dev nD) → (b : Ref sig .tc) → Buf (Elt Ideal) ((c : Thread nD τ).loc b))

/-! ## From the blocks to the arrays

  In each transform point `t` holds rows block `t` of its input and the whole weight, and writes back rows block `t` of
  its output: a block's coordinate in the array is its block index times the block's extent plus the coordinate inside
  the block. -/

/-- The zero offsets, however spelt. -/
theorem zeroOffsets : (![0, 0] : Fin 2 → Nat) = fun _ => 0 := funext fun a => by fin_cases a <;> rfl

/-! ### The first transform -/

/-- The windows' index maps over the grid: the rows window and the output window sit at block `(t, 0)`, the weight window
    at block `(0, 0)`. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of point `t`'s rows block is the input's entry `k` in the row where the output block's row `p` lies. -/
theorem rowsBlock0_at (c : Dev nD) (t : Fin cfg0.N) (p : Fin 2000) (q k : Fin 128) :
    iblk0 V c 0 t (ix2 p k) = V c main_arg0 (ix2 ((((cfg0.win 2).blk t).view.emb (ix2 p q)) 0) k) := by
  obtain ⟨e0, e1, e2, e3, e4, e5⟩ := blockIdx0 t
  show V c main_arg0 (((cfg0.win 0).blk t).view.emb (ix2 p k)) = _
  refine congrArg _ (funext fun a => Fin.ext ?_)
  match a with
  | ⟨0, _⟩ => show win0_0.index t (0 : Fin 2) * 2000 + 1 * p.val = win0_2.index t (0 : Fin 2) * 2000 + 1 * p.val; omega
  | ⟨1, _⟩ => show win0_0.index t (1 : Fin 2) * 128 + 1 * k.val = k.val; omega

/-- Entry `(k, q)` of the weight block at any point is the weight's entry `(k, q)`, `q` being the output block's column. -/
theorem weightBlock0_at (c : Dev nD) (t : Fin cfg0.N) (p : Fin 2000) (k q : Fin 128) :
    iblk0 V c 1 t (ix2 k q) = V c main_arg4 (ix2 k ((((cfg0.win 2).blk t).view.emb (ix2 p q)) 1)) := by
  obtain ⟨e0, e1, e2, e3, e4, e5⟩ := blockIdx0 t
  show V c main_arg4 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = win0_2.index t (1 : Fin 2) * 128 + 1 * q.val; omega

/-- What point `t` writes back is block `t` of the dense layer of the arrays as entered. -/
theorem flushed0_eq (c : Dev nD) (t : Fin cfg0.N) :
    (dat0 (F := Ideal) V c).flushed 2 t
      = ((cfg0.win 2).blk t).view.read (Elt Ideal) (Cert.Spec.mm (V c main_arg0) (V c main_arg4)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S128x128) zeroOffsets]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = Cert.Spec.mm (V c main_arg0) (V c main_arg4) (((cfg0.win 2).blk t).view.emb (ix2 p q))
  rw [pay0_at]
  exact Finset.sum_congr rfl fun k _ => by rw [rowsBlock0_at V c t p q k, weightBlock0_at V c t p k q]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- The 50 blocks tile the rows: row `r` is in the block of point `r / 2000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < 50 := by omega
  refine ⟨⟨(i 0).val / 2000, ht⟩, flush0_2 _, ?_⟩
  obtain ⟨-, -, -, -, e4, e5⟩ := blockIdx0 ⟨(i 0).val / 2000, ht⟩
  have e4' : win0_2.index ⟨(i 0).val / 2000, ht⟩ (0 : Fin 2) = (i 0).val / 2000 := e4
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128; omega

/-- The first transform's output array after the region: the dense layer of `main_arg0` and `main_arg4` as entered. -/
theorem final0 (c : Dev nD) :
    (dat0 (F := Ideal) V c).arrAt 2 cfg0.N = Cert.Spec.mm (V c main_arg0) (V c main_arg4) :=
  (dat0 (F := Ideal) V c).arrAt_eq_of_cover 2 (Cert.Spec.mm (V c main_arg0) (V c main_arg4)) (fun t _ => flushed0_eq V c t) cover0

/-! ### The second transform -/

/-- The windows' index maps over the grid: the rows window and the output window sit at block `(t, 0)`, the weight window
    at block `(0, 0)`. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, k)` of point `t`'s rows block is the input's entry `k` in the row where the output block's row `p` lies. -/
theorem rowsBlock1_at (c : Dev nD) (t : Fin cfg1.N) (p : Fin 2000) (q k : Fin 128) :
    iblk1 V c 0 t (ix2 p k) = V c main_v49 (ix2 ((((cfg1.win 2).blk t).view.emb (ix2 p q)) 0) k) := by
  obtain ⟨e0, e1, e2, e3, e4, e5⟩ := blockIdx1 t
  show V c main_v49 (((cfg1.win 0).blk t).view.emb (ix2 p k)) = _
  refine congrArg _ (funext fun a => Fin.ext ?_)
  match a with
  | ⟨0, _⟩ => show win1_0.index t (0 : Fin 2) * 2000 + 1 * p.val = win1_2.index t (0 : Fin 2) * 2000 + 1 * p.val; omega
  | ⟨1, _⟩ => show win1_0.index t (1 : Fin 2) * 128 + 1 * k.val = k.val; omega

/-- Entry `(k, q)` of the weight block at any point is the weight's entry `(k, q)`, `q` being the output block's column. -/
theorem weightBlock1_at (c : Dev nD) (t : Fin cfg1.N) (p : Fin 2000) (k q : Fin 128) :
    iblk1 V c 1 t (ix2 k q) = V c main_arg6 (ix2 k ((((cfg1.win 2).blk t).view.emb (ix2 p q)) 1)) := by
  obtain ⟨e0, e1, e2, e3, e4, e5⟩ := blockIdx1 t
  show V c main_arg6 (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = win1_2.index t (1 : Fin 2) * 128 + 1 * q.val; omega

/-- What point `t` writes back is block `t` of the dense layer, the rows clamped below at zero, of the arrays as entered. -/
theorem flushed1_eq (c : Dev nD) (t : Fin cfg1.N) :
    (dat1 (F := Ideal) V c).flushed 2 t
      = ((cfg1.win 2).blk t).view.read (Elt Ideal) (Cert.Spec.mmRelu (V c main_v49) (V c main_arg6)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S128x128) zeroOffsets]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q) = Cert.Spec.mmRelu (V c main_v49) (V c main_arg6) (((cfg1.win 2).blk t).view.emb (ix2 p q))
  rw [pay1_at]
  exact Finset.sum_congr rfl fun k _ => by rw [rowsBlock1_at V c t p q k, weightBlock1_at V c t p k q]

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- The 50 blocks tile the rows: row `r` is in the block of point `r / 2000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 2000 < 50 := by omega
  refine ⟨⟨(i 0).val / 2000, ht⟩, flush1_2 _, ?_⟩
  obtain ⟨-, -, -, -, e4, e5⟩ := blockIdx1 ⟨(i 0).val / 2000, ht⟩
  have e4' : win1_2.index ⟨(i 0).val / 2000, ht⟩ (0 : Fin 2) = (i 0).val / 2000 := e4
  rw [mem_blk1]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 128 ≤ (i 1).val ∧ (i 1).val < win1_2.index ⟨(i 0).val / 2000, ht⟩ (1 : Fin 2) * 128 + 128; omega

/-- The second transform's: the dense layer of the clamped `main_v49` and `main_arg6`. -/
theorem final1 (c : Dev nD) :
    (dat1 (F := Ideal) V c).arrAt 2 cfg1.N = Cert.Spec.mmRelu (V c main_v49) (V c main_arg6) :=
  (dat1 (F := Ideal) V c).arrAt_eq_of_cover 2 (Cert.Spec.mmRelu (V c main_v49) (V c main_arg6)) (fun t _ => flushed1_eq V c t) cover1

/-! ### The third transform -/

/-- The windows' index maps over the grid: the rows window and the output window sit at block `(t, 0)`, the weight window
    at block `(0, 0)`. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of point `t`'s rows block is the input's entry `k` in the row where the output block's row `p` lies. -/
theorem rowsBlock2_at (c : Dev nD) (t : Fin cfg2.N) (p : Fin 2000) (q k : Fin 128) :
    iblk2 V c 0 t (ix2 p k) = V c main_v66 (ix2 ((((cfg2.win 2).blk t).view.emb (ix2 p q)) 0) k) := by
  obtain ⟨e0, e1, e2, e3, e4, e5⟩ := blockIdx2 t
  show V c main_v66 (((cfg2.win 0).blk t).view.emb (ix2 p k)) = _
  refine congrArg _ (funext fun a => Fin.ext ?_)
  match a with
  | ⟨0, _⟩ => show win2_0.index t (0 : Fin 2) * 2000 + 1 * p.val = win2_2.index t (0 : Fin 2) * 2000 + 1 * p.val; omega
  | ⟨1, _⟩ => show win2_0.index t (1 : Fin 2) * 128 + 1 * k.val = k.val; omega

/-- Entry `(k, q)` of the weight block at any point is the weight's entry `(k, q)`, `q` being the output block's column. -/
theorem weightBlock2_at (c : Dev nD) (t : Fin cfg2.N) (p : Fin 2000) (k q : Fin 128) :
    iblk2 V c 1 t (ix2 k q) = V c main_arg8 (ix2 k ((((cfg2.win 2).blk t).view.emb (ix2 p q)) 1)) := by
  obtain ⟨e0, e1, e2, e3, e4, e5⟩ := blockIdx2 t
  show V c main_arg8 (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = win2_2.index t (1 : Fin 2) * 128 + 1 * q.val; omega

/-- What point `t` writes back is block `t` of the dense layer, the rows clamped below at zero, of the arrays as entered. -/
theorem flushed2_eq (c : Dev nD) (t : Fin cfg2.N) :
    (dat2 (F := Ideal) V c).flushed 2 t
      = ((cfg2.win 2).blk t).view.read (Elt Ideal) (Cert.Spec.mmRelu (V c main_v66) (V c main_arg8)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x128) zeroOffsets]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q) = Cert.Spec.mmRelu (V c main_v66) (V c main_arg8) (((cfg2.win 2).blk t).view.emb (ix2 p q))
  rw [pay2_at]
  exact Finset.sum_congr rfl fun k _ => by rw [rowsBlock2_at V c t p q k, weightBlock2_at V c t p k q]

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v67).slice (win2_2.rect t)).set ↔ _
  rw [View.set_slice_whole, Rect.mem_set_unit]
  exact Iff.rfl

/-- The 50 blocks tile the rows: row `r` is in the block of point `r / 2000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 2000 < 50 := by omega
  refine ⟨⟨(i 0).val / 2000, ht⟩, flush2_2 _, ?_⟩
  obtain ⟨-, -, -, -, e4, e5⟩ := blockIdx2 ⟨(i 0).val / 2000, ht⟩
  have e4' : win2_2.index ⟨(i 0).val / 2000, ht⟩ (0 : Fin 2) = (i 0).val / 2000 := e4
  rw [mem_blk2]
  intro a
  match a with
  | ⟨0, _⟩ => show win2_2.index ⟨(i 0).val / 2000, ht⟩ (0 : Fin 2) * 2000 ≤ (i 0).val ∧ (i 0).val < win2_2.index ⟨(i 0).val / 2000, ht⟩ (0 : Fin 2) * 2000 + 2000; omega
  | ⟨1, _⟩ => show win2_2.index ⟨(i 0).val / 2000, ht⟩ (1 : Fin 2) * 128 ≤ (i 1).val ∧ (i 1).val < win2_2.index ⟨(i 0).val / 2000, ht⟩ (1 : Fin 2) * 128 + 128; omega

/-- The third transform's: the dense layer of the clamped `main_v66` and `main_arg8`. -/
theorem final2 (c : Dev nD) :
    (dat2 (F := Ideal) V c).arrAt 2 cfg2.N = Cert.Spec.mmRelu (V c main_v66) (V c main_arg8) :=
  (dat2 (F := Ideal) V c).arrAt_eq_of_cover 2 (Cert.Spec.mmRelu (V c main_v66) (V c main_arg8)) (fun t _ => flushed2_eq V c t) cover2

end Cert.KernelIdeal.HandValue

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.PoolValue.lean ====
/-
  What the sum-pool and linear head leaves in its output array, over the extended reals. The accumulator after point
  `n` is the sum over the points up to `n` of the transposed one-hot mask of the point's labels times the point's clamped
  rows: entry `(b, f)` sums `max (x (r, f)) 0` over the rows `r` of those points whose label is `b` (a mask entry is one
  or zero, and zero times anything is zero on the extended reals). After the last point that is the sum over all 100000
  rows; the last point stores the accumulator times the weight plus the bias, the only write-back of the output block,
  which is the whole 512 × 1 array.
-/
import proofs.«423290_j63376537420022_1_alg».proof.Proof.PoolDefs
import proofs.«423290_j63376537420022_1_alg».proof.Proof.Spec
import proofs.«423290_j63376537420022_1_alg».proof.Proof.LibColumns
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

set_option maxRecDepth 16384

noncomputable section

open scoped BigOperators

namespace Cert.KernelIdeal.HandPool

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## A label against a graph number -/

/-- A 32-bit label is the word of a graph number below 512 exactly when, read signed, it is that number. -/
theorem label_eq_iff (x : BitVec 32) (b : Fin 512) : x = BitVec.ofNat 32 b.val ↔ x.toInt = (b.val : ℤ) := by
  have hb : b.val < 512 := b.isLt
  have hx : x.toNat < 2 ^ 32 := x.isLt
  rw [BitVec.toInt_eq_toNat_cond]
  constructor
  · rintro rfl
    rw [BitVec.toNat_ofNat]
    split <;> omega
  · intro h
    apply BitVec.eq_of_toNat_eq
    rw [BitVec.toNat_ofNat]
    split at h <;> omega

/-- The mask entry of a label against a graph number, converted: one when the label is the number, zero otherwise. -/
theorem mask_at (x : BitVec 32) (b : Fin 512) :
    (FloatOps.sitofp (F := Ideal) .f32 ((IntOp.cmpi .eq x (BitVec.ofNat 32 b.val)).setWidth 32) : EReal)
      = if x.toInt = (b.val : ℤ) then 1 else 0 := by
  show ((((IntOp.cmpi .eq x (BitVec.ofNat 32 b.val)).setWidth 32).toInt : ℝ) : EReal) = _
  rw [toInt_setWidth_bit]
  by_cases h : x = BitVec.ofNat 32 b.val
  · rw [if_pos ((label_eq_iff x b).mp h)]
    have e : IntOp.cmpi .eq x (BitVec.ofNat 32 b.val) = 1#1 := by
      unfold IntOp.cmpi
      rw [h]
      simp
    rw [e]
    norm_num
  · rw [if_neg (fun h' => h ((label_eq_iff x b).mpr h'))]
    have e : IntOp.cmpi .eq x (BitVec.ofNat 32 b.val) = 0#1 := by
      unfold IntOp.cmpi
      rw [show (x == BitVec.ofNat 32 b.val) = false from beq_eq_false_iff_ne.mpr h]
      rfl
    rw [e]
    norm_num

/-! ## The pool's product at an index: both operands contracted over their rows -/

/-- The mask is read at the contraction position's row … -/
theorem pool_lhs_row (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
/-- … and the column of the output's row; -/
theorem pool_lhs_col (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
/-- the rows at the contraction position's row … -/
theorem pool_rhs_row (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
/-- … and the output's column. -/
theorem pool_rhs_col (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The product of a 2000 × 512 block, transposed, and a 2000 × 128 block into a zero accumulator, at entry `(b, f)`:
    the sum over the rows `r` of `a (r, b) · x (r, f)`. -/
theorem matmul_pool_at {φ₁ φ₂ : FTy} (a : FVec Ideal S2000x512 φ₁) (x : FVec Ideal S2000x128 φ₂) (b : Fin 512) (f : Fin 128) :
    matmul (F := Ideal) dot_S2000x512_S2000x128_S512x128_0_0_1_1_n_n none a x (constant (F := Ideal) S512x128 .f32 0x00000000#32) (ix2 b f)
      = ∑ r : Fin 2000, a (ix2 r b) * x (ix2 r f) := by
  simp only [matmul]
  rw [Ideal.matmul_constant_zero_apply, ← Equiv.sum_comp (contrEquiv1 dot_S2000x512_S2000x128_S512x128_0_0_1_1_n_n 2000 rfl rfl).symm]
  refine Finset.sum_congr rfl fun r _ => ?_
  have hr := contrEquiv1_symm_val dot_S2000x512_S2000x128_S512x128_0_0_1_1_n_n 2000 rfl rfl r
  have el : dot_S2000x512_S2000x128_S512x128_0_0_1_1_n_n.lhsIdx (ix2 b f) ((contrEquiv1 dot_S2000x512_S2000x128_S512x128_0_0_1_1_n_n 2000 rfl rfl).symm r) = ix2 r b := funext fun a => Fin.ext (by
    match a with
    | ⟨0, _⟩ => exact (pool_lhs_row _ _).trans hr
    | ⟨1, _⟩ => exact pool_lhs_col _ _)
  have er : dot_S2000x512_S2000x128_S512x128_0_0_1_1_n_n.rhsIdx (ix2 b f) ((contrEquiv1 dot_S2000x512_S2000x128_S512x128_0_0_1_1_n_n 2000 rfl rfl).symm r) = ix2 r f := funext fun a => Fin.ext (by
    match a with
    | ⟨0, _⟩ => exact (pool_rhs_row _ _).trans hr
    | ⟨1, _⟩ => exact pool_rhs_col _ _)
  rw [el, er]

/-! ## The head's product at an index -/

/-- The pooled rows are read at the output's row … -/
theorem head_lhs_row (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
/-- … and the contraction position's column; -/
theorem head_lhs_col (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
/-- the weight at the contraction position's row … -/
theorem head_rhs_row (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
/-- … and the output's column. -/
theorem head_rhs_col (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- The product of a 512 × 128 block and a 128 × 1 column into a zero accumulator, at entry `(b, u)`: the sum over `k`
    of `p (b, k) · w (k, u)`. -/
theorem matmul_head_at {φ₁ φ₂ : FTy} (p : FVec Ideal S512x128 φ₁) (w : FVec Ideal S128x1 φ₂) (b : Fin 512) (u : Fin 1) :
    matmul (F := Ideal) dot_S512x128_S128x1_S512x1_1_0_0_1_n_n none p w (constant (F := Ideal) S512x1 .f32 0x00000000#32) (ix2 b u)
      = ∑ k : Fin 128, p (ix2 b k) * w (ix2 k u) := by
  simp only [matmul]
  rw [Ideal.matmul_constant_zero_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 b u) ((contrEquiv1 dot_S512x128_S128x1_S512x1_1_0_0_1_n_n 128 rfl rfl).symm k) = ix2 b k := funext fun a => Fin.ext (by
    match a with
    | ⟨0, _⟩ => exact head_lhs_row _ _
    | ⟨1, _⟩ => exact (head_lhs_col _ _).trans hk)
  have er : dot_S512x128_S128x1_S512x1_1_0_0_1_n_n.rhsIdx (ix2 b u) ((contrEquiv1 dot_S512x128_S128x1_S512x1_1_0_0_1_n_n 128 rfl rfl).symm k) = ix2 k u := funext fun a => Fin.ext (by
    match a with
    | ⟨0, _⟩ => exact (head_rhs_row _ _).trans hk
    | ⟨1, _⟩ => exact head_rhs_col _ _)
  rw [el, er]

/-! ## The payloads at an index -/

/-- An integer comparison of two vectors, read at an index, compares the entries there. -/
theorem cmpi_at {s : Shape} {w : ℕ} (p : CmpIPredicate) (x y : IVec s w) (i : s.Idx) : cmpi p x y i = IntOp.cmpi p (x i) (y i) := rfl

/-- The cleared accumulator is zero everywhere. -/
theorem pay1_at (j : S512x128.Idx) : k3_pay1 (F := Ideal) j = 0 := by
  unfold k3_pay1
  rw [shapeCast_self, broadcast_apply]
  exact Ideal.ofBits_zero_f32

/-- The accumulation's payload at entry `(b, f)`: the accumulator there plus the sum, over the point's rows whose label
    is `b`, of the row's entry `f` clamped below at zero. -/
theorem pay2_at (v3 : Vec Ideal S2000x128 .f32) (v7 : Vec Ideal S2000x1 .i32) (v17 : Vec Ideal S512x128 .f32) (b : Fin 512) (f : Fin 128) :
    k3_pay2 (F := Ideal) v3 v7 v17 (ix2 b f)
      = v17 (ix2 b f) + ∑ r : Fin 2000, (if (v7 (ix2 r (0 : Fin 1))).toInt = (b.val : ℤ) then max (v3 (ix2 r f)) 0 else 0) := by
  unfold k3_pay2
  simp only [shapeCast_self]
  rw [addf_apply, matmul_pool_at]
  refine congrArg (v17 (ix2 b f) + ·) (Finset.sum_congr rfl fun r _ => ?_)
  rw [truncf_apply, truncf_apply, sitofp_apply, extui_apply, cmpi_at, maximumf_apply, broadcast_apply,
    Cert.Columns.broadcastTo_a1_ab_apply, iota_single_apply]
  show FloatOps.sitofp (F := Ideal) .f32 ((IntOp.cmpi .eq (v7 (ix2 r (0 : Fin 1))) (BitVec.ofNat 32 b.val)).setWidth 32) * max (v3 (ix2 r f)) (Ideal.ofBits .f32 0x00000000#32) = _
  rw [mask_at, Ideal.ofBits_zero_f32]
  split
  · exact one_mul _
  · exact zero_mul _

/-- The head's payload at entry `(b, u)`: the sum over `k` of the accumulator's `(b, k)` times the weight's `(k, 0)`, plus the bias. -/
theorem pay3_at (v25 : Vec Ideal S512x128 .f32) (v27 : Vec Ideal S128x1 .f32) (v30 : Vec Ideal S1x1 .f32) (b : Fin 512) (u : Fin 1) :
    k3_pay3 (F := Ideal) v25 v27 v30 (ix2 b u)
      = (∑ k : Fin 128, v25 (ix2 b k) * v27 (ix2 k (0 : Fin 1))) + v30 (ix2 (0 : Fin 1) (0 : Fin 1)) := by
  obtain rfl : u = 0 := Fin.fin_one_eq_zero u
  unfold k3_pay3
  simp only [shapeCast_self]
  rw [addf_apply, matmul_head_at]
  congr 1
  refine broadcastTo_apply v30 _ (ix2 b (0 : Fin 1)) (ix2 (0 : Fin 1) (0 : Fin 1)) fun a => ?_
  match a with
  | ⟨0, _⟩ => show (0 : ℕ) = if (1 : ℕ) = 1 then 0 else b.val; rw [if_pos rfl]
  | ⟨1, _⟩ => show (0 : ℕ) = if (1 : ℕ) = 1 then 0 else 0; rw [if_pos rfl]

variable (V : (c : Dev nD) → (b : Ref sig .tc) → Buf (Elt Ideal) ((c : Thread nD τ).loc b))

/-! ## The blocks, read off their arrays -/

/-- The printed index maps, decided over the grid: the rows' and the labels' blocks move down one block per point; the
    weight's, the bias's and the output's stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `r` of the rows' block at point `t` is row `2000 t + r` of the rows. -/
theorem blk0_at (c : Dev nD) (t : Fin cfg3.N) (r : Fin 2000) (f : Fin 128) (h : 2000 * t.val + r.val < 100000) :
    (iblk3 V c 0 t : Vec Ideal S2000x128 .f32) (ix2 r f) = V c main_v83 (ix2 ⟨2000 * t.val + r.val, h⟩ f) := by
  obtain ⟨e0, e1, -⟩ := idx_facts3 t
  unfold iblk3
  rw [View.read_apply]
  show V c main_v83 _ = V c main_v83 _
  congr 1
  funext a
  apply Fin.ext
  match a with
  | ⟨0, _⟩ => show win3_0.index t (0 : Fin 2) * 2000 + 1 * r.val = 2000 * t.val + r.val; rw [e0]; omega
  | ⟨1, _⟩ => show win3_0.index t (1 : Fin 2) * 128 + 1 * f.val = f.val; rw [e1]; omega

/-- Row `r` of the labels' block at point `t` is label `2000 t + r`. -/
theorem blk1_at (c : Dev nD) (t : Fin cfg3.N) (r : Fin 2000) (h : 2000 * t.val + r.val < 100000) :
    (iblk3 V c 1 t : Vec Ideal S2000x1 .i32) (ix2 r (0 : Fin 1)) = V c main_v84 (ix2 ⟨2000 * t.val + r.val, h⟩ (0 : Fin 1)) := by
  obtain ⟨-, -, e0, e1, -⟩ := idx_facts3 t
  unfold iblk3
  rw [View.read_apply]
  show V c main_v84 _ = V c main_v84 _
  congr 1
  funext a
  apply Fin.ext
  match a with
  | ⟨0, _⟩ => show win3_1.index t (0 : Fin 2) * 2000 + 1 * r.val = 2000 * t.val + r.val; rw [e0]; omega
  | ⟨1, _⟩ => show win3_1.index t (1 : Fin 2) * 1 + 1 * 0 = 0; rw [e1]

/-- The weight's block at any point is the whole weight. -/
theorem blk2_at (c : Dev nD) (t : Fin cfg3.N) (k : Fin 128) :
    (iblk3 V c 2 t : Vec Ideal S128x1 .f32) (ix2 k (0 : Fin 1)) = V c main_arg10 (ix2 k (0 : Fin 1)) := by
  obtain ⟨-, -, -, -, e0, e1, -⟩ := idx_facts3 t
  unfold iblk3
  rw [View.read_apply]
  show V c main_arg10 _ = V c main_arg10 _
  congr 1
  funext a
  apply Fin.ext
  match a with
  | ⟨0, _⟩ => show win3_2.index t (0 : Fin 2) * 128 + 1 * k.val = k.val; rw [e0]; omega
  | ⟨1, _⟩ => show win3_2.index t (1 : Fin 2) * 1 + 1 * 0 = 0; rw [e1]

/-- The bias's block at any point is the bias. -/
theorem blk3_at (c : Dev nD) (t : Fin cfg3.N) :
    (iblk3 V c 3 t : Vec Ideal S1x1 .f32) (ix2 (0 : Fin 1) (0 : Fin 1)) = V c main_v85 (ix2 (0 : Fin 1) (0 : Fin 1)) := by
  obtain ⟨-, -, -, -, -, -, e0, e1, -⟩ := idx_facts3 t
  unfold iblk3
  rw [View.read_apply]
  show V c main_v85 _ = V c main_v85 _
  congr 1
  funext a
  apply Fin.ext
  match a with
  | ⟨0, _⟩ => show win3_3.index t (0 : Fin 2) * 1 + 1 * 0 = 0; rw [e0]
  | ⟨1, _⟩ => show win3_3.index t (1 : Fin 2) * 1 + 1 * 0 = 0; rw [e1]

/-! ## The accumulator after each point -/

/-- What row `n` of the rows adds to entry `(b, f)` of the pool: its entry `f` clamped below at zero when its label is `b`. -/
def term (c : Dev nD) (b : Fin 512) (f : Fin 128) (n : Fin 100000) : EReal :=
  if (V c main_v84 (ix2 n (0 : Fin 1))).toInt = (b.val : ℤ) then max (V c main_v83 (ix2 n f)) 0 else 0

/-- What the 2000 rows of point `t` add to it. -/
def pointSum (c : Dev nD) (b : Fin 512) (f : Fin 128) (t : ℕ) : EReal :=
  if h : t < 50 then ∑ r : Fin 2000, term V c b f ⟨2000 * t + r.val, by have := r.isLt; omega⟩ else 0

/-- A point's masked sum over a block of rows and a block of labels that are rows `2000 t …` of the arrays is that. -/
theorem point_eq (c : Dev nD) (b : Fin 512) (f : Fin 128) (t : ℕ) (ht : t < 50)
    (v3 : Vec Ideal S2000x128 .f32) (v7 : Vec Ideal S2000x1 .i32)
    (h3 : ∀ (r : Fin 2000) (h : 2000 * t + r.val < 100000), v3 (ix2 r f) = V c main_v83 (ix2 ⟨2000 * t + r.val, h⟩ f))
    (h7 : ∀ (r : Fin 2000) (h : 2000 * t + r.val < 100000),
      v7 (ix2 r (0 : Fin 1)) = V c main_v84 (ix2 ⟨2000 * t + r.val, h⟩ (0 : Fin 1))) :
    (∑ r : Fin 2000, (if (v7 (ix2 r (0 : Fin 1))).toInt = (b.val : ℤ) then max (v3 (ix2 r f)) 0 else 0))
      = pointSum V c b f t := by
  unfold pointSum
  rw [dif_pos ht]
  refine Finset.sum_congr rfl fun r _ => ?_
  have hr : 2000 * t + r.val < 100000 := by have := r.isLt; omega
  rw [h3 r hr, h7 r hr]
  rfl

/-- THE ACCUMULATOR after point `n`, entry `(b, f)`: the sum over the points up to `n` of what their rows add. -/
theorem acc_eq (c : Dev nD) (b : Fin 512) (f : Fin 128) : ∀ (n : ℕ) (hn : n < cfg3.N),
    accAt3 V c n hn (ix2 b f) = ∑ t ∈ Finset.range (n + 1), pointSum V c b f t
  | 0, hn => by
    rw [accAt3_zero, pay2_at, pay1_at, zero_add,
      point_eq V c b f 0 (by omega) (iblk3 V c 0 ⟨0, hn⟩) (iblk3 V c 1 ⟨0, hn⟩)
        (fun r h => blk0_at V c ⟨0, hn⟩ r f h) (fun r h => blk1_at V c ⟨0, hn⟩ r h),
      Finset.sum_range_one]
  | n + 1, hn => by
    rw [accAt3_succ, pay2_at, acc_eq c b f n (Nat.lt_of_succ_lt hn),
      point_eq V c b f (n + 1) (lt_of_lt_of_eq hn N_3) (iblk3 V c 0 ⟨n + 1, hn⟩) (iblk3 V c 1 ⟨n + 1, hn⟩)
        (fun r h => blk0_at V c ⟨n + 1, hn⟩ r f h) (fun r h => blk1_at V c ⟨n + 1, hn⟩ r h),
      Finset.sum_range_succ _ (n + 1)]

/-! ## The fifty blocks of 2000 rows are the 100000 rows -/

/-- Row `r` of block `t` is row `2000 t + r`: a bijection of the pairs with the rows. -/
def rowEquiv : Fin 50 × Fin 2000 ≃ Fin 100000 where
  toFun p := ⟨2000 * p.1.val + p.2.val, by have := p.1.isLt; have := p.2.isLt; omega⟩
  invFun n := (⟨n.val / 2000, by have := n.isLt; omega⟩, ⟨n.val % 2000, by omega⟩)
  left_inv p := by
    have h1 := p.1.isLt
    have h2 := p.2.isLt
    apply Prod.ext
    · apply Fin.ext; show (2000 * p.1.val + p.2.val) / 2000 = p.1.val; omega
    · apply Fin.ext; show (2000 * p.1.val + p.2.val) % 2000 = p.2.val; omega
  right_inv n := by
    apply Fin.ext
    show 2000 * (n.val / 2000) + n.val % 2000 = n.val
    omega

/-- So the points' sums add up to the sum over all the rows. -/
theorem total (c : Dev nD) (b : Fin 512) (f : Fin 128) :
    ∑ t ∈ Finset.range 50, pointSum V c b f t = ∑ n : Fin 100000, term V c b f n := by
  rw [Finset.sum_range, ← Equiv.sum_comp rowEquiv (term V c b f), Fintype.sum_prod_type]
  refine Finset.sum_congr rfl fun t _ => ?_
  unfold pointSum
  rw [dif_pos t.isLt]
  rfl

/-- After the last point the accumulator is the pool. -/
theorem acc_last (c : Dev nD) (h : 49 < cfg3.N) (b : Fin 512) (f : Fin 128) :
    accAt3 V c 49 h (ix2 b f)
      = Cert.Spec.pooled (V c main_v83) (fun n => V c main_v84 (ix2 (n 0) (0 : Fin 1))) (ix2 b f) := by
  rw [acc_eq V c b f 49 h, total]
  rfl

/-! ## The output array -/

/-- What the output array ends holding: the head of the pool. -/
abbrev G3 (c : Dev nD) : S512x1.Idx → EReal := fun i =>
  Cert.Spec.head (Cert.Spec.pooled (V c main_v83) (fun n => V c main_v84 (ix2 (n 0) (0 : Fin 1))))
    (V c main_arg10) (V c main_v85 (ix2 (0 : Fin 1) (0 : Fin 1))) (ix1 (i 0))

/-- The one write-back, at the last point, writes it: the accumulator is then the pool, and the output's block is the
    whole array. -/
theorem flushed3_eq (c : Dev nD) (t : Fin cfg3.N) (hf : (cfg3.win 4).flush t = true) :
    (dat3 (F := Ideal) V c).flushed 4 t = ((cfg3.win 4).blk t).view.read (Elt Ideal) (G3 V c) := by
  have hN : cfg3.N = 50 := N_3
  have h49 : t.val = 49 := by have := (flush3_4 t).mp hf; have := t.isLt; omega
  obtain ⟨-, -, -, -, -, -, -, -, e0, e1⟩ := idx_facts3 t
  show (cfg3.win 4).cut (grid3.coords t) ((dat3 V c).after 4 t) = _
  rw [after3_4]
  funext j
  rw [View.read_apply]
  have hj0 : (j 0).val < 512 := (j 0).isLt
  have hj1 : (j 1).val < 1 := (j 1).isLt
  show out3_4 V c t ((cfg3.win 4).xinj (grid3.coords t) j) = G3 V c (((cfg3.win 4).blk t).view.emb j)
  have hx : (cfg3.win 4).xinj (grid3.coords t) j = ix2 (⟨(j 0).val, hj0⟩ : Fin 512) (0 : Fin 1) := funext fun a => Fin.ext (by
    match a with
    | ⟨0, _⟩ => rfl
    | ⟨1, _⟩ => show (j 1).val = 0; omega)
  have he : (((cfg3.win 4).blk t).view.emb j) 0 = (⟨(j 0).val, hj0⟩ : Fin 512) := Fin.ext (by
    show win3_4.index t (0 : Fin 2) * 512 + 1 * (j 0).val = (j 0).val
    rw [e0]; omega)
  rw [hx]
  unfold out3_4
  rw [pay3_at]
  show _ = Cert.Spec.head _ _ _ (ix1 ((((cfg3.win 4).blk t).view.emb j) 0))
  rw [he]
  unfold Cert.Spec.head
  obtain ⟨tv, tlt⟩ := t
  obtain rfl : tv = 49 := h49
  refine congrArg₂ (· + ·) (Finset.sum_congr rfl fun k _ => ?_) (blk3_at V c _)
  rw [acc_last, blk2_at]

/-- An index of the output array is in a point's block iff each coordinate is in the block's range on its axis. -/
theorem mem_blk3 (t : Fin cfg3.N) (i : S512x1.Idx) :
    i ∈ ((cfg3.win 4).blk t).view.set
      ↔ ∀ a : Fin 2, win3_4.index t a * S512x1.size a ≤ (i a).val ∧ (i a).val < win3_4.index t a * S512x1.size a + S512x1.size a := by
  show i ∈ ((View.whole main_v86).slice (win3_4.rect t)).set ↔ _
  rw [View.set_slice_whole, Rect.mem_set_unit]
  exact Iff.rfl

/-- The head's output array after the region: the linear head of the sum pool of `main_v83` by the labels `main_v84`,
    with the weight `main_arg10` and the bias `main_v85`, as entered. -/
theorem final3 (c : Dev nD) :
    (dat3 (F := Ideal) V c).arrAt 4 cfg3.N
      = fun i => Cert.Spec.head (Cert.Spec.pooled (V c main_v83) (fun n => V c main_v84 (ix2 (n 0) (0 : Fin 1))))
          (V c main_arg10) (V c main_v85 (ix2 (0 : Fin 1) (0 : Fin 1))) (ix1 (i 0)) :=
  (dat3 V c).arrAt_eq_of_cover 4 (G3 V c) (flushed3_eq V c) fun i => by
    have h49 : 49 < cfg3.N := lt_of_lt_of_eq (by omega) N_3.symm
    refine ⟨⟨49, h49⟩, (flush3_4 _).mpr rfl, ?_⟩
    obtain ⟨-, -, -, -, -, -, -, -, e0, e1⟩ := idx_facts3 ⟨49, h49⟩
    rw [mem_blk3]
    intro a
    have hi0 : (i 0).val < 512 := (i 0).isLt
    have hi1 : (i 1).val < 1 := (i 1).isLt
    match a with
    | ⟨0, _⟩ =>
      show win3_4.index ⟨49, h49⟩ (0 : Fin 2) * 512 ≤ (i 0).val ∧ (i 0).val < win3_4.index ⟨49, h49⟩ (0 : Fin 2) * 512 + 512
      rw [e0]; omega
    | ⟨1, _⟩ =>
      show win3_4.index ⟨49, h49⟩ (1 : Fin 2) * 1 ≤ (i 1).val ∧ (i 1).val < win3_4.index ⟨49, h49⟩ (1 : Fin 2) * 1 + 1
      rw [e1]; omega

end Cert.KernelIdeal.HandPool

end
-- ==== Proof.KernelNet.lean ====
/-
  The kernel program's returned array is the network of its arguments' launch contents. The fold of its segments gives
  each transform's input as the layer before it (the first one's the input features), each transform's output array as
  the dense layer of that input (clamped in the second and third) and the weight, and the head's output as the linear
  head of the sum pool of the third layer by the labels; the labels reach the head as a column and the bias as a 1 × 1
  array, and the head's 512 × 1 result is returned as a 512-vector: casts that move no entry.
-/
import proofs.«423290_j63376537420022_1_alg».proof.Proof.HostFold
import proofs.«423290_j63376537420022_1_alg».proof.Proof.TValue
import proofs.«423290_j63376537420022_1_alg».proof.Proof.PoolValue
import proofs.«423290_j63376537420022_1_alg».proof.Proof.LibColumns

set_option maxRecDepth 16384

noncomputable section

namespace Cert.KernelNet

open Cert.KernelIdeal Cert.KernelIdeal.Gen Cert.KernelIdeal.Hand Cert.KernelIdeal.HandValue Cert.KernelIdeal.HandPool Cert.HostChain Cert.HostFold
open Idealize.ShloMosaic Idealize.ShloMosaic.TcCoe Idealize.ShloMosaic.ValueIdx Idealize.SL.Sem

variable (m : (ℓ : Loc nD τ sig) → Buf (Elt Ideal) ℓ) (c : Dev nD)

/-- The first transform's output: the dense layer of the input features. -/
theorem W4_v33 : W4 m c (Proc.devRef .tc main_v33)
    = Cert.Spec.mm (m ((c : Thread nD τ).loc main_arg0)) (m ((c : Thread nD τ).loc main_arg4)) := by
  have h := (W4_arr m c (2 : Fin cfg0.W)).trans (final0 (Hand.V3 m) c)
  rw [show Hand.V3 m c main_arg0 = m ((c : Thread nD τ).loc main_arg0) from W3_arg0 m c,
    show Hand.V3 m c main_arg4 = m ((c : Thread nD τ).loc main_arg4) from W3_arg4 m c] at h
  exact h

/-- The second transform's output: the dense layer of the clamped first layer. -/
theorem W6_v50 : W6 m c (Proc.devRef .tc main_v50)
    = Cert.Spec.mmRelu (layer (m ((c : Thread nD τ).loc main_arg1)) (m ((c : Thread nD τ).loc main_arg2))
        (Cert.Spec.mm (m ((c : Thread nD τ).loc main_arg0)) (m ((c : Thread nD τ).loc main_arg4))) (m ((c : Thread nD τ).loc main_arg5)))
      (m ((c : Thread nD τ).loc main_arg6)) := by
  have h := (W6_arr m c (2 : Fin cfg1.W)).trans (final1 (Hand.V5 m) c)
  rw [show Hand.V5 m c main_v49 = _ from W5_v49 m c, show Hand.V5 m c main_arg6 = m ((c : Thread nD τ).loc main_arg6) from W5_arg6 m c,
    W4_v33] at h
  exact h

/-- The third transform's output: the dense layer of the clamped second layer. -/
theorem W8_v67 : W8 m c (Proc.devRef .tc main_v67)
    = Cert.Spec.mmRelu (layer (m ((c : Thread nD τ).loc main_arg1)) (m ((c : Thread nD τ).loc main_arg2))
        (Cert.Spec.mmRelu (layer (m ((c : Thread nD τ).loc main_arg1)) (m ((c : Thread nD τ).loc main_arg2))
          (Cert.Spec.mm (m ((c : Thread nD τ).loc main_arg0)) (m ((c : Thread nD τ).loc main_arg4))) (m ((c : Thread nD τ).loc main_arg5)))
          (m ((c : Thread nD τ).loc main_arg6))) (m ((c : Thread nD τ).loc main_arg7)))
      (m ((c : Thread nD τ).loc main_arg8)) := by
  have h := (W8_arr m c (2 : Fin cfg2.W)).trans (final2 (Hand.V7 m) c)
  rw [show Hand.V7 m c main_v66 = _ from W7_v66 m c, show Hand.V7 m c main_arg8 = m ((c : Thread nD τ).loc main_arg8) from W7_arg8 m c,
    W6_v50] at h
  exact h

/-- The labels as a column, read back along the column, are the labels. -/
theorem labels_column (bv : IVec S100000 32) :
    (fun n : S100000.Idx => shapeCast S100000x1 bv shapeCasts_S100000_S100000x1 (ix2 (n 0) (0 : Fin 1))) = bv := by
  funext n
  exact (Cert.Columns.shapeCast_a_a1_apply (a := 100000) bv shapeCasts_S100000_S100000x1 (n 0) (0 : Fin 1)).trans
    (congrArg bv (eq_ix1 n).symm)

/-- The bias as a 1 × 1 array holds the bias. -/
theorem bias_cell (lb : FVec Ideal S1 .f32) :
    shapeCast S1x1 lb shapeCasts_S1_S1x1 (ix2 (0 : Fin 1) (0 : Fin 1)) = lb (ix1 (0 : Fin 1)) :=
  Cert.Columns.shapeCast_a_a1_apply lb shapeCasts_S1_S1x1 (0 : Fin 1) (0 : Fin 1)

/-- A 512 × 1 column returned as a 512-vector reads the column. -/
theorem column_vector {α : Type} (v : S512x1.Idx → α) (b : Fin 512) :
    shapeCast S512 v shapeCasts_S512x1_S512 (ix1 b) = v (ix2 b (0 : Fin 1)) :=
  shapeCast_apply v _ _ _ (by
    rw [Shape.rowMajor_val_two, Shape.rowMajor_val_one]
    show b.val * 1 + 0 = b.val
    rw [Nat.mul_one, Nat.add_zero])

/-- THE KERNEL'S RESULT is the network of its arguments' launch contents. -/
theorem kernel_eq_net : W11 m c (Proc.devRef .tc main_v87)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  have h10 := (W10_arr m c (4 : Fin cfg3.W)).trans (final3 (Hand.V9 m) c)
  rw [show Hand.V9 m c main_v83 = _ from W9_v83 m c, show Hand.V9 m c main_v84 = _ from W9_v84 m c,
    show Hand.V9 m c main_arg10 = m ((c : Thread nD τ).loc main_arg10) from W9_arg10 m c,
    show Hand.V9 m c main_v85 = _ from W9_v85 m c, W8_v67, labels_column, bias_cell] at h10
  rw [W11_v87]
  funext j
  obtain ⟨b, rfl⟩ : ∃ b : Fin 512, j = ix1 b := ⟨j 0, eq_ix1 j⟩
  rw [column_vector, show W10 m c (Proc.devRef .tc main_v86) = _ from h10]
  rfl

end Cert.KernelNet

end
-- ==== Proof.RefValue.lean ====
/-
  The reference's three kinds of operation that the kernel does differently, read index by index over the extended
  reals: the host's matrix product is the plain sum of products (with the rows clamped below at zero when a relu
  feeds it), and the closing chain — the scatter-add of the clamped rows by graph label into a zero array, its product
  with the head's weight, the bias, the reshape — is the linear head of the sum pool: an update lands at its label read
  as a signed integer when that is within `0 … 511` and is dropped otherwise.
-/
import proofs.«423290_j63376537420022_1_alg».proof.ReferenceIdeal
import proofs.«423290_j63376537420022_1_alg».proof.Proof.Gen.ReferenceIdeal
import proofs.«423290_j63376537420022_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefOps

open Cert.ReferenceIdeal Cert.ReferenceIdeal.Gen
open Idealize.ShloMosaic Idealize.ShloMosaic.ValueIdx

/-! ## The rows' product with a 128 × 128 weight -/

/-- The left operand's row coordinate is the output's row. -/
theorem lhs_rows_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column coordinate is the contraction position. -/
theorem lhs_rows_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row coordinate is the contraction position. -/
theorem rhs_rows_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- The right operand's column coordinate is the output's column. -/
theorem rhs_rows_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry `(p, q)` of the product is the sum over `k` of `l (p, k) · r (k, q)`. -/
theorem dot_rows_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_rows_0 _ _).trans hk
    | ⟨1, _⟩ => exact rhs_rows_1 _ _)
  rw [el, er]

/-- The host's product of the rows with a 128 × 128 weight is the dense layer. -/
theorem dot_eq_mm (l : FVec Ideal S100000x128 .f32) (r : FVec Ideal S128x128 .f32) :
    Host.dotGeneral (F := Ideal) dot_S100000x128_S128x128_S100000x128_1_0_0_1_n_n none l r = Cert.Spec.mm l r := by
  funext j
  obtain ⟨p, q, rfl⟩ : ∃ (p : Fin 100000) (q : Fin 128), j = ix2 p q := ⟨j 0, j 1, eq_ix2 j⟩
  rw [dot_rows_apply]
  rfl

/-- The zero word, broadcast from a scalar, reads `0` everywhere. -/
theorem zero_bcast_apply {t : Shape} (h : S_.BroadcastsInDim t (![] : Fin S_.rank → Fin t.rank)) (i : t.Idx) :
    broadcastInDim t ![] h (constant (F := Ideal) S_ .f32 0x00000000#32) i = (0 : EReal) := by
  rw [broadcastInDim_apply _ h _ i ix0 (fun a => a.elim0), constant_apply, Ideal.ofBits_zero_f32]

/-- The same fed by a relu: the dense layer of the clamped rows. -/
theorem relu_dot_eq_mmRelu (x : FVec Ideal S100000x128 .f32) (r : FVec Ideal S128x128 .f32) :
    Host.dotGeneral (F := Ideal) dot_S100000x128_S128x128_S100000x128_1_0_0_1_n_n none
        (maximumf x (broadcastInDim S100000x128 ![] bcast_S_S100000x128 (constant (F := Ideal) S_ .f32 0x00000000#32))) r
      = Cert.Spec.mmRelu x r := by
  funext j
  obtain ⟨p, q, rfl⟩ : ∃ (p : Fin 100000) (q : Fin 128), j = ix2 p q := ⟨j 0, j 1, eq_ix2 j⟩
  rw [dot_rows_apply]
  show _ = ∑ k : Fin 128, max (x (ix2 p k)) 0 * r (ix2 k q)
  refine Finset.sum_congr rfl fun k _ => ?_
  rw [maximumf_apply, zero_bcast_apply]

/-! ## The scatter-add by label -/

/-- No window offset on the label axis (it is an inserted axis). -/
theorem sc_window_0 (j : S100000x128.Idx) : scatter_S512x128_S100000x1_S100000x128_1_0_0_1.window j 0 = 0 := by
  unfold ScatterDims.window
  rw [dif_neg (show ¬(0 : Fin S512x128.rank) ∈ scatter_S512x128_S100000x1_S100000x128_1_0_0_1.sKept by decide)]

/-- On the feature axis the window offset is the update's feature coordinate. -/
theorem sc_window_1 (j : S100000x128.Idx) : scatter_S512x128_S100000x1_S100000x128_1_0_0_1.window j 1 = (j 1).val := by
  unfold ScatterDims.window
  rw [dif_pos (show (1 : Fin S512x128.rank) ∈ scatter_S512x128_S100000x1_S100000x128_1_0_0_1.sKept by decide)]
  rfl

/-- The feature axis has no start index. -/
theorem sc_start_1 (j : S100000x128.Idx) (idx : IVec S100000x1 32) :
    scatter_S512x128_S100000x1_S100000x128_1_0_0_1.start j idx 1 = 0 := by
  unfold ScatterDims.start
  rw [dif_neg (show ¬(1 : Fin S512x128.rank) ∈ scatter_S512x128_S100000x1_S100000x128_1_0_0_1.scatterDimsToOperandDims by decide)]

/-- The update at row `n` reads its start index at `(n, 0)`. -/
theorem sc_siIdx (j : S100000x128.Idx) (c : Fin scatter_S512x128_S100000x1_S100000x128_1_0_0_1.scatterDimsToOperandDims.length) :
    scatter_S512x128_S100000x1_S100000x128_1_0_0_1.siIdx j c = ix2 (j 0) (0 : Fin 1) := by
  funext b
  apply Fin.ext
  match b with
  | ⟨0, _⟩ =>
    unfold ScatterDims.siIdx
    rw [dif_neg (show ¬((⟨0, by decide⟩ : Fin S100000x1.rank).val = scatter_S512x128_S100000x1_S100000x128_1_0_0_1.indexVectorDim) by decide)]
    rfl
  | ⟨1, _⟩ =>
    unfold ScatterDims.siIdx
    rw [dif_pos (show (⟨1, by decide⟩ : Fin S100000x1.rank).val = scatter_S512x128_S100000x1_S100000x128_1_0_0_1.indexVectorDim by decide)]
    have hc : c.val < 1 := c.isLt
    show c.val = 0
    omega

/-- On the label axis the start is the label at `(n, 0)`, read signed. -/
theorem sc_start_0 (j : S100000x128.Idx) (idx : IVec S100000x1 32) :
    scatter_S512x128_S100000x1_S100000x128_1_0_0_1.start j idx 0 = (idx (ix2 (j 0) (0 : Fin 1))).toInt := by
  unfold ScatterDims.start
  rw [dif_pos (show (0 : Fin S512x128.rank) ∈ scatter_S512x128_S100000x1_S100000x128_1_0_0_1.scatterDimsToOperandDims by decide), sc_siIdx]
  rfl

/-- Where an update lands: update `j` lands at `i` exactly when its row's label, read signed, is `i`'s row and
    the feature coordinates agree (a label outside `0 … 511` lands nowhere). -/
theorem sc_resultIdx_iff (idx : IVec S100000x1 32) (j : S100000x128.Idx) (i : S512x128.Idx) :
    scatter_S512x128_S100000x1_S100000x128_1_0_0_1.resultIdx? j idx = some i
      ↔ (idx (ix2 (j 0) (0 : Fin 1))).toInt = ((i 0).val : ℤ) ∧ (j 1).val = (i 1).val := by
  have e0 : scatter_S512x128_S100000x1_S100000x128_1_0_0_1.start j idx 0
      + (scatter_S512x128_S100000x1_S100000x128_1_0_0_1.window j 0 : ℤ) = (idx (ix2 (j 0) (0 : Fin 1))).toInt := by
    rw [sc_start_0, sc_window_0, Nat.cast_zero, add_zero]
  have e1 : scatter_S512x128_S100000x1_S100000x128_1_0_0_1.start j idx 1
      + (scatter_S512x128_S100000x1_S100000x128_1_0_0_1.window j 1 : ℤ) = ((j 1).val : ℤ) := by
    rw [sc_start_1, sc_window_1, zero_add]
  have hi0 : (i 0).val < 512 := (i 0).isLt
  have hi1 : (i 1).val < 128 := (i 1).isLt
  have hj1 : (j 1).val < 128 := (j 1).isLt
  unfold ScatterDims.resultIdx?
  split
  · rename_i h
    have h0 := h 0
    have h1 := h 1
    rw [e0] at h0
    rw [e1] at h1
    constructor
    · intro hs
      have hs' := Option.some.inj hs
      have c0 : (scatter_S512x128_S100000x1_S100000x128_1_0_0_1.start j idx 0
          + (scatter_S512x128_S100000x1_S100000x128_1_0_0_1.window j 0 : ℤ)).toNat = (i 0).val :=
        congrArg (fun v : S512x128.Idx => (v 0).val) hs'
      have c1 : (scatter_S512x128_S100000x1_S100000x128_1_0_0_1.start j idx 1
          + (scatter_S512x128_S100000x1_S100000x128_1_0_0_1.window j 1 : ℤ)).toNat = (i 1).val :=
        congrArg (fun v : S512x128.Idx => (v 1).val) hs'
      rw [e0] at c0
      rw [e1] at c1
      omega
    · rintro ⟨ht, hf⟩
      refine congrArg some (funext fun a => Fin.ext ?_)
      match a with
      | ⟨0, _⟩ =>
        show (scatter_S512x128_S100000x1_S100000x128_1_0_0_1.start j idx 0
          + (scatter_S512x128_S100000x1_S100000x128_1_0_0_1.window j 0 : ℤ)).toNat = (i 0).val
        rw [e0]; omega
      | ⟨1, _⟩ =>
        show (scatter_S512x128_S100000x1_S100000x128_1_0_0_1.start j idx 1
          + (scatter_S512x128_S100000x1_S100000x128_1_0_0_1.window j 1 : ℤ)).toNat = (i 1).val
        rw [e1]; omega
  · rename_i h
    constructor
    · intro hs; cases hs
    · rintro ⟨ht, hf⟩
      exfalso
      apply h
      intro a
      match a with
      | ⟨0, _⟩ =>
        show 0 ≤ scatter_S512x128_S100000x1_S100000x128_1_0_0_1.start j idx 0
            + (scatter_S512x128_S100000x1_S100000x128_1_0_0_1.window j 0 : ℤ)
          ∧ scatter_S512x128_S100000x1_S100000x128_1_0_0_1.start j idx 0
            + (scatter_S512x128_S100000x1_S100000x128_1_0_0_1.window j 0 : ℤ) < ((512 : ℕ) : ℤ)
        rw [e0]; omega
      | ⟨1, _⟩ =>
        show 0 ≤ scatter_S512x128_S100000x1_S100000x128_1_0_0_1.start j idx 1
            + (scatter_S512x128_S100000x1_S100000x128_1_0_0_1.window j 1 : ℤ)
          ∧ scatter_S512x128_S100000x1_S100000x128_1_0_0_1.start j idx 1
            + (scatter_S512x128_S100000x1_S100000x128_1_0_0_1.window j 1 : ℤ) < ((128 : ℕ) : ℤ)
        rw [e1]; omega

/-- The scatter-add read at `(b, g)`: the operand there plus the sum, over the rows whose label is `b`, of the
    update at `(n, g)`. -/
theorem scatter_apply (z : FVec Ideal S512x128 .f32) (idx : IVec S100000x1 32) (upd : FVec Ideal S100000x128 .f32)
    (b : Fin 512) (g : Fin 128) :
    Host.scatterAdd (F := Ideal) scatter_S512x128_S100000x1_S100000x128_1_0_0_1 z idx upd (ix2 b g)
      = z (ix2 b g) + ∑ n : Fin 100000, if (idx (ix2 n (0 : Fin 1))).toInt = (b.val : ℤ) then upd (ix2 n g) else 0 := by
  simp only [Host.scatterAdd]
  rw [Ideal.hostScatterAdd_def]
  unfold Ideal.hostScatterAdd
  refine congrArg (fun s => z (ix2 b g) + s) ?_
  rw [Finset.sum_filter, sum_idx2]
  refine Finset.sum_congr rfl fun n _ => ?_
  by_cases hn : (idx (ix2 n (0 : Fin 1))).toInt = (b.val : ℤ)
  · rw [if_pos hn, Finset.sum_eq_single g]
    · rw [if_pos ((sc_resultIdx_iff idx (ix2 n g) (ix2 b g)).2 ⟨hn, rfl⟩)]
    · intro f _ hfg
      rw [if_neg]
      intro hc
      exact hfg (Fin.ext ((sc_resultIdx_iff idx (ix2 n f) (ix2 b g)).1 hc).2)
    · intro h
      exact absurd (Finset.mem_univ g) h
  · rw [if_neg hn]
    refine Finset.sum_eq_zero fun f _ => ?_
    rw [if_neg]
    intro hc
    exact hn ((sc_resultIdx_iff idx (ix2 n f) (ix2 b g)).1 hc).1

/-! ## The pooled rows' product with the head's 128 × 1 weight -/

/-- The left operand's row coordinate is the output's row. -/
theorem lhs_head_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
/-- The left operand's column coordinate is the contraction position. -/
theorem lhs_head_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
/-- The right operand's row coordinate is the contraction position. -/
theorem rhs_head_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
/-- The right operand's column coordinate is the output's column. -/
theorem rhs_head_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- Entry `(b, u)` of the product is the sum over `k` of `l (b, k) · r (k, u)`. -/
theorem dot_head_apply (l : FVec Ideal S512x128 .f32) (r : FVec Ideal S128x1 .f32) (b : Fin 512) (u : Fin 1) :
    Host.dotGeneral (F := Ideal) dot_S512x128_S128x1_S512x1_1_0_0_1_n_n none l r (ix2 b u)
      = ∑ k : Fin 128, l (ix2 b k) * r (ix2 k u) := by
  simp only [Host.dotGeneral]
  rw [Ideal.dotGeneral_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 b u) ((contrEquiv1 dot_S512x128_S128x1_S512x1_1_0_0_1_n_n 128 rfl rfl).symm k) = ix2 b k := funext fun a => Fin.ext (by
    match a with
    | ⟨0, _⟩ => exact lhs_head_0 _ _
    | ⟨1, _⟩ => exact (lhs_head_1 _ _).trans hk)
  have er : dot_S512x128_S128x1_S512x1_1_0_0_1_n_n.rhsIdx (ix2 b u) ((contrEquiv1 dot_S512x128_S128x1_S512x1_1_0_0_1_n_n 128 rfl rfl).symm k) = ix2 k u := funext fun a => Fin.ext (by
    match a with
    | ⟨0, _⟩ => exact (rhs_head_0 _ _).trans hk
    | ⟨1, _⟩ => exact rhs_head_1 _ _)
  rw [el, er]

/-! ## The label column, the bias, the closing reshape -/

/-- The label vector broadcast to a column reads, at `(n, 0)`, the label of row `n`. -/
theorem labels_apply (bv : IVec S100000 32) (n : Fin 100000) :
    broadcastInDim S100000x1 ![0] bcast_S100000_S100000x1_0 bv (ix2 n (0 : Fin 1)) = bv (ix1 n) := by
  refine broadcastInDim_apply _ _ _ _ (ix1 n) fun a => ?_
  match a with
  | ⟨0, _⟩ =>
    show n.val = if (100000 : ℕ) = 1 then 0 else n.val
    rw [if_neg (by decide)]

/-- The one-entry bias broadcast to a 512 × 1 column reads the bias everywhere. -/
theorem bias_apply (lb : FVec Ideal S1 .f32) (b : Fin 512) :
    broadcastInDim S512x1 ![0, 1] bcast_S1x1_S512x1_0_1 (broadcastInDim S1x1 ![1] bcast_S1_S1x1_1 lb) (ix2 b (0 : Fin 1))
      = lb (ix1 (0 : Fin 1)) := by
  rw [broadcastInDim_apply _ bcast_S1x1_S512x1_0_1 _ (ix2 b (0 : Fin 1)) (ix2 (0 : Fin 1) (0 : Fin 1)) (fun a => by
    match a with
    | ⟨0, _⟩ => show (0 : ℕ) = if (1 : ℕ) = 1 then 0 else b.val; rw [if_pos rfl]
    | ⟨1, _⟩ => show (0 : ℕ) = if (1 : ℕ) = 1 then 0 else 0; rw [if_pos rfl])]
  refine broadcastInDim_apply _ _ _ _ (ix1 (0 : Fin 1)) fun a => ?_
  match a with
  | ⟨0, _⟩ => show (0 : ℕ) = if (1 : ℕ) = 1 then 0 else 0; rw [if_pos rfl]

/-- A 512 × 1 column cast to a 512-vector reads, at `b`, the column at `(b, 0)`. -/
theorem column_cast_apply {α : Type} (v : S512x1.Idx → α) (b : Fin 512) :
    shapeCast S512 v shapeCasts_S512x1_S512 (ix1 b) = v (ix2 b (0 : Fin 1)) :=
  shapeCast_apply v _ _ _ (by
    rw [Shape.rowMajor_val_two, Shape.rowMajor_val_one]
    show b.val * 1 + 0 = b.val
    rw [Nat.mul_one, Nat.add_zero])

/-- The closing chain is the linear head of the sum pool. -/
theorem tail_eq (x : FVec Ideal S100000x128 .f32) (bv : IVec S100000 32) (lw : FVec Ideal S128x1 .f32) (lb : FVec Ideal S1 .f32) :
    shapeCast S512 (addf (Host.dotGeneral (F := Ideal) dot_S512x128_S128x1_S512x1_1_0_0_1_n_n none
        (Host.scatterAdd (F := Ideal) scatter_S512x128_S100000x1_S100000x128_1_0_0_1
          (broadcastInDim S512x128 ![] bcast_S_S512x128 (constant (F := Ideal) S_ .f32 0x00000000#32))
          (broadcastInDim S100000x1 ![0] bcast_S100000_S100000x1_0 bv)
          (maximumf x (broadcastInDim S100000x128 ![] bcast_S_S100000x128 (constant (F := Ideal) S_ .f32 0x00000000#32))))
        lw)
      (broadcastInDim S512x1 ![0, 1] bcast_S1x1_S512x1_0_1 (broadcastInDim S1x1 ![1] bcast_S1_S1x1_1 lb))) shapeCasts_S512x1_S512
      = Cert.Spec.head (Cert.Spec.pooled x bv) lw (lb (ix1 (0 : Fin 1))) := by
  funext j
  obtain ⟨b, rfl⟩ : ∃ b : Fin 512, j = ix1 b := ⟨j 0, eq_ix1 j⟩
  rw [column_cast_apply, addf_apply, dot_head_apply, bias_apply]
  show _ = (∑ k : Fin 128, (∑ n : Fin 100000, if (bv (ix1 n)).toInt = (b.val : ℤ) then max (x (ix2 n k)) 0 else 0)
      * lw (ix2 k (0 : Fin 1))) + lb (ix1 (0 : Fin 1))
  refine congrArg (fun s => s + lb (ix1 (0 : Fin 1))) ?_
  refine Finset.sum_congr rfl fun k _ => ?_
  rw [scatter_apply, zero_bcast_apply, zero_add]
  refine congrArg (fun s => s * lw (ix2 k (0 : Fin 1))) ?_
  refine Finset.sum_congr rfl fun n _ => ?_
  rw [labels_apply, maximumf_apply, zero_bcast_apply]

end Cert.ReferenceIdeal.RefOps

end
-- ==== Proof.RefImports.lean ====
/- The reference's run, gathered for the module that compares the two programs' values. -/
import proofs.«423290_j63376537420022_1_alg».proof.Proof.Gen.ReferenceIdeal.Run
-- ==== Proof.RefNet.lean ====
/-
  The reference's result as the network of the shared host operations: its composed term is, read off as it stands, three
  aggregated dense layers (the host's matrix products, a relu before the second and third), the scatter-add pool, the head's
  product, the bias and the closing reshape; with the three index-level readings of those operations it is the network
  both programs are compared with.
-/
import proofs.«423290_j63376537420022_1_alg».proof.Proof.HostChain
import proofs.«423290_j63376537420022_1_alg».proof.Proof.RefValue
import proofs.«423290_j63376537420022_1_alg».proof.Proof.RefImports

set_option maxRecDepth 16384

noncomputable section

namespace Cert.ReferenceIdeal.RefNet

open Cert.ReferenceIdeal Cert.ReferenceIdeal.Gen
open Idealize.ShloMosaic Idealize.ShloMosaic.TcCoe Idealize.ShloMosaic.ValueIdx Idealize.SL.Sem
open Cert.HostChain (layer net)

/-- The reference's composed term with the shared host operations named, its matrix products and its closing chain as
    the host states them. -/
def netR (X : FVec Ideal S100000x128 .f32) (ei : IVec S2x1600000 32) (ew : FVec Ideal S1600000 .f32) (bv : IVec S100000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (lw : FVec Ideal S128x1 .f32) (lb : FVec Ideal S1 .f32) : FVec Ideal S512 .f32 :=
  shapeCast S512 (addf (Host.dotGeneral (F := Ideal) dot_S512x128_S128x1_S512x1_1_0_0_1_n_n none
      (Host.scatterAdd (F := Ideal) scatter_S512x128_S100000x1_S100000x128_1_0_0_1
        (broadcastInDim S512x128 ![] bcast_S_S512x128 (constant (F := Ideal) S_ .f32 0x00000000#32))
        (broadcastInDim S100000x1 ![0] bcast_S100000_S100000x1_0 bv)
        (maximumf
          (layer ei ew (Host.dotGeneral (F := Ideal) dot_S100000x128_S128x128_S100000x128_1_0_0_1_n_n none
            (maximumf
              (layer ei ew (Host.dotGeneral (F := Ideal) dot_S100000x128_S128x128_S100000x128_1_0_0_1_n_n none
                (maximumf
                  (layer ei ew (Host.dotGeneral (F := Ideal) dot_S100000x128_S128x128_S100000x128_1_0_0_1_n_n none X W1) b1)
                  (broadcastInDim S100000x128 ![] bcast_S_S100000x128 (constant (F := Ideal) S_ .f32 0x00000000#32))) W2) b2)
              (broadcastInDim S100000x128 ![] bcast_S_S100000x128 (constant (F := Ideal) S_ .f32 0x00000000#32))) W3) b3)
          (broadcastInDim S100000x128 ![] bcast_S_S100000x128 (constant (F := Ideal) S_ .f32 0x00000000#32))))
      lw)
    (broadcastInDim S512x1 ![0, 1] bcast_S1x1_S512x1_0_1 (broadcastInDim S1x1 ![1] bcast_S1_S1x1_1 lb))) shapeCasts_S512x1_S512

/-- With the host's matrix products and closing chain read index by index, that is the network. -/
theorem netR_eq_net (X : FVec Ideal S100000x128 .f32) (ei : IVec S2x1600000 32) (ew : FVec Ideal S1600000 .f32) (bv : IVec S100000 32)
    (W1 : FVec Ideal S128x128 .f32) (b1 : FVec Ideal S128 .f32) (W2 : FVec Ideal S128x128 .f32) (b2 : FVec Ideal S128 .f32)
    (W3 : FVec Ideal S128x128 .f32) (b3 : FVec Ideal S128 .f32) (lw : FVec Ideal S128x1 .f32) (lb : FVec Ideal S1 .f32) :
    netR X ei ew bv W1 b1 W2 b2 W3 b3 lw lb = net X ei ew bv W1 b1 W2 b2 W3 b3 lw lb := by
  unfold netR Cert.HostChain.net
  rw [Cert.ReferenceIdeal.RefOps.tail_eq, Cert.ReferenceIdeal.RefOps.relu_dot_eq_mmRelu, Cert.ReferenceIdeal.RefOps.relu_dot_eq_mmRelu,
    Cert.ReferenceIdeal.RefOps.dot_eq_mm]

/-- THE REFERENCE'S RESULT is the network of its arguments' launch contents. -/
theorem res_eq_net (m : (ℓ : Loc nD τ sig) → Buf (Elt Ideal) ℓ) (c : Dev nD) :
    Cert.ReferenceIdeal.Value.res_main_v160 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  have composed : Cert.ReferenceIdeal.Value.res_main_v160 (F := Ideal) m c
      = netR (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) := by
    unfold Cert.ReferenceIdeal.Value.res_main_v160
    rfl
  exact composed.trans (netR_eq_net _ _ _ _ _ _ _ _ _ _ _ _)

end Cert.ReferenceIdeal.RefNet

end
-- ==== Proof.lean ====
/-
  The certificate of the graph-convolution regression network against its reference: three feature transforms and a
  sum-pool-and-head kernel among host operations, against the same host operations with the host's matrix products and a
  scatter-add pool.

  The frames of the two kernel programs are the run of @main as its eleven segments (Proof/RunAll.lean, and its copy for
  the word-level program under Proof/Bits/): every argument array ends as launched. The reference's frame is its run with
  the result dropped. The idealized program is the word-level program's own text read over the extended reals, so nothing
  is owed for the idealization. Over the extended reals both programs return ONE function of the twelve arguments, the
  network of Proof/HostChain.lean: the kernel's returned buffer by reading the fold of its segments (Proof/KernelNet.lean:
  each transform's array is the dense layer of its input and weight, the matrix unit's product into a zero accumulator
  being the plain sum of products and a change of float format the identity; the head's array is the linear head of the sum
  pool, the one-hot mask times the clamped rows summed over the 50 grid points being the sum over the rows of each label),
  the reference's composed term by reading the host's products and its scatter-add index by index (Proof/RefNet.lean).
  Only commutative-monoid laws of the extended reals' sum and `0 · x = 0`, `1 · x = x` are used, so the precondition is
  never opened.
-/
import proofs.«423290_j63376537420022_1_alg».proof.Defs
import proofs.«423290_j63376537420022_1_alg».proof.Proof.Gen.Kernel
import proofs.«423290_j63376537420022_1_alg».proof.Proof.Gen.KernelIdeal
import proofs.«423290_j63376537420022_1_alg».proof.Proof.Gen.ReferenceIdeal
import proofs.«423290_j63376537420022_1_alg».proof.Proof.Gen.Pre_finite_inputs
import proofs.«423290_j63376537420022_1_alg».proof.Proof.RunAll
import proofs.«423290_j63376537420022_1_alg».proof.Proof.Bits.RunAll
import proofs.«423290_j63376537420022_1_alg».proof.Proof.KernelNet
import proofs.«423290_j63376537420022_1_alg».proof.Proof.RefNet
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p : Cert.frame_Kernel := fun m ρ _ => Cert.Kernel.Hand.frame (F := Bits) m ρ

/-- So does the idealized program. -/
theorem frame_pi : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs return the network of their arguments, which agree. -/
theorem algebraic : Cert.algebraic_KernelIdeal_ReferenceIdeal := by
  intro m ρ m' ρ' _ hagree
  refine ⟨fun c => Cert.KernelIdeal.Hand.W11 (F := Ideal) m c (Proc.devRef .tc Cert.KernelIdeal.main_v87), ?_, ?_⟩
  · refine (θ_run Cert.KernelIdeal.defs _ _).mono (fun r h c => ?_) (Cert.KernelIdeal.Hand.run_all (F := Ideal) m ρ)
    have hc := h c
    exact ⟨hc _ (Cert.KernelIdeal.Hand.mem_uc Cert.KernelIdeal.main_v87 (by decide)),
      (hc _ (Cert.KernelIdeal.Hand.mem_uc Cert.KernelIdeal.main_arg0 (by decide))).trans (Cert.KernelIdeal.Hand.W11_main_arg0 m c),
      (hc _ (Cert.KernelIdeal.Hand.mem_uc Cert.KernelIdeal.main_arg1 (by decide))).trans (Cert.KernelIdeal.Hand.W11_main_arg1 m c),
      (hc _ (Cert.KernelIdeal.Hand.mem_uc Cert.KernelIdeal.main_arg2 (by decide))).trans (Cert.KernelIdeal.Hand.W11_main_arg2 m c),
      (hc _ (Cert.KernelIdeal.Hand.mem_uc Cert.KernelIdeal.main_arg3 (by decide))).trans (Cert.KernelIdeal.Hand.W11_main_arg3 m c),
      (hc _ (Cert.KernelIdeal.Hand.mem_uc Cert.KernelIdeal.main_arg4 (by decide))).trans (Cert.KernelIdeal.Hand.W11_main_arg4 m c),
      (hc _ (Cert.KernelIdeal.Hand.mem_uc Cert.KernelIdeal.main_arg5 (by decide))).trans (Cert.KernelIdeal.Hand.W11_main_arg5 m c),
      (hc _ (Cert.KernelIdeal.Hand.mem_uc Cert.KernelIdeal.main_arg6 (by decide))).trans (Cert.KernelIdeal.Hand.W11_main_arg6 m c),
      (hc _ (Cert.KernelIdeal.Hand.mem_uc Cert.KernelIdeal.main_arg7 (by decide))).trans (Cert.KernelIdeal.Hand.W11_main_arg7 m c),
      (hc _ (Cert.KernelIdeal.Hand.mem_uc Cert.KernelIdeal.main_arg8 (by decide))).trans (Cert.KernelIdeal.Hand.W11_main_arg8 m c),
      (hc _ (Cert.KernelIdeal.Hand.mem_uc Cert.KernelIdeal.main_arg9 (by decide))).trans (Cert.KernelIdeal.Hand.W11_main_arg9 m c),
      (hc _ (Cert.KernelIdeal.Hand.mem_uc Cert.KernelIdeal.main_arg10 (by decide))).trans (Cert.KernelIdeal.Hand.W11_main_arg10 m c),
      (hc _ (Cert.KernelIdeal.Hand.mem_uc Cert.KernelIdeal.main_arg11 (by decide))).trans (Cert.KernelIdeal.Hand.W11_main_arg11 m c)⟩
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v160 (F := Ideal) m' c
      = Cert.KernelIdeal.Hand.W11 (F := Ideal) m c (Proc.devRef .tc Cert.KernelIdeal.main_v87)
    rw [Cert.ReferenceIdeal.RefNet.res_eq_net m' c, Cert.KernelNet.kernel_eq_net m c,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
